-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x256 .f32) (main_arg9 : FVec F S256 .f32) (main_arg10 : FVec F S256x128 .f32) (main_arg11 : FVec F S128 .f32) (main_arg12 : FVec F S128x1 .f32) (main_arg13 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128x128 .f32) (main_arg6 : FVec F S128x128 .f32) (main_arg7 : FVec F S128 .f32) (main_arg8 : FVec F S128x256 .f32) (main_arg9 : FVec F S256 .f32) (main_arg10 : FVec F S256x128 .f32) (main_arg11 : FVec F S128 .f32) (main_arg12 : FVec F S128x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x4 .f32) (main_arg1 : IVec S2x1600000 32) (main_arg2 : FVec F S4x128 .f32) (main_arg3 : FVec F S4x128 .f32) (main_arg4 : FVec F S128 .f32) (main_arg5 : FVec F S128x128 .f32) (main_arg6 : FVec F S128x128 .f32) (main_arg7 : FVec F S128 .f32) (main_arg8 : FVec F S128x256 .f32) (main_arg9 : FVec F S256 .f32) (main_arg10 : FVec F S256x128 .f32) (main_arg11 : FVec F S128 .f32) (main_arg12 : FVec F S128x1 .f32) (main_arg13 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x1 : Shape := ⟨2, ![1, 1]⟩
abbrev S1600000x4 : Shape := ⟨2, ![1600000, 4]⟩
abbrev S100000x1 : Shape := ⟨2, ![100000, 1]⟩
abbrev S100000x128 : Shape := ⟨2, ![100000, 128]⟩
abbrev S5000x4 : Shape := ⟨2, ![5000, 4]⟩
abbrev S5000x128 : Shape := ⟨2, ![5000, 128]⟩
abbrev S1x128 : Shape := ⟨2, ![1, 128]⟩
abbrev S1600000x128 : Shape := ⟨2, ![1600000, 128]⟩
abbrev S1x256 : Shape := ⟨2, ![1, 256]⟩

abbrev nBuf : Space → Nat
  | .hbm => 94
  | .vmem => 26
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x128, .f32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1, .i32⟩
  | .hbm, ⟨40, _⟩ => ⟨S_, .i32⟩
  | .hbm, ⟨41, _⟩ => ⟨S1600000x1, .i32⟩
  | .hbm, ⟨42, _⟩ => ⟨S1600000x1, .i1⟩
  | .hbm, ⟨43, _⟩ => ⟨S1x1, .i32⟩
  | .hbm, ⟨44, _⟩ => ⟨S1600000x1, .i32⟩
  | .hbm, ⟨45, _⟩ => ⟨S1600000x1, .i1⟩
  | .hbm, ⟨46, _⟩ => ⟨S1600000x1, .i1⟩
  | .hbm, ⟨47, _⟩ => ⟨S_, .i1⟩
  | .hbm, ⟨48, _⟩ => ⟨S1600000, .i1⟩
  | .hbm, ⟨49, _⟩ => ⟨S1600000x4, .f32⟩
  | .hbm, ⟨50, _⟩ => ⟨S1600000x4, .i1⟩
  | .hbm, ⟨51, _⟩ => ⟨S_, .f32⟩
  | .hbm, ⟨52, _⟩ => ⟨S1600000x4, .f32⟩
  | .hbm, ⟨53, _⟩ => ⟨S1600000x4, .f32⟩
  | .hbm, ⟨54, _⟩ => ⟨S_, .f32⟩
  | .hbm, ⟨55, _⟩ => ⟨S100000x4, .f32⟩
  | .hbm, ⟨56, _⟩ => ⟨S1600000x1, .i32⟩
  | .hbm, ⟨57, _⟩ => ⟨S100000x4, .f32⟩
  | .hbm, ⟨58, _⟩ => ⟨S100000x1, .f32⟩
  | .hbm, ⟨59, _⟩ => ⟨S100000x4, .f32⟩
  | .hbm, ⟨60, _⟩ => ⟨S100000x4, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1, .i32⟩
  | .hbm, ⟨71, _⟩ => ⟨S_, .i32⟩
  | .hbm, ⟨72, _⟩ => ⟨S1600000x1, .i32⟩
  | .hbm, ⟨73, _⟩ => ⟨S1600000x1, .i1⟩
  | .hbm, ⟨74, _⟩ => ⟨S1x1, .i32⟩
  | .hbm, ⟨75, _⟩ => ⟨S1600000x1, .i32⟩
  | .hbm, ⟨76, _⟩ => ⟨S1600000x1, .i1⟩
  | .hbm, ⟨77, _⟩ => ⟨S1600000x1, .i1⟩
  | .hbm, ⟨78, _⟩ => ⟨S_, .i1⟩
  | .hbm, ⟨79, _⟩ => ⟨S1600000, .i1⟩
  | .hbm, ⟨80, _⟩ => ⟨S1600000x128, .f32⟩
  | .hbm, ⟨81, _⟩ => ⟨S1600000x128, .i1⟩
  | .hbm, ⟨82, _⟩ => ⟨S_, .f32⟩
  | .hbm, ⟨83, _⟩ => ⟨S1600000x128, .f32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S1x1, .f32⟩
  | .local _ .vmem, ⟨0, _⟩ => ⟨S5000x4, .f32⟩
  | .local _ .vmem, ⟨1, _⟩ => ⟨S5000x4, .f32⟩
  | .local _ .vmem, ⟨2, _⟩ => ⟨S5000x4, .f32⟩
  | .local _ .vmem, ⟨3, _⟩ => ⟨S5000x4, .f32⟩
  | .local _ .vmem, ⟨4, _⟩ => ⟨S4x128, .f32⟩
  | .local _ .vmem, ⟨5, _⟩ => ⟨S4x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x256, .f32⟩
  | .local _ .vmem, ⟨20, _⟩ => ⟨S256, .f32⟩
  | .local _ .vmem, ⟨21, _⟩ => ⟨S256x128, .f32⟩
  | .local _ .vmem, ⟨22, _⟩ => ⟨S128, .f32⟩
  | .local _ .vmem, ⟨23, _⟩ => ⟨S128x1, .f32⟩
  | .local _ .vmem, ⟨24, _⟩ => ⟨S1, .f32⟩
  | .local _ .vmem, ⟨25, _⟩ => ⟨S1x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v11 : Ref sig .tc := ⟨.hbm, 53, rfl⟩
abbrev main_cst_3 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v19 : Ref sig .tc := ⟨.hbm, 84, rfl⟩
abbrev main_cst_4 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_16 : BitVec 32 := 0#32
  let v31 : BitVec 1 := Scalar.cmpi .ne v30 c0_i32_16
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x4_0 : S1600000.BroadcastsInDim S1600000x4 (![0] : Fin 1 → Fin S1600000x4.rank)
  bcast_S_S1600000x4 : S_.BroadcastsInDim S1600000x4 (![] : Fin 0 → Fin S1600000x4.rank)
  bcast_S_S100000x4 : S_.BroadcastsInDim S100000x4 (![] : Fin 0 → Fin S100000x4.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  reduces_S5000x128_S128 : S5000x128.Reduces [0] S128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  inb_S1x1_S1x1_0_0 : ∀ a, (![0, 0] : Fin 2 → Nat) a + S1x1.size a ≤ S1x1.size a
  h_S1x1 : 0 < S1x1.numel
  scatter_S100000_S1600000x1_S1600000_n_0_0_1_wf : ScatterDims.WF S100000 S1600000x1 S1600000 [] [0] [0] 1
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S5000x4_S4x128_S5000x128_1_0_0_1_n_n_wf : DotDims.WF S5000x4 S4x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1x128_S128x256_S1x256_1_0_0_1_n_n_wf : DotDims.WF S1x128 S128x256 S1x256 [1] [0] [0] [1] [] []
  dot_S1x256_S256x128_S1x128_1_0_0_1_n_n_wf : DotDims.WF S1x256 S256x128 S1x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S100000x4.size a
  hwx0_1 : ∀ i : grid0.Coords, EltTy.bits .f32 = 32 ∨ (Rect.block (s := S100000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x128.size a ≤ S1x128.size a
  hwx2_0 : ∀ i : grid2.Coords, EltTy.bits .f32 = 32 ∨ (Rect.block (s := S1x128) S1x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x1.size a ≤ S1x1.size a
  hwx2_7 : ∀ i : grid2.Coords, EltTy.bits .f32 = 32 ∨ (Rect.block (s := S1x1) S1x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_v17) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v26) S1x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S1x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x4 : Shape := ⟨2, ![1600000, 4]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x256 : Shape := ⟨2, ![1, 256]⟩

abbrev nBuf : Space → Nat
  | .hbm => 145
  | .vmem => 0
  | .smem => 0
  | _ => 0

abbrev hbmTy0_0 (i : Nat) : BufTy := match i % 128 with
  | 0 => ⟨S100000x4, .f32⟩
  | 1 => ⟨S2x1600000, .i32⟩
  | 2 => ⟨S4x128, .f32⟩
  | 3 => ⟨S4x128, .f32⟩
  | 4 => ⟨S128, .f32⟩
  | 5 => ⟨S128x128, .f32⟩
  | 6 => ⟨S128x128, .f32⟩
  | 7 => ⟨S128, .f32⟩
  | 8 => ⟨S128x256, .f32⟩
  | 9 => ⟨S256, .f32⟩
  | 10 => ⟨S256x128, .f32⟩
  | 11 => ⟨S128, .f32⟩
  | 12 => ⟨S128x1, .f32⟩
  | 13 => ⟨S1, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1, .i32⟩
  | 27 => ⟨S_, .i32⟩
  | 28 => ⟨S1600000x1, .i32⟩
  | 29 => ⟨S1600000x1, .i1⟩
  | 30 => ⟨S1x1, .i32⟩
  | 31 => ⟨S1600000x1, .i32⟩
  | 32 => ⟨S1600000x1, .i1⟩
  | 33 => ⟨S1600000x1, .i1⟩
  | 34 => ⟨S_, .i1⟩
  | 35 => ⟨S1600000, .i1⟩
  | 36 => ⟨S1600000x4, .f32⟩
  | 37 => ⟨S1600000x4, .i1⟩
  | 38 => ⟨S_, .f32⟩
  | 39 => ⟨S1600000x4, .f32⟩
  | 40 => ⟨S1600000x4, .f32⟩
  | 41 => ⟨S_, .f32⟩
  | 42 => ⟨S100000x4, .f32⟩
  | 43 => ⟨S1600000x1, .i32⟩
  | 44 => ⟨S100000x4, .f32⟩
  | 45 => ⟨S_, .f32⟩
  | 46 => ⟨S1600000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S_, .f32⟩
  | 53 => ⟨S100000, .f32⟩
  | 54 => ⟨S100000, .f32⟩
  | 55 => ⟨S100000x1, .f32⟩
  | 56 => ⟨S100000x4, .f32⟩
  | 57 => ⟨S100000x4, .f32⟩
  | 58 => ⟨S100000x128, .f32⟩
  | 59 => ⟨S1x128, .f32⟩
  | 60 => ⟨S100000x128, .f32⟩
  | 61 => ⟨S100000x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1, .i32⟩
  | 76 => ⟨S_, .i32⟩
  | 77 => ⟨S1600000x1, .i32⟩
  | 78 => ⟨S1600000x1, .i1⟩
  | 79 => ⟨S1x1, .i32⟩
  | 80 => ⟨S1600000x1, .i32⟩
  | 81 => ⟨S1600000x1, .i1⟩
  | 82 => ⟨S1600000x1, .i1⟩
  | 83 => ⟨S_, .i1⟩
  | 84 => ⟨S1600000, .i1⟩
  | 85 => ⟨S1600000x128, .f32⟩
  | 86 => ⟨S1600000x128, .i1⟩
  | 87 => ⟨S_, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S_, .f32⟩
  | 95 => ⟨S1600000, .f32⟩
  | 96 => ⟨S_, .f32⟩
  | 97 => ⟨S100000, .f32⟩
  | 98 => ⟨S1600000x1, .i32⟩
  | 99 => ⟨S100000, .f32⟩
  | 100 => ⟨S_, .f32⟩
  | 101 => ⟨S_, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S1x256, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S100000x4, .f32⟩

abbrev hbmTy0_1 (i : Nat) : BufTy := match i % 128 with
  | 0 => ⟨S1x128, .f32⟩
  | 1 => ⟨S1x128, .f32⟩
  | 2 => ⟨S1x128, .f32⟩
  | 3 => ⟨S_, .f32⟩
  | 4 => ⟨S1x128, .f32⟩
  | 5 => ⟨S1x128, .f32⟩
  | 6 => ⟨S1x1, .f32⟩
  | 7 => ⟨S1x1, .f32⟩
  | 8 => ⟨S1x1, .f32⟩
  | 9 => ⟨S1x1, .f32⟩
  | 10 => ⟨S1x1, .f32⟩
  | 11 => ⟨S_, .f32⟩
  | 12 => ⟨S1x1, .f32⟩
  | 13 => ⟨S1x1, .f32⟩
  | 14 => ⟨S_, .f32⟩
  | 15 => ⟨S1x1, .f32⟩
  | 16 => ⟨S1x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_call2_cst : Ref sig .tc := ⟨.hbm, 64, rfl⟩
abbrev main_call2_v0 : Ref sig .tc := ⟨.hbm, 65, rfl⟩
abbrev main_v22 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v23 : Ref sig .tc := ⟨.hbm, 89, rfl⟩
abbrev main_cst_3 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_cst_4 : Ref sig .tc := ⟨.hbm, 94, rfl⟩
abbrev main_v27 : Ref sig .tc := ⟨.hbm, 95, rfl⟩
abbrev main_cst_5 : Ref sig .tc := ⟨.hbm, 96, rfl⟩
abbrev main_v28 : Ref sig .tc := ⟨.hbm, 97, rfl⟩
abbrev main_v29 : Ref sig .tc := ⟨.hbm, 98, rfl⟩
abbrev main_v30 : Ref sig .tc := ⟨.hbm, 99, rfl⟩
abbrev main_cst_6 : Ref sig .tc := ⟨.hbm, 100, rfl⟩
abbrev main_call4_v0 : Ref sig .tc := ⟨.hbm, 101, rfl⟩
abbrev main_call4_v1 : Ref sig .tc := ⟨.hbm, 102, rfl⟩
abbrev main_v31 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_call5_cst : Ref sig .tc := ⟨.hbm, 113, rfl⟩
abbrev main_call5_v0 : Ref sig .tc := ⟨.hbm, 114, rfl⟩
abbrev main_v41 : Ref sig .tc := ⟨.hbm, 115, rfl⟩
abbrev main_cst_7 : Ref sig .tc := ⟨.hbm, 116, rfl⟩
abbrev main_v42 : Ref sig .tc := ⟨.hbm, 117, rfl⟩
abbrev main_v43 : Ref sig .tc := ⟨.hbm, 118, rfl⟩
abbrev main_cst_8 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_call6_cst : Ref sig .tc := ⟨.hbm, 125, rfl⟩
abbrev main_call6_v0 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_call7_cst : Ref sig .tc := ⟨.hbm, 131, rfl⟩
abbrev main_call7_v0 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_cst_9 : Ref sig .tc := ⟨.hbm, 139, rfl⟩
abbrev main_v59 : Ref sig .tc := ⟨.hbm, 140, rfl⟩
abbrev main_v60 : Ref sig .tc := ⟨.hbm, 141, rfl⟩
abbrev main_cst_10 : Ref sig .tc := ⟨.hbm, 142, rfl⟩
abbrev main_v61 : Ref sig .tc := ⟨.hbm, 143, rfl⟩
abbrev main_v62 : Ref sig .tc := ⟨.hbm, 144, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x4_0 : S1600000.BroadcastsInDim S1600000x4 (![0] : Fin 1 → Fin S1600000x4.rank)
  bcast_S_S1600000x4 : S_.BroadcastsInDim S1600000x4 (![] : Fin 0 → Fin S1600000x4.rank)
  bcast_S_S100000x4 : S_.BroadcastsInDim S100000x4 (![] : Fin 0 → Fin S100000x4.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S100000x1_S100000x128_0_1 : S100000x1.BroadcastsInDim S100000x128 (![0, 1] : Fin 2 → Fin S100000x128.rank)
  reducesTo_S100000x128_S128_d0 : S100000x128.ReducesTo [0] S128
  bcast_S_S1x128 : S_.BroadcastsInDim S1x128 (![] : Fin 0 → Fin S1x128.rank)
  bcast_S256_S1x256_1 : S256.BroadcastsInDim S1x256 (![1] : Fin 1 → Fin S1x256.rank)
  bcast_S_S1x256 : S_.BroadcastsInDim S1x256 (![] : Fin 0 → Fin S1x256.rank)
  bcast_S_S1x1 : S_.BroadcastsInDim S1x1 (![] : Fin 0 → Fin S1x1.rank)
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  scatter_S100000_S1600000x1_S1600000_n_0_0_1_wf : ScatterDims.WF S100000 S1600000x1 S1600000 [] [0] [0] 1
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S1x128_S128x256_S1x256_1_0_0_1_n_n_wf : DotDims.WF S1x128 S128x256 S1x256 [1] [0] [0] [1] [] []
  dot_S1x256_S256x128_S1x128_1_0_0_1_n_n_wf : DotDims.WF S1x256 S256x128 S1x128 [1] [0] [0] [1] [] []
  dot_S1x128_S128x1_S1x1_1_0_0_1_n_n_wf : DotDims.WF S1x128 S128x1 S1x1 [1] [0] [0] [1] [] []

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.KI.R0.lean ====
import proofs.«429549_j41987600285851_1_alg».proof.Proof.Gen.KernelIdeal.Launch
import proofs.«429549_j41987600285851_1_alg».proof.Proof.Gen.KernelIdeal.Skeleton
import proofs.«429549_j41987600285851_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 0 of @main: the first layer's combine kernel (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved
    (windows 2, 3, 4 are fetched at the first point only and their index is constant). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev r0_a : Rect S5000x4 := Rect.unit (s := S5000x4) ![0, 0] S5000x4.size inb_S5000x4_S5000x4_0_0
abbrev r0_b : Rect S4x128 := Rect.unit (s := S4x128) ![0, 0] S4x128.size inb_S4x128_S4x128_0_0
abbrev r0_c : Rect S128 := Rect.unit (s := S128) ![0] S128.size inb_S128_S128_0
abbrev r0_d : Rect S5000x128 := Rect.unit (s := S5000x128) ![0, 0] S5000x128.size inb_S5000x128_S5000x128_0_0

/-! ## What the body leaves in the output window's buffer -/

/-- Window 5's staging buffer after the body, from the five input windows' blocks: its one store, of the payload
    of the five loads, as the one piece of the canonical contents. -/
def out0_5 (x0 x1 : Vec F S5000x4 .f32) (x2 x3 : Vec F S4x128 .f32) (x4 : Vec F S128 .f32) : Vec F S5000x128 .f32 :=
  View.canon [⟨r0_d, k0_pay1 (View.ld x0 r0_a) (View.ld x1 r0_a) (View.ld x2 r0_b) (View.ld x3 r0_b) (View.ld x4 r0_c)⟩]

/-- The one store is of the whole buffer, so it covers it. -/
theorem cover0_5 (p0 : Vec F S5000x128 .f32) (y : S5000x128.Idx) :
    ∃ pc ∈ ([⟨r0_d, p0⟩] : List (View.Piece (Elt F) S5000x128 .f32)), y ∈ pc.1.set :=
  View.cover_of_tiled [⟨r0_d, p0⟩] S5000x128.size (by rfl) y

/-! ## The body's triple -/

set_option maxHeartbeats 1000000 in
/-- The kernel body on whole staging memrefs, the inputs' at read contents `x0 … x4` and the output's at anything, runs to
    the continuation holding the inputs' as they were and the output's at `out0_5` of the inputs'. -/
theorem sound_kernel0 (c : Dev nD) (E : Set ℕ) (i : grid0.Coords)
    (arg1 : Memref sig .tc .vmem S5000x4 .f32) (harg1 : arg1.IsWhole) (arg2 : Memref sig .tc .vmem S5000x4 .f32) (harg2 : arg2.IsWhole)
    (arg3 : Memref sig .tc .vmem S4x128 .f32) (harg3 : arg3.IsWhole) (arg4 : Memref sig .tc .vmem S4x128 .f32) (harg4 : arg4.IsWhole)
    (arg5 : Memref sig .tc .vmem S128 .f32) (harg5 : arg5.IsWhole) (arg6 : Memref sig .tc .vmem S5000x128 .f32) (harg6 : arg6.IsWhole)
    (x0 x1 : Vec F S5000x4 .f32) (x2 x3 : Vec F S4x128 .f32) (x4 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__layer_kernel i arg1 harg1 arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Pipeline.ΦA spec0 c := by dsimp only [dat0]
theorem q_eq0 (c : Dev nD) (w : Fin cfg0.W) : (dat0 V c).q w = fullShare := by dsimp only [dat0]
theorem owed_eq0 (c : Dev nD) (t : Fin (cfg0.N + 1)) : (dat0 V c).owed t = 0 := by dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«429549_j41987600285851_1_alg».proof.Proof.Gen.KernelIdeal.Launch
import proofs.«429549_j41987600285851_1_alg».proof.Proof.Gen.KernelIdeal.Skeleton
import proofs.«429549_j41987600285851_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! ## The body's two branch conditions, in closed form over the grid -/

/-- The first branch's condition (the point's coordinate is zero), as the body computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The last branch's condition (the point's coordinate is nineteen), as the body computes it. -/
abbrev cond1_1 (i : grid1.Coords) : Prop := k1_cond2 i = 1#1
/-- It holds at the last point only. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- Away from the last point the output window is idle, -/
theorem idleAt1_5 : ∀ t : Fin cfg1.N, ¬cond1_1 (grid1.coords t) → cfg1.idle 5 (grid1.coords t) = true := by decide +kernel
/-- and is not written back; -/
theorem noFlush1_5 : ∀ t : Fin cfg1.N, ¬cond1_1 (grid1.coords t) → (cfg1.win 5).flush t = false := by decide +kernel
/-- at the last point it is live. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows. -/
abbrev scM1 : Memref sig .tc .vmem S1x128 .f32 := Memref.whole cc1_scratch0

/-- The region's entry invariant with the accumulator split off as a memref owned at some contents. -/
theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide)]
  simp only [scM1, owns_whole, bigSepL_singleton]; try rfl

theorem zeroOffs1_2 : (![0, 0] : Fin 2 → Nat) = fun _ => 0 := funext fun a => by fin_cases a <;> rfl
theorem zeroOffs1_1 : (![0] : Fin 1 → Nat) = fun _ => 0 := funext fun a => by fin_cases a; rfl

set_option maxHeartbeats 1000000 in
/-- The body at the first point (first branch taken, last not): on whole memrefs, the five inputs at their
    contents, the output's buffer at any contents (handed back untouched) and the accumulator at anything, it
    runs to the inputs as they were and the accumulator at the zero row plus the block's column sums. -/
theorem kernelRun1_A (c : Dev nD) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S1x128 .f32) (harg6 : arg6.IsWhole)
    (arg7 : Memref sig .tc .vmem S1x128 .f32) (harg7 : arg7.IsWhole) (hc0 : cond1_0 i) (hc1 : ¬cond1_1 i)
    (x0 x1 : Vec F S5000x128 .f32) (x2 x3 : Vec F S128x128 .f32) (x4 : Vec F S128 .f32) (xi5 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 x2 x3 x4 (k1_pay1 (F := F)))) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  sl_unfold_words
  rw [View.read_writes_eq_canon _ _ _ (fun y => ⟨_, List.mem_cons.2 (Or.inl rfl), View.mem_set_unit_zero (S := S1x128) zeroOffs1_2 inb_S1x128_S1x128_0_0 y⟩), View.canon_cons_unit_zero zeroOffs1_2]
  simp only [View.readAt_eq_ld, harg1.read_unread, harg2.read_unread, harg3.read_unread, harg4.read_unread, harg5.read_unread,
    harg7.read_unread, View.ld_unit_zero (S := S5000x128) zeroOffs1_2, View.ld_unit_zero (S := S128x128) zeroOffs1_2,
    View.ld_unit_zero (S := S128) zeroOffs1_1, View.ld_unit_zero (S := S1x128) zeroOffs1_2, View.readCov_unit_zero (S := S1x128) _ zeroOffs1_2]

set_option maxHeartbeats 1000000 in
/-- The body at a point that is neither the first nor the last (neither branch taken): on whole memrefs, the five
    inputs at their contents, the output's buffer at any contents (handed back untouched) and the accumulator at
    `s`, it runs to the inputs as they were and the accumulator at `s` plus the block's column sums. -/
theorem kernelRun1_B (c : Dev nD) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : ¬cond1_1 i)
    (x0 x1 : Vec F S5000x128 .f32) (x2 x3 : Vec F S128x128 .f32) (x4 : Vec F S128 .f32) (xi5 s : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xi5
            ∗ owns (c : Thread nD τ) arg7 fullShare (k1_pay2 x0 x1 x2 x3 x4 s)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact HS
  ipureintro
  rw [View.read_writes_eq_canon _ _ _ (fun y => ⟨_, List.mem_cons.2 (Or.inl rfl), View.mem_set_unit_zero (S := S1x128) zeroOffs1_2 inb_S1x128_S1x128_0_0 y⟩), View.canon_unit_zero zeroOffs1_2]
  simp only [View.readAt_eq_ld, harg1.read_unread, harg2.read_unread, harg3.read_unread, harg4.read_unread, harg5.read_unread,
    harg7.read_unread, View.ld_unit_zero (S := S5000x128) zeroOffs1_2, View.ld_unit_zero (S := S128x128) zeroOffs1_2,
    View.ld_unit_zero (S := S128) zeroOffs1_1, View.ld_unit_zero (S := S1x128) zeroOffs1_2, View.readCov_unit_zero (S := S1x128) _ zeroOffs1_2]

set_option maxHeartbeats 1000000 in
/-- The body at the last point (last branch taken, first not): on whole memrefs, the five inputs at their contents,
    the output's buffer at anything and the accumulator at `s`, it runs to the inputs as they were, the accumulator
    at `s` plus the block's column sums, and the output's buffer at that row times the named constant. -/
theorem kernelRun1_C (c : Dev nD) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : cond1_1 i)
    (x0 x1 : Vec F S5000x128 .f32) (x2 x3 : Vec F S128x128 .f32) (x4 : Vec F S128 .f32) (s : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ owns (c : Thread nD τ) arg7 fullShare s
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare (k1_pay3 (k1_pay2 x0 x1 x2 x3 x4 s))
            ∗ owns (c : Thread nD τ) arg7 fullShare (k1_pay2 x0 x1 x2 x3 x4 s)) -∗ K ⟨⟩))
      ⊢ wp frame (wpE (defs₀ (F := F)) Variants.none c none) E (cc1__layer2_pool_kernel i arg1 harg1 arg2 harg2 arg3 harg3 arg4 harg4 arg5 harg5 arg6 harg6 arg7 harg7) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4
  obtain rfl := harg7.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (fun y => ⟨_, List.mem_cons.2 (Or.inl rfl), View.mem_set_unit_zero (S := S1x128) zeroOffs1_2 inb_S1x128_S1x128_0_0 y⟩), View.canon_unit_zero zeroOffs1_2]
    sl_unfold_words
    simp only [View.readAt_eq_ld, harg1.read_unread, harg2.read_unread, harg3.read_unread, harg4.read_unread, harg5.read_unread,
      harg7.read_unread, View.ld_unit_zero (S := S5000x128) zeroOffs1_2, View.ld_unit_zero (S := S128x128) zeroOffs1_2,
      View.ld_unit_zero (S := S128) zeroOffs1_1, View.ld_unit_zero (S := S1x128) zeroOffs1_2, View.readCov_unit_zero (S := S1x128) _ zeroOffs1_2]
  iexists _; isplitr
  swap; · iexact HS
  ipureintro
  sl_unfold_words
  rw [View.read_writes_eq_canon _ _ _ (fun y => ⟨_, List.mem_cons.2 (Or.inl rfl), View.mem_set_unit_zero (S := S1x128) zeroOffs1_2 inb_S1x128_S1x128_0_0 y⟩), View.canon_unit_zero zeroOffs1_2]
  simp only [View.readAt_eq_ld, harg1.read_unread, harg2.read_unread, harg3.read_unread, harg4.read_unread, harg5.read_unread,
    harg7.read_unread, View.ld_unit_zero (S := S5000x128) zeroOffs1_2, View.ld_unit_zero (S := S128x128) zeroOffs1_2,
    View.ld_unit_zero (S := S128) zeroOffs1_1, View.ld_unit_zero (S := S1x128) zeroOffs1_2, View.readCov_unit_zero (S := S1x128) _ zeroOffs1_2]

/-! ## The windows' blocks and the accumulator point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the accumulator holds after the body at position `n`: the zero row plus the column sums of the first
    block's rows, then each later block's column sums added to what the point before left. -/
def acc1 (c : Dev nD) : (n : ℕ) → n < cfg1.N → Vec F S1x128 .f32
  | 0, hn => k1_pay2 (iblk1 V c 0 ⟨0, hn⟩) (iblk1 V c 1 ⟨0, hn⟩) (iblk1 V c 2 ⟨0, hn⟩) (iblk1 V c 3 ⟨0, hn⟩) (iblk1 V c 4 ⟨0, hn⟩) (k1_pay1 (F := F))
  | n + 1, hn => k1_pay2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 c n (Nat.lt_of_succ_lt hn))

theorem acc1_zero (c : Dev nD) (t : Fin cfg1.N) (h : t.val = 0) :
    acc1 V c t.val t.isLt = k1_pay2 (iblk1 V c 0 t) (iblk1 V c 1 t) (iblk1 V c 2 t) (iblk1 V c 3 t) (iblk1 V c 4 t) (k1_pay1 (F := F)) := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = k1_pay2 (iblk1 V c 0 t) (iblk1 V c 1 t) (iblk1 V c 2 t) (iblk1 V c 3 t) (iblk1 V c 4 t) (acc1 V c (t.val - 1) (Nat.lt_of_le_of_lt (Nat.sub_le _ _) t.isLt)) := by
  obtain ⟨n, hn⟩ := t
  cases n with
  | zero => exact absurd rfl h
  | succ n => rfl

/-- The region's invariant before position `n`: before the first point what the launch hands the region;
    afterwards the same with the accumulator at what the point before left in it, every other scoped buffer
    at some contents and the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at the accumulator times the named constant (consulted at
    the last point only); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay3 (acc1 V c t.val t.isLt) := by dsimp only [dat1]

/-- Each input's current staging buffer holds its block at every point, fetched there or not: unfetched, its
    block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the closed forms of the two conditions say which
    of the three cases the point is in; the invariant hands the body the accumulator at what the point before
    left (at anything at the first point) and takes it back at this point's contents, every other scoped buffer
    and the generator register riding along untouched; away from the last point the output's buffer is handed
    back as found, at the last point it holds the accumulator times the named constant. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val = 0
  · have h1 : ¬t.val = 19 := by omega
    rw [Dat.leavesExact_idle (dat1 V c) 5 t (idleAt1_5 t (fun h => h1 ((hcond1_1 t).mp h))) (noFlush1_5 t (fun h => h1 ((hcond1_1 t).mp h)))]
    rw [acc1_zero V c t h0]
    rw [PhiS1_castSucc V c t, PhiS1_zero V c _ _ h0, PhiA1_eq]
    iintro ⟨⟨⟨HS, Hr⟩, Hg⟩, Ho, ⟨%d0, H0⟩, ⟨%d1, H1⟩, ⟨%d2, H2⟩, ⟨%d3, H3⟩, ⟨%d4, H4⟩, ⟨%d5, H5⟩⟩
    iapply (kernelRun1_A c (grid1.coords t) _ _ _ _ _ _ _ _ _ _ _ _ _ _ ((hcond1_0 t).mpr h0) (fun h => h1 ((hcond1_1 t).mp h))
      (iblk1 V c 0 t) (iblk1 V c 1 t) (iblk1 V c 2 t) (iblk1 V c 3 t) (iblk1 V c 4 t) ((dat1 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 19
    · rw [show (dat1 V c).leavesExact 5 t = owns (c : Thread nD τ) (ms1_5 t) fullShare ((dat1 V c).after 5 t) from by
        unfold Dat.leavesExact; rw [liveAt1_5 t ((hcond1_1 t).mpr h1)], after1_5]
      rw [acc1_pos V c t h0]
      rw [PhiS1_castSucc V c t, PhiS1_pos V c _ _ h0]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) _ _ _ _ _ _ _ _ _ _ _ _ _ _ (fun h => h0 ((hcond1_0 t).mp h)) ((hcond1_1 t).mpr h1)
        (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      rw [acc1_pos V c t h0]
      rw [PhiS1_castSucc V c t, PhiS1_pos V c _ _ h0]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) _ _ _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) (iblk1 V c 4 t) ((dat1 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's entry invariant back: the accumulator's
    named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.KI.R2.lean ====
import proofs.«429549_j41987600285851_1_alg».proof.Proof.Gen.KernelIdeal.Launch
import proofs.«429549_j41987600285851_1_alg».proof.Proof.Gen.KernelIdeal.Skeleton
import proofs.«429549_j41987600285851_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the TensorCore's buffer contents when a region is entered: the parameter every region's half is stated at
variable (V : (c : Dev nD) → (b : Ref sig .tc) → Buf (Elt F) ((c : Thread nD τ).loc b))

/-! # REGION 2 of @main: custom_call 2, `cc2__mlp_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place: the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place: the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place: the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_7 : Rect S1x1 := Rect.unit (s := S1x1) ![0, 0] S1x1.size inb_S1x1_S1x1_0_0
abbrev r2_0 : Rect S1x128 := Rect.unit (s := S1x128) ![0, 0] S1x128.size inb_S1x128_S1x128_0_0
abbrev r2_1 : Rect S128x256 := Rect.unit (s := S128x256) ![0, 0] S128x256.size inb_S128x256_S128x256_0_0
abbrev r2_2 : Rect S256 := Rect.unit (s := S256) ![0] S256.size inb_S256_S256_0
abbrev r2_3 : Rect S256x128 := Rect.unit (s := S256x128) ![0, 0] S256x128.size inb_S256x128_S256x128_0_0
abbrev r2_4 : Rect S128 := Rect.unit (s := S128) ![0] S128.size inb_S128_S128_0
abbrev r2_5 : Rect S128x1 := Rect.unit (s := S128x1) ![0, 0] S128x1.size inb_S128x1_S128x1_0_0
abbrev r2_6 : Rect S1 := Rect.unit (s := S1) ![0] S1.size inb_S1_S1_0

/-! ## What the body leaves in the output window's buffer -/

/-- Window 7's staging buffer after the body, from the input windows' blocks: its one store as a piece
    (the payload is the skeleton's, at what the seven whole-buffer loads read). -/
def out2_7 (x0 : Vec F S1x128 .f32) (x1 : Vec F S128x256 .f32) (x2 : Vec F S256 .f32) (x3 : Vec F S256x128 .f32) (x4 : Vec F S128 .f32) (x5 : Vec F S128x1 .f32) (x6 : Vec F S1 .f32) : Vec F S1x1 .f32 :=
  View.canon [⟨r2_7, k2_pay1 (View.ld x0 r2_0) (View.ld x1 r2_1) (View.ld x2 r2_2) (View.ld x3 r2_3) (View.ld x4 r2_4) (View.ld x5 r2_5) (View.ld x6 r2_6)⟩]

/-- The one store tiles the buffer (checked by evaluation), so it covers it. -/
theorem cover2_7 (p0 : Vec F S1x1 .f32) (y : S1x1.Idx) :
    ∃ pc ∈ ([⟨r2_7, p0⟩] : List (View.Piece (Elt F) S1x1 .f32)), y ∈ pc.1.set :=
  View.cover_of_tiled [⟨r2_7, p0⟩] S1x1.size (by rfl) y

/-! ## The body's triple -/

set_option maxHeartbeats 4000000 in
/-- The kernel body on whole staging memrefs, the seven inputs' at read contents `xW` and the output's at anything,
    runs to the continuation holding the inputs' as they were and the output's at `out2_7` of the inputs'. -/
theorem sound_kernel2 (c : Dev nD) (E : Set ℕ) (i : grid2.Coords)
    (arg1 : Memref sig .tc .vmem S1x128 .f32) (harg1 : arg1.IsWhole) (arg2 : Memref sig .tc .vmem S128x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S128x1 .f32) (harg6 : arg6.IsWhole)
    (arg7 : Memref sig .tc .vmem S1 .f32) (harg7 : arg7.IsWhole) (arg8 : Memref sig .tc .vmem S1x1 .f32) (harg8 : arg8.IsWhole)
    (x0 : Vec F S1x128 .f32) (x1 : Vec F S128x256 .f32) (x2 : Vec F S256 .f32) (x3 : Vec F S256x128 .f32) (x4 : Vec F S128 .f32) (x5 : Vec F S128x1 .f32) (x6 : Vec F S1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__mlp_kernel i arg1 harg1 arg2 harg2 arg3 harg3 arg4 harg4 arg5 harg5 arg6 harg6 arg7 harg7 arg8 harg8) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of pipeline 2 on core `c`: the arrays as the region finds them (`V`); after the body at
    point `t` each input's buffer at its block and the output's at `out2_7` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem Phi_eq2 (c : Dev nD) (t : Fin (cfg2.N + 1)) : (dat2 V c).Φ t = Pipeline.ΦA spec2 c := by dsimp only [dat2]
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 2000000 in
/-- The body at any point: the inputs' memrefs hold their blocks, so the kernel's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«429549_j41987600285851_1_alg».proof.Proof.Gen.KernelIdeal.Launch
import proofs.«429549_j41987600285851_1_alg».proof.Proof.Gen.KernelIdeal.Skeleton
import proofs.«429549_j41987600285851_1_alg».proof.Proof.Gen.KernelIdeal.Points
import proofs.«429549_j41987600285851_1_alg».proof.Proof.Gen.KernelIdeal.Regions
import proofs.«429549_j41987600285851_1_alg».proof.Proof.KI.R0
import proofs.«429549_j41987600285851_1_alg».proof.Proof.KI.R1
import proofs.«429549_j41987600285851_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

/-! # The run of the kernel program

@main is ten segments: five host stretches, region 0, two host stretches, region 1, region 2. Between two segments every
unscoped buffer of a core is held whole at a known valuation: the launch memory, then each host stretch applied to it,
then each region's output array replaced by what its write-backs leave. The regions' records are chained through these
valuations, and the last one is read against the final memory: the result buffer holds region 2's output, and every
argument array is as launched. -/

variable (m : (ℓ : Loc nD τ sig) → Buf (Elt F) ℓ)

/-! ## The run, given the regions' records -/

set_option backward.isDefEq.respectTransparency.types false in
/-- The run of @main from memory `m` with zero counters, given one segment record per region entered from the thread
    state before it and left at the one after it: every weakly fair execution terminates, and in every final memory
    the result buffer `main_v27` holds the last valuation's contents and each argument array its launch contents. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c)) :
    θ_run defs (onTc (τ := τ) (main (F := F))) ⟨m, fun _ => 0, ρ⟩ (fun r => ∀ c : Dev nD,
      r.2.mem ((c.tc : Thread nD τ).loc main_v27) = V10 m outs c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          Prog.lift (.customCall (Pipeline.entry 1) ()),
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, .rfl, hpre0 c, hpost0 c, .rfl, hpre1 c, (hpost1 c).trans (hpre2 c), (hpost2 c).trans (sep_mono .rfl (hE3 c))⟩)
    (hinit := ?_) (QY := fun c s => s.mem ((c.tc : Thread nD τ).loc main_v27) = V10 m outs c main_v27 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v27) (Finset.mem_filter.mpr ⟨StableHlo.devRef_mem_tcRefs main_v27, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c),
        (h (Proc.devRef .tc main_arg10) (Finset.mem_filter.mpr ⟨StableHlo.devRef_mem_tcRefs main_arg10, by decide⟩)).trans (V10_main_arg10 m outs c),
        (h (Proc.devRef .tc main_arg11) (Finset.mem_filter.mpr ⟨StableHlo.devRef_mem_tcRefs main_arg11, by decide⟩)).trans (V10_main_arg11 m outs c),
        (h (Proc.devRef .tc main_arg12) (Finset.mem_filter.mpr ⟨StableHlo.devRef_mem_tcRefs main_arg12, by decide⟩)).trans (V10_main_arg12 m outs c),
        (h (Proc.devRef .tc main_arg13) (Finset.mem_filter.mpr ⟨StableHlo.devRef_mem_tcRefs main_arg13, by decide⟩)).trans (V10_main_arg13 m outs c)⟩
    · iexact HSI

/-! ## What the regions leave in their output arrays

Region 0 is entered at `V5` (no region before it), so what it leaves in `main_v18` is known outright; region 1's
entry contents depend on it through the two host stretches between, and region 2's on region 1's output. -/

/-- What region 0 leaves in `main_v18`: its output window's write-backs folded over the grid from the entry contents. -/
def left18 (c : Dev nD) : Buf (Elt F) ((c : Thread nD τ).loc main_v18) :=
  (dat0 (fun c b => Gen.V5 m c b) c).arrAt 5 cfg0.N
/-- The buffers when region 1 is entered. -/
def at8 (c : Dev nD) : Valuation τ sig (Elt F) :=
  StableHlo.after hostOps1_1 (StableHlo.after hostOps1 (Function.update (Gen.V5 m c) main_v18 (left18 m c)))
/-- What region 1 leaves in `main_v26`. -/
def left26 (c : Dev nD) : Buf (Elt F) ((c : Thread nD τ).loc main_v26) :=
  (dat1 (fun c b => at8 m c b) c).arrAt 5 cfg1.N
/-- The buffers when region 2 is entered. -/
def at9 (c : Dev nD) : Valuation τ sig (Elt F) := Function.update (at8 m c) main_v26 (left26 m c)
/-- What region 2 leaves in `main_v27`. -/
def left27 (c : Dev nD) : Buf (Elt F) ((c : Thread nD τ).loc main_v27) :=
  (dat2 (fun c b => at9 m c b) c).arrAt 7 cfg2.N

/-- The regions' outputs as one family: a valuation holding the three outputs, read at the reference asked for
    (the item number plays no part). -/
def outs : Gen.Outs (F := F) := fun _ r c =>
  Function.update (Function.update (Function.update (Gen.V5 m c) main_v18 (left18 m c)) main_v26 (left26 m c))
    main_v27 (left27 m c) (Proc.devRef .tc r)

theorem outs_at18 (J : ℕ) (c : Dev nD) : outs m J main_v18 c = left18 m c := by
  unfold outs
  rw [Function.update_of_ne (StableHlo.devRef_ne_of_ne (by decide) : (Proc.devRef .tc main_v18 : DevRef τ sig) ≠ Proc.devRef .tc main_v27),
    Function.update_of_ne (StableHlo.devRef_ne_of_ne (by decide) : (Proc.devRef .tc main_v18 : DevRef τ sig) ≠ Proc.devRef .tc main_v26),
    Function.update_self]
theorem outs_at26 (J : ℕ) (c : Dev nD) : outs m J main_v26 c = left26 m c := by
  unfold outs
  rw [Function.update_of_ne (StableHlo.devRef_ne_of_ne (by decide) : (Proc.devRef .tc main_v26 : DevRef τ sig) ≠ Proc.devRef .tc main_v27),
    Function.update_self]
theorem outs_at27 (J : ℕ) (c : Dev nD) : outs m J main_v27 c = left27 m c := by
  unfold outs
  rw [Function.update_self]

/-- Region 1's entry contents over `outs` are `at8`: the fold reads `outs` only at region 0's output. -/
theorem V8_outs : Gen.V8 m (outs m) = at8 m := by
  funext c
  show StableHlo.after hostOps1_1 (StableHlo.after hostOps1 (Function.update (Gen.V5 m c) main_v18 (outs m 6 main_v18 c))) = _
  rw [outs_at18]; rfl
/-- Region 2's entry contents over `outs` are `at9`. -/
theorem V9_outs : Gen.V9 m (outs m) = at9 m := by
  funext c
  show Function.update (Gen.V8 m (outs m) c) main_v26 (outs m 9 main_v26 c) = _
  rw [V8_outs, outs_at26]; rfl

/-- What region 0 leaves in `main_v18`. -/
theorem outs_v18 (c : Dev nD) : outs m 6 main_v18 c = (dat0 (fun c b => Gen.V5 m c b) c).arrAt 5 cfg0.N := outs_at18 m 6 c
/-- What region 1 leaves in `main_v26`, its entry contents being the fold over `outs`. -/
theorem outs_v26 (c : Dev nD) : outs m 9 main_v26 c = (dat1 (fun c b => Gen.V8 m (outs m) c b) c).arrAt 5 cfg1.N := by
  rw [V8_outs]; exact outs_at26 m 9 c
/-- What region 2 leaves in `main_v27`. -/
theorem outs_v27 (c : Dev nD) : outs m 10 main_v27 c = (dat2 (fun c b => Gen.V9 m (outs m) c b) c).arrAt 7 cfg2.N := by
  rw [V9_outs]; exact outs_at27 m 10 c

/-! ## The proof data family and what rides beside the buffers -/

/-- Every pipeline's proof data, each at its region's entry contents. -/
def pdats (outs : Gen.Outs (F := F)) : (p : Fin 3) → (c : Dev nD) → Dat τ (Elt F) Unit ℕ (UR sig nD τ) ℕ (Pipeline.pin (pcfgs (F := F)) Gen.adm p) c
  | ⟨0, _⟩ => fun c => dat0 (fun c b => Gen.V5 m c b) c
  | ⟨1, _⟩ => fun c => dat1 (fun c b => Gen.V8 m outs c b) c
  | ⟨2, _⟩ => fun c => dat2 (fun c b => Gen.V9 m outs c b) c

abbrev runVar : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and its
    `owes`, at nothing. -/
abbrev Rest (c : Dev nD) : sProp 𝕄 := iprop((∃ r, prngReg c r) ∗ ∃ W, owes (c : Thread nD τ) (0 : CellTallies nD τ sig Unit) W)
abbrev restE : Fin 4 → Dev nD → sProp 𝕄 := fun _ c => Rest c

/-- The buffers at each region's entry and exit, read at the TensorCore's references. -/
abbrev ent0 : (c : Dev nD) → (b : Ref sig .tc) → Buf (Elt F) ((c : Thread nD τ).loc b) := fun c b => Gen.V5 m c b
abbrev ext0 : (c : Dev nD) → (b : Ref sig .tc) → Buf (Elt F) ((c : Thread nD τ).loc b) := fun c b => Gen.V6 m (outs m) c b
abbrev ent1 : (c : Dev nD) → (b : Ref sig .tc) → Buf (Elt F) ((c : Thread nD τ).loc b) := fun c b => Gen.V8 m (outs m) c b
abbrev ext1 : (c : Dev nD) → (b : Ref sig .tc) → Buf (Elt F) ((c : Thread nD τ).loc b) := fun c b => Gen.V9 m (outs m) c b
abbrev ent2 : (c : Dev nD) → (b : Ref sig .tc) → Buf (Elt F) ((c : Thread nD τ).loc b) := fun c b => Gen.V9 m (outs m) c b
abbrev ext2 : (c : Dev nD) → (b : Ref sig .tc) → Buf (Elt F) ((c : Thread nD τ).loc b) := fun c b => Gen.V10 m (outs m) c b

/-! ## Each region's arrays at its exit -/

/-- An input array of region 0 holds at the exit what it held at entry: an input is never written back, and the exit
    contents differ from the entry's at the output only. -/
theorem hF0_in (c : Dev nD) (w : Fin cfg0.W) (hin : (cfg0.win w).isOut = false)
    (hne : Pipeline.arrRef spec0 w ∉ ([main_v18] : List (Ref sig .tc))) :
    (dat0 (ent0 m) c).arrAt w cfg0.N = ext0 m c (Pipeline.arrRef spec0 w) :=
  ((dat0 (ent0 m) c).arrAt_in w hin _).trans ((A_eq0 (ent0 m) c w).trans (Gen.V6_of m (outs m) c _ hne).symm)
/-- At region 0's exit each of its arrays holds what the pipeline leaves: the output what `outs` names, an input what
    it held at entry. -/
theorem hF0 (c : Dev nD) : ∀ w : Fin cfg0.W, (dat0 (ent0 m) c).arrAt w cfg0.N = ext0 m c (Pipeline.arrRef spec0 w)
  | ⟨0, _⟩ => hF0_in m c 0 rfl (by decide)
  | ⟨1, _⟩ => hF0_in m c 1 rfl (by decide)
  | ⟨2, _⟩ => hF0_in m c 2 rfl (by decide)
  | ⟨3, _⟩ => hF0_in m c 3 rfl (by decide)
  | ⟨4, _⟩ => hF0_in m c 4 rfl (by decide)
  | ⟨5, _⟩ => (outs_v18 m c).symm.trans (Function.update_self (β := fun b : DevRef τ sig => b.ty.Contents (Elt F)) (Proc.devRef .tc main_v18) _ (Gen.V5 m c)).symm
/-- Off region 0's arrays the exit contents are the entry's. -/
theorem hrest0 (c : Dev nD) : ∀ b, b ∉ Finset.univ.image (Pipeline.arrRef spec0) → ext0 m c b = ent0 m c b :=
  fun b hb => Gen.V6_of m (outs m) c b fun h => hb (by
    rw [List.mem_singleton.mp h]; exact Finset.mem_image.mpr ⟨5, Finset.mem_univ _, rfl⟩)

/-- An input array of region 1 holds at the exit what it held at entry: an input is never written back, and the exit
    contents differ from the entry's at the output only. -/
theorem hF1_in (c : Dev nD) (w : Fin cfg1.W) (hin : (cfg1.win w).isOut = false)
    (hne : Pipeline.arrRef spec1 w ∉ ([main_v26] : List (Ref sig .tc))) :
    (dat1 (ent1 m) c).arrAt w cfg1.N = ext1 m c (Pipeline.arrRef spec1 w) :=
  ((dat1 (ent1 m) c).arrAt_in w hin _).trans ((A_eq1 (ent1 m) c w).trans (Gen.V9_of m (outs m) c _ hne).symm)
/-- At region 1's exit each of its arrays holds what the pipeline leaves: the output what `outs` names, an input what
    it held at entry. -/
theorem hF1 (c : Dev nD) : ∀ w : Fin cfg1.W, (dat1 (ent1 m) c).arrAt w cfg1.N = ext1 m c (Pipeline.arrRef spec1 w)
  | ⟨0, _⟩ => hF1_in m c 0 rfl (by decide)
  | ⟨1, _⟩ => hF1_in m c 1 rfl (by decide)
  | ⟨2, _⟩ => hF1_in m c 2 rfl (by decide)
  | ⟨3, _⟩ => hF1_in m c 3 rfl (by decide)
  | ⟨4, _⟩ => hF1_in m c 4 rfl (by decide)
  | ⟨5, _⟩ => (outs_v26 m c).symm.trans (Function.update_self (β := fun b : DevRef τ sig => b.ty.Contents (Elt F)) (Proc.devRef .tc main_v26) _ (Gen.V8 m (outs m) c)).symm
/-- Off region 1's arrays the exit contents are the entry's. -/
theorem hrest1 (c : Dev nD) : ∀ b, b ∉ Finset.univ.image (Pipeline.arrRef spec1) → ext1 m c b = ent1 m c b :=
  fun b hb => Gen.V9_of m (outs m) c b fun h => hb (by
    rw [List.mem_singleton.mp h]; exact Finset.mem_image.mpr ⟨5, Finset.mem_univ _, rfl⟩)

/-- An input array of region 2 holds at the exit what it held at entry: an input is never written back, and the exit
    contents differ from the entry's at the output only. -/
theorem hF2_in (c : Dev nD) (w : Fin cfg2.W) (hin : (cfg2.win w).isOut = false)
    (hne : Pipeline.arrRef spec2 w ∉ ([main_v27] : List (Ref sig .tc))) :
    (dat2 (ent2 m) c).arrAt w cfg2.N = ext2 m c (Pipeline.arrRef spec2 w) :=
  ((dat2 (ent2 m) c).arrAt_in w hin _).trans ((A_eq2 (ent2 m) c w).trans (Gen.V10_of m (outs m) c _ hne).symm)
/-- At region 2's exit each of its arrays holds what the pipeline leaves: the output what `outs` names, an input what
    it held at entry. -/
theorem hF2 (c : Dev nD) : ∀ w : Fin cfg2.W, (dat2 (ent2 m) c).arrAt w cfg2.N = ext2 m c (Pipeline.arrRef spec2 w)
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => hF2_in m c 6 rfl (by decide)
  | ⟨7, _⟩ => (outs_v27 m c).symm.trans (Function.update_self (β := fun b : DevRef τ sig => b.ty.Contents (Elt F)) (Proc.devRef .tc main_v27) _ (Gen.V9 m (outs m) c)).symm
/-- Off region 2's arrays the exit contents are the entry's. -/
theorem hrest2 (c : Dev nD) : ∀ b, b ∉ Finset.univ.image (Pipeline.arrRef spec2) → ext2 m c b = ent2 m c b :=
  fun b hb => Gen.V10_of m (outs m) c b fun h => hb (by
    rw [List.mem_singleton.mp h]; exact Finset.mem_image.mpr ⟨7, Finset.mem_univ _, rfl⟩)

/-! ## The regions as segments -/

set_option backward.isDefEq.respectTransparency.types false in
/-- Region 0 over the thread state: entered from every unscoped buffer at its entry contents, left at its exit contents.
    Its arrays are split out of the unscoped buffers and put back at the exit contents; the generator register goes into
    the invariant and comes out; nothing is owed; the kernel has no semaphore of its own. -/
def reg0 : Pipeline.RegionSeg (pcfgs (F := F)) Gen.adm (pdats m (outs m)) () defs₀ runVar runL runLv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ runL runLv 0 fun c t => owed_eq0 (ent0 m) c t
  pre c := iprop(StableHlo.held (c : Thread nD τ) (Pipeline.ucRefs τ sig) (Gen.V5 m c) ∗ Rest c)
  post c := iprop(StableHlo.held (c : Thread nD τ) (Pipeline.ucRefs τ sig) (Gen.V6 m (outs m) c) ∗ Rest c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) Gen.adm (pdats m (outs m)) launch0.win launch0.arr_whole c
      ((pdats m (outs m) 0 c).share_full fun w => q_eq0 (ent0 m) c w) (ent0 m c) fun w => A_eq0 (ent0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m (outs m) 0 c).owed 0 = 0 from owed_eq0 (ent0 m) c 0]
      icases HO with ⟨%W, HO⟩; iexists W; isplitr; · ipureintro; exact fun _ _ => Or.inl trivial
      iexact HO
    isplitl [Hp]; · iexact Hp
    iexact Hrest
  hin c := by
    rw [show (pdats m (outs m) 0 c).Φ 0 = Pipeline.ΦA spec0 c from Phi_eq0 (ent0 m) c 0]; unfold Pipeline.ΦA
    iintro ⟨Hp, -, Hr⟩
    isplitl [Hr]; · iexact Hr
    iexact Hp
  hout c := by
    rw [Pipeline.ownSems0_none, show (pdats m (outs m) 0 c).Φ (Fin.last _) = Pipeline.ΦA spec0 c from Phi_eq0 (ent0 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m (outs m)) ((pdats m (outs m) 0 c).share_full fun w => q_eq0 (ent0 m) c w)
      (ent0 m c) (ext0 m c) ((pdats m (outs m) 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m (outs m) 0 c).owed (Fin.last _) = 0 from owed_eq0 (ent0 m) c (Fin.last _)]
    icases HO with ⟨%W, -, HO⟩; iexists W; iexact HO

set_option backward.isDefEq.respectTransparency.types false in
/-- Region 1 over the thread state: entered from every unscoped buffer at its entry contents, left at its exit contents.
    Its arrays are split out of the unscoped buffers and put back at the exit contents; the generator register goes into
    the invariant and comes out; nothing is owed; the kernel has no semaphore of its own. -/
def reg1 : Pipeline.RegionSeg (pcfgs (F := F)) Gen.adm (pdats m (outs m)) () defs₀ runVar runL runLv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ runL runLv 1 fun c t => owed_eq1 (ent1 m) c t
  pre c := iprop(StableHlo.held (c : Thread nD τ) (Pipeline.ucRefs τ sig) (Gen.V8 m (outs m) c) ∗ Rest c)
  post c := iprop(StableHlo.held (c : Thread nD τ) (Pipeline.ucRefs τ sig) (Gen.V9 m (outs m) c) ∗ Rest c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) Gen.adm (pdats m (outs m)) launch1.win launch1.arr_whole c
      ((pdats m (outs m) 1 c).share_full fun w => q_eq1 (ent1 m) c w) (ent1 m c) fun w => A_eq1 (ent1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m (outs m) 1 c).owed 0 = 0 from owed_eq1 (ent1 m) c 0]
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    rw [Pipeline.ownSems0_none]
    refine BIBase.Entails.trans (hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m (outs m)) ((pdats m (outs m) 1 c).share_full fun w => q_eq1 (ent1 m) c w)
      (ent1 m c) (ext1 m c) ((pdats m (outs m) 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m (outs m) 1 c).owed (Fin.last _) = 0 from owed_eq1 (ent1 m) c (Fin.last _)]
    icases HO with ⟨%W, -, HO⟩; iexists W; iexact HO

set_option backward.isDefEq.respectTransparency.types false in
/-- Region 2 over the thread state: entered from every unscoped buffer at its entry contents, left at its exit contents.
    Its arrays are split out of the unscoped buffers and put back at the exit contents; the generator register goes into
    the invariant and comes out; nothing is owed; the kernel has no semaphore of its own. -/
def reg2 : Pipeline.RegionSeg (pcfgs (F := F)) Gen.adm (pdats m (outs m)) () defs₀ runVar runL runLv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ runL runLv 2 fun c t => owed_eq2 (ent2 m) c t
  pre c := iprop(StableHlo.held (c : Thread nD τ) (Pipeline.ucRefs τ sig) (Gen.V9 m (outs m) c) ∗ Rest c)
  post c := iprop(StableHlo.held (c : Thread nD τ) (Pipeline.ucRefs τ sig) (Gen.V10 m (outs m) c) ∗ Rest c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) Gen.adm (pdats m (outs m)) launch2.win launch2.arr_whole c
      ((pdats m (outs m) 2 c).share_full fun w => q_eq2 (ent2 m) c w) (ent2 m c) fun w => A_eq2 (ent2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m (outs m) 2 c).owed 0 = 0 from owed_eq2 (ent2 m) c 0]
      icases HO with ⟨%W, HO⟩; iexists W; isplitr; · ipureintro; exact fun _ _ => Or.inl trivial
      iexact HO
    isplitl [Hp]; · iexact Hp
    iexact Hrest
  hin c := by
    rw [show (pdats m (outs m) 2 c).Φ 0 = Pipeline.ΦA spec2 c from Phi_eq2 (ent2 m) c 0]; unfold Pipeline.ΦA
    iintro ⟨Hp, -, Hr⟩
    isplitl [Hr]; · iexact Hr
    iexact Hp
  hout c := by
    rw [Pipeline.ownSems0_none, show (pdats m (outs m) 2 c).Φ (Fin.last _) = Pipeline.ΦA spec2 c from Phi_eq2 (ent2 m) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m (outs m)) ((pdats m (outs m) 2 c).share_full fun w => q_eq2 (ent2 m) c w)
      (ent2 m c) (ext2 m c) ((pdats m (outs m) 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m (outs m) 2 c).owed (Fin.last _) = 0 from owed_eq2 (ent2 m) c (Fin.last _)]
    icases HO with ⟨%W, -, HO⟩; iexists W; iexact HO

/-! ## The run -/

/-- THE RUN of @main: from any memory with zero counters every weakly fair execution terminates, and in every final
    memory the result buffer holds what region 2's write-backs leave and each argument array its launch contents. -/
theorem run_main (ρ : Dev nD → PrngReg) :
    θ_run defs (onTc (τ := τ) (main (F := F))) ⟨m, fun _ => 0, ρ⟩ (fun r => ∀ c : Dev nD,
      r.2.mem ((c.tc : Thread nD τ).loc main_v27) = (dat2 (fun c b => Gen.V9 m (outs m) c b) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  have hrun := run_cond (F := F) m emb₁ () runVar runL runLv (fun _ _ => rfl) ρ (outs m) (pdats m (outs m))
    (0 : Dev nD → CellTallies nD τ sig Unit) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    restE
    (by
      refine Pipeline.initEach runL runLv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)
  refine (θ_run defs _ _).mono (fun r h c => ?_) hrun
  refine ⟨((h c).1.trans ?_).trans (outs_v27 m c), (h c).2⟩
  exact Function.update_self (β := fun b : DevRef τ sig => b.ty.Contents (Elt F)) (Proc.devRef .tc main_v27) (outs m 10 main_v27 c) (Gen.V9 m (outs m) c)

end Cert.KernelIdeal.Hand

end
-- ==== Proof.Spec.lean ====
/-
  The mathematics both programs compute, over the extended reals, index by index.

  A node's mean-aggregated neighbourhood enters a layer beside the node's own features:
  `layer` is  max (mean · Wl + h · Wr + b) 0  row by row; `pool` is the column sum over all
  100000 rows times 1/100000; `head` is the three small dense layers ending in the logistic function.
  The mean itself is the aggregate times the reciprocal of the clipped degree (`meanMul`) in one
  program and the aggregate divided by the clipped degree (`meanDiv`) in the other: one function
  wherever the clipped degree is not zero (`meanMul_eq_meanDiv`), because a quotient by a nonzero
  extended real IS the product with its inverse, and the reciprocal 1 / d is that inverse.
  The aggregation (gather along the edges, scatter-add into the targets) is the same operation in
  both programs and stays an opaque function `agg4` / `agg128` here.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals over a rank-1 or rank-2 index set of literal extents. -/
abbrev Arr1 (n : ℕ) : Type := (⟨1, ![n]⟩ : Shape).Idx → EReal
abbrev Arr2 (n0 n1 : ℕ) : Type := (⟨2, ![n0, n1]⟩ : Shape).Idx → EReal

/-- One entry of a layer: the row `r` of the mean against column `j` of `Wl`, the row `r` of the
    features against column `j` of `Wr`, the bias, clipped below at zero. -/
def layerAt (K : ℕ) (mean h : Arr2 100000 K) (Wl Wr : Arr2 K 128) (b : Arr1 128) (r : Fin 100000) (j : Fin 128) : EReal :=
  max ((∑ k : Fin K, mean (ix2 r k) * Wl (ix2 k j)) + (∑ k : Fin K, h (ix2 r k) * Wr (ix2 k j)) + b (ix1 j)) 0

/-- A layer as a whole array. -/
def layer (K : ℕ) (mean h : Arr2 100000 K) (Wl Wr : Arr2 K 128) (b : Arr1 128) : Arr2 100000 128 :=
  fun i => layerAt K mean h Wl Wr b (i 0) (i 1)

/-- The mean over all rows, column by column, as a 1 × 128 array. -/
def pool (h : Arr2 100000 128) : Arr2 1 128 :=
  fun i => (∑ r : Fin 100000, h (ix2 r (i 1))) * ((1 / 100000 : ℝ) : EReal)

/-- The first dense layer of the head: 1 × 128 against 128 × 256. -/
def emb (p : Arr2 1 128) (Wp : Arr2 128 256) (bp : Arr1 256) (j : Fin 256) : EReal :=
  max ((∑ k : Fin 128, p (ix2 (0 : Fin 1) k) * Wp (ix2 k j)) + bp (ix1 j)) 0

/-- The second: 1 × 256 against 256 × 128. -/
def hcls (p : Arr2 1 128) (Wp : Arr2 128 256) (bp : Arr1 256) (Wc1 : Arr2 256 128) (bc1 : Arr1 128) (j : Fin 128) : EReal :=
  max ((∑ k : Fin 256, emb p Wp bp k * Wc1 (ix2 k j)) + bc1 (ix1 j)) 0

/-- The head's result: the logistic function of the last dense layer's one entry. -/
def head (p : Arr2 1 128) (Wp : Arr2 128 256) (bp : Arr1 256) (Wc1 : Arr2 256 128) (bc1 : Arr1 128)
    (Wc2 : Arr2 128 1) (bc2 : Arr1 1) : Arr2 1 1 :=
  fun _ => Ideal.logistic ((∑ k : Fin 128, hcls p Wp bp Wc1 bc1 k * Wc2 (ix2 k (0 : Fin 1))) + bc2 (ix1 (0 : Fin 1)))

/-- The mean as the aggregate times the reciprocal of the clipped degree, the reciprocal taken first. -/
def meanMul (K : ℕ) (a : Arr2 100000 K) (d : Arr1 100000) : Arr2 100000 K :=
  fun i => a i * Ideal.div 1 (d (ix1 (i 0)))

/-- The mean as the aggregate divided by the clipped degree. -/
def meanDiv (K : ℕ) (a : Arr2 100000 K) (d : Arr1 100000) : Arr2 100000 K :=
  fun i => Ideal.div (a i) (d (ix1 (i 0)))

/-- Dividing by a nonzero extended real is multiplying by its inverse, and `1 / d` is that inverse. -/
theorem mul_div_one (a d : EReal) (hd : d ≠ 0) : a * Ideal.div 1 d = Ideal.div a d := by
  unfold Ideal.div
  rw [if_neg hd, if_neg hd, one_mul]

theorem meanMul_eq_meanDiv (K : ℕ) (a : Arr2 100000 K) (d : Arr1 100000) (hd : ∀ r, d r ≠ 0) :
    meanMul K a d = meanDiv K a d :=
  funext fun i => mul_div_one _ _ (hd _)

/-- The whole network with the mean taken by `mean`: two layers, the pool, the head. -/
def net (mean4 : Arr2 100000 4 → Arr2 100000 4) (mean128 : Arr2 100000 128 → Arr2 100000 128)
    (x : Arr2 100000 4) (W1l W1r : Arr2 4 128) (b1 : Arr1 128) (W2l W2r : Arr2 128 128) (b2 : Arr1 128)
    (Wp : Arr2 128 256) (bp : Arr1 256) (Wc1 : Arr2 256 128) (bc1 : Arr1 128) (Wc2 : Arr2 128 1) (bc2 : Arr1 1) : Arr2 1 1 :=
  let h1 := layer 4 (mean4 x) x W1l W1r b1
  head (pool (layer 128 (mean128 h1) h1 W2l W2r b2)) Wp bp Wc1 bc1 Wc2 bc2

end Cert.Spec

end
-- ==== Proof.KI.HostDefs.lean ====
/-
  The kernel program's host computation as pure functions of arrays: each definition is the composition of
  the printed host operations of the kernel program, in the printed order, over variables for the arrays that
  enter it.  The stages are: the two rows of the edge list, the gather of the source rows (with its index
  normalisation and its in-range mask), the scatter-add into the target rows, the clipped degree, its
  reciprocal, and the product of an aggregate with the reciprocal spread along the rows.  The product with the
  reciprocal of the clipped degree is `Cert.Spec.meanMul`, and the clipped degree is never zero.
-/
import proofs.«429549_j41987600285851_1_alg».proof.KernelIdeal
import proofs.«429549_j41987600285851_1_alg».proof.Proof.Spec
import Idealize.ShloMosaic.PureOps.Ideal
import Idealize.ShloMosaic.Lib.Pipeline.Value
import Idealize.ShloMosaic.Lib.IdealHost
import Idealize.ShloMosaic.Lib.ValueIdx

noncomputable section

namespace Cert.KernelIdeal.HandValue

open Idealize.ShloMosaic Idealize.ShloMosaic.ValueIdx
open Cert.KernelIdeal

variable [Cert.KernelIdeal.Facts]
open Cert.KernelIdeal.Facts₀ Cert.KernelIdeal.Facts

/-- The edge list: two rows of 1600000 node numbers. -/
abbrev EI : Type := (⟨S2x1600000, .i32⟩ : BufTy).Contents (Elt Ideal)

/-- Row 0 of the edge list, as a rank-1 array: the sources. -/
def srcK (ei : EI) : IVec S1600000 32 :=
  fun i => shapeCast S1600000 (extractStridedSlice S1x1600000 ![0, 0] ei slices_S2x1600000_S1x1600000_0_0) shapeCasts_S1x1600000_S1600000 i

/-- Row 1 of the edge list, as a rank-1 array: the targets. -/
def dstK (ei : EI) : IVec S1600000 32 :=
  fun i => shapeCast S1600000 (extractStridedSlice S1x1600000 ![1, 0] ei slices_S2x1600000_S1x1600000_1_0) shapeCasts_S1x1600000_S1600000 i

/-- The normalised gather index of a take: a negative index has 100000 added; as a column. -/
def takeIdxK (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The in-range mask of a take: the normalised index lies in 0 … 99999. -/
def takeOkK (s : IVec S1600000 32) : IVec S1600000 1 :=
  Host.reduce IntOp.andi
    (andi (cmpi .sge (takeIdxK s) (broadcastInDim S1600000x1 ![] bcast_S_S1600000x1 (constantI S_ 32 0#32)))
      (cmpi .sle (takeIdxK s)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows of `x` at the sources (width 4): the gather where the index is in range, the filler elsewhere. -/
def take4K (x : FVec Ideal S100000x4 .f32) (ei : EI) : FVec Ideal S1600000x4 .f32 :=
  select (broadcastInDim S1600000x4 ![0] bcast_S1600000_S1600000x4_0 (takeOkK (srcK ei)))
    (Host.gather gather_S100000x4_S1600000x1_S1600000x4_1_0_n_n_0_1_14 x (takeIdxK (srcK ei)))
    (broadcastInDim S1600000x4 ![] bcast_S_S1600000x4 (constant (F := Ideal) S_ .f32 0x7FC00000#32))

/-- The sum of the gathered rows into their targets (width 4), from zero. -/
def agg4K (x : FVec Ideal S100000x4 .f32) (ei : EI) : FVec Ideal S100000x4 .f32 :=
  Host.scatterAdd (F := Ideal) scatter_S100000x4_S1600000x1_S1600000x4_1_0_0_1
    (broadcastInDim S100000x4 ![] bcast_S_S100000x4 (constant (F := Ideal) S_ .f32 0x00000000#32))
    (broadcastInDim S1600000x1 ![0] bcast_S1600000_S1600000x1_0 (dstK ei))
    (take4K x ei)

/-- The number of edges into each node, as a sum of ones from zero. -/
def cntK (ei : EI) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dstK ei))
    (broadcastInDim S1600000 ![] bcast_S_S1600000 (constant (F := Ideal) S_ .f32 0x3F800000#32))

/-- The clipped degree: the larger of one and the count. -/
def degK (ei : EI) : FVec Ideal S100000 .f32 :=
  maximumf (F := Ideal)
    (broadcastInDim S100000 ![] bcast_S_S100000 (id (constant (F := Ideal) S_ .f32 0x3F800000#32)))
    (cntK ei)

/-- The rows of `h` at the sources (width 128). -/
def take128K (h : FVec Ideal S100000x128 .f32) (ei : EI) : FVec Ideal S1600000x128 .f32 :=
  select (broadcastInDim S1600000x128 ![0] bcast_S1600000_S1600000x128_0 (takeOkK (srcK ei)))
    (Host.gather gather_S100000x128_S1600000x1_S1600000x128_1_0_n_n_0_1_1128 h (takeIdxK (srcK ei)))
    (broadcastInDim S1600000x128 ![] bcast_S_S1600000x128 (constant (F := Ideal) S_ .f32 0x7FC00000#32))

/-- The sum of the gathered rows into their targets (width 128), from zero. -/
def agg128K (h : FVec Ideal S100000x128 .f32) (ei : EI) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstK ei))
    (take128K h ei)

/-- The reciprocal of the clipped degree: one divided by it, node by node. -/
def invK (ei : EI) : FVec Ideal S100000 .f32 :=
  Host.divf (F := Ideal) (broadcastInDim S100000 ![] bcast_S_S100000 (constant (F := Ideal) S_ .f32 0x3F800000#32)) (degK ei)

/-- An aggregate times a per-node factor spread along the rows (width 4). -/
def mul4K (a : FVec Ideal S100000x4 .f32) (v : FVec Ideal S100000 .f32) : FVec Ideal S100000x4 .f32 :=
  mulf (F := Ideal) a
    (broadcastInDim S100000x4 ![0, 1] bcast_S100000x1_S100000x4_0_1
      (broadcastInDim S100000x1 ![0] bcast_S100000_S100000x1_0 v))

/-- An aggregate times a per-node factor spread along the rows (width 128). -/
def mul128K (a : FVec Ideal S100000x128 .f32) (v : FVec Ideal S100000 .f32) : FVec Ideal S100000x128 .f32 :=
  mulf (F := Ideal) a
    (broadcastInDim S100000x128 ![0, 1] bcast_S100000x1_S100000x128_0_1
      (broadcastInDim S100000x1 ![0] bcast_S100000_S100000x1_0 v))

/-! ## The constant one -/

/-- The word 0x3F800000 has a clear sign bit, exponent field 127 and fraction field 0: it denotes
    2^23 · 2^(127 - 127 - 23) = 1. -/
theorem one_f32 : Ideal.ofBits .f32 0x3F800000#32 = 1 := by
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  show Ideal.ieee 8 23 (0x3F800000#32 : BitVec 32) = 1
  unfold Ideal.ieee
  simp only [hs, he, hf]
  norm_num

/-! ## The per-node factor read at an index -/

/-- A per-node array spread along the rows of a 100000 × n array reads, at an index, the node's entry. -/
theorem spread4_apply (v : FVec Ideal S100000 .f32) (i : S100000x4.Idx) :
    broadcastInDim S100000x4 ![0, 1] bcast_S100000x1_S100000x4_0_1
      (broadcastInDim S100000x1 ![0] bcast_S100000_S100000x1_0 v) i = v (ix1 (i 0)) := by
  have h1 := broadcastInDim_apply (s := S100000x1) (t := S100000x4) ![0, 1] bcast_S100000x1_S100000x4_0_1
    (broadcastInDim S100000x1 ![0] bcast_S100000_S100000x1_0 v) i (ix2 (n0 := 100000) (i 0) (0 : Fin 1)) (fun ax => by
      match ax with
      | ⟨0, _⟩ => show (i 0).val = if (100000 : ℕ) = 1 then 0 else (i 0).val; rw [if_neg (by decide)]
      | ⟨1, _⟩ => rfl)
  have h2 := broadcastInDim_apply (s := S100000) (t := S100000x1) ![0] bcast_S100000_S100000x1_0 v
    (ix2 (n0 := 100000) (i 0) (0 : Fin 1)) (ix1 (n := 100000) (i 0)) (fun ax => by
      match ax with
      | ⟨0, _⟩ => show (i 0).val = if (100000 : ℕ) = 1 then 0 else (i 0).val; rw [if_neg (by decide)])
  exact h1.trans h2

theorem spread128_apply (v : FVec Ideal S100000 .f32) (i : S100000x128.Idx) :
    broadcastInDim S100000x128 ![0, 1] bcast_S100000x1_S100000x128_0_1
      (broadcastInDim S100000x1 ![0] bcast_S100000_S100000x1_0 v) i = v (ix1 (i 0)) := by
  have h1 := broadcastInDim_apply (s := S100000x1) (t := S100000x128) ![0, 1] bcast_S100000x1_S100000x128_0_1
    (broadcastInDim S100000x1 ![0] bcast_S100000_S100000x1_0 v) i (ix2 (n0 := 100000) (i 0) (0 : Fin 1)) (fun ax => by
      match ax with
      | ⟨0, _⟩ => show (i 0).val = if (100000 : ℕ) = 1 then 0 else (i 0).val; rw [if_neg (by decide)]
      | ⟨1, _⟩ => rfl)
  have h2 := broadcastInDim_apply (s := S100000) (t := S100000x1) ![0] bcast_S100000_S100000x1_0 v
    (ix2 (n0 := 100000) (i 0) (0 : Fin 1)) (ix1 (n := 100000) (i 0)) (fun ax => by
      match ax with
      | ⟨0, _⟩ => show (i 0).val = if (100000 : ℕ) = 1 then 0 else (i 0).val; rw [if_neg (by decide)])
  exact h1.trans h2

/-- The reciprocal at a node: one divided by the node's clipped degree. -/
theorem invK_apply (ei : EI) (r : S100000.Idx) : invK ei r = Ideal.div 1 (degK ei r) := by
  unfold invK
  rw [Host.divf, Ideal.hostDivf_def, broadcastInDim_scalar_apply, constant_apply, one_f32]

/-- The clipped degree at a node: the larger of one and the count. -/
theorem degK_apply (ei : EI) (r : S100000.Idx) : degK ei r = max 1 (cntK ei r) := by
  unfold degK
  rw [maximumf_apply, broadcastInDim_scalar_apply, id_eq, constant_apply, one_f32]

/-- The clipped degree is at least one, so never zero. -/
theorem degK_ne_zero (ei : EI) (r : S100000.Idx) : degK ei r ≠ 0 := by
  rw [degK_apply]
  exact ne_of_gt (lt_of_lt_of_le zero_lt_one (le_max_left 1 _))

/-- The aggregate times the spread reciprocal is the mean taken by multiplication (width 4). -/
theorem mul4K_inv (a : FVec Ideal S100000x4 .f32) (ei : EI) :
    mul4K a (invK ei) = Cert.Spec.meanMul 4 a (degK ei) := by
  funext i
  unfold mul4K Cert.Spec.meanMul
  rw [mulf_apply, spread4_apply, invK_apply]

/-- The aggregate times the spread reciprocal is the mean taken by multiplication (width 128). -/
theorem mul128K_inv (a : FVec Ideal S100000x128 .f32) (ei : EI) :
    mul128K a (invK ei) = Cert.Spec.meanMul 128 a (degK ei) := by
  funext i
  unfold mul128K Cert.Spec.meanMul
  rw [mulf_apply, spread128_apply, invK_apply]

end Cert.KernelIdeal.HandValue

end
-- ==== Proof.KI.Host.lean ====
/-
  The host operations between the kernel regions, read as values.

  Each stretch of host operations is read, from any contents of the buffers when it starts, as the
  printed operations composed; the stretches are then chained from the launch contents, a buffer a
  stretch does not write keeping what it held.  What the first two regions take as their first operand
  is the aggregate along the edges times the reciprocal of the clipped degree, over the launch's
  features for the first region and over the first region's output for the second.  Every argument a
  region reads is as launched, and a region's output is what that region left.
-/
import proofs.«429549_j41987600285851_1_alg».proof.Proof.Gen.KernelIdeal.Regions
import proofs.«429549_j41987600285851_1_alg».proof.Proof.KI.HostDefs
import Idealize.ShloMosaic.Lib.StableHlo.Run

set_option maxRecDepth 16384

noncomputable section

namespace Cert.KernelIdeal.HandValue

open Idealize.ShloMosaic Idealize.ShloMosaic.TcCoe Idealize.ShloMosaic.StableHlo Idealize.ShloMosaic.ValueIdx
open Cert.KernelIdeal Cert.KernelIdeal.Gen

/-- Contents moved to a buffer's own type and back are the contents. -/
theorem ofBuf_toBuf {T : BufTy} (x : TRef sig T) (v : T.Contents (Elt Ideal)) : x.ofBuf (x.toBuf v) = v := by
  obtain ⟨r, rfl, _, _⟩ := x; rfl

/-! ## Each stretch, from any contents `W` of the buffers when it starts

Every lemma reads one buffer after one stretch of host operations as the printed operations composed,
over the contents `W` the stretch starts from. -/

section Stretches

variable (W : Valuation τ sig (Elt Ideal))

/-- The first stretch leaves row 0 of the edge list, flattened, in `%1`. -/
theorem s0_v1 : after (hostOps0 (F := Ideal)) W (Proc.devRef .tc main_v1) = srcK (W (Proc.devRef .tc main_arg1)) := by
  after_results
  rfl

/-- and row 1 in `%3`. -/
theorem s0_v3 : after (hostOps0 (F := Ideal)) W (Proc.devRef .tc main_v3) = dstK (W (Proc.devRef .tc main_arg1)) := by
  after_results
  rfl

/-- `%7` is the scatter-add of ones along the targets, from zero. -/
theorem s0_v7 : after (hostOps0 (F := Ideal)) W (Proc.devRef .tc main_v7) = cntK (W (Proc.devRef .tc main_arg1)) := by
  after_results
  rfl

/-- The last constant of the first stretch. -/
theorem s0_cst1 : after (hostOps0 (F := Ideal)) W (Proc.devRef .tc main_cst_1) = constant (F := Ideal) S_ .f32 0x3F800000#32 := by
  after_results

/-- The clip: the larger of the broadcast constant and `%7`. -/
theorem s01_v8 : after (hostOps0_1 (F := Ideal)) W (Proc.devRef .tc main_v8)
      = maximumf (F := Ideal) (φ := .f32) (broadcastInDim S100000 ![] bcast_S_S100000 (id (W (Proc.devRef .tc main_cst_1)))) (W (Proc.devRef .tc main_v7)) := by
  after_results
  refine cast_eq_iff_heq.mpr (heq_of_eq ?_)
  simp only [ofBuf_toBuf]
  rfl

/-- The reciprocal: one divided by `%8`. -/
theorem s02_v10 : after (hostOps0_2 (F := Ideal)) W (Proc.devRef .tc main_v10)
      = Host.divf (F := Ideal) (φ := .f32) (broadcastInDim S100000 ![] bcast_S_S100000 (constant (F := Ideal) S_ .f32 0x3F800000#32)) (W (Proc.devRef .tc main_v8)) := by
  after_results

set_option maxHeartbeats 2000000 in
/-- The take of width 4: the gather of `%arg0`'s rows at the normalised sources where they are in range. -/
theorem s03_v11 : after (hostOps0_3 (F := Ideal)) W (Proc.devRef .tc main_v11)
      = select (broadcastInDim S1600000x4 ![0] bcast_S1600000_S1600000x4_0 (takeOkK (W (Proc.devRef .tc main_v1))))
          (Host.gather gather_S100000x4_S1600000x1_S1600000x4_1_0_n_n_0_1_14 (W (Proc.devRef .tc main_arg0)) (takeIdxK (W (Proc.devRef .tc main_v1))))
          (broadcastInDim S1600000x4 ![] bcast_S_S1600000x4 (constant (F := Ideal) S_ .f32 0x7FC00000#32)) := by
  after_results_simp
  refine cast_eq_iff_heq.mpr (heq_of_eq ?_)
  simp only [ofBuf_toBuf]
  unfold takeOkK takeIdxK
  rfl

/-- The scatter-add of width 4 and the product with the broadcast reciprocal. -/
theorem s04_v17 : after (hostOps0_4 (F := Ideal)) W (Proc.devRef .tc main_v17)
      = mulf (F := Ideal) (φ := .f32)
          (Host.scatterAdd (F := Ideal) scatter_S100000x4_S1600000x1_S1600000x4_1_0_0_1
            (broadcastInDim S100000x4 ![] bcast_S_S100000x4 (constant (F := Ideal) S_ .f32 0x00000000#32))
            (broadcastInDim S1600000x1 ![0] bcast_S1600000_S1600000x1_0 (W (Proc.devRef .tc main_v3)))
            (W (Proc.devRef .tc main_v11)))
          (broadcastInDim S100000x4 ![0, 1] bcast_S100000x1_S100000x4_0_1
            (broadcastInDim S100000x1 ![0] bcast_S100000_S100000x1_0 (W (Proc.devRef .tc main_v10)))) := by
  after_results

set_option maxHeartbeats 2000000 in
/-- The take of width 128: the gather of `%18`'s rows. -/
theorem s1_v19 : after (hostOps1 (F := Ideal)) W (Proc.devRef .tc main_v19)
      = select (broadcastInDim S1600000x128 ![0] bcast_S1600000_S1600000x128_0 (takeOkK (W (Proc.devRef .tc main_v1))))
          (Host.gather gather_S100000x128_S1600000x1_S1600000x128_1_0_n_n_0_1_1128 (W (Proc.devRef .tc main_v18)) (takeIdxK (W (Proc.devRef .tc main_v1))))
          (broadcastInDim S1600000x128 ![] bcast_S_S1600000x128 (constant (F := Ideal) S_ .f32 0x7FC00000#32)) := by
  after_results_simp
  refine cast_eq_iff_heq.mpr (heq_of_eq ?_)
  simp only [ofBuf_toBuf]
  unfold takeOkK takeIdxK
  rfl

/-- The scatter-add of width 128 and the product with the broadcast reciprocal. -/
theorem s11_v25 : after (hostOps1_1 (F := Ideal)) W (Proc.devRef .tc main_v25)
      = mulf (F := Ideal) (φ := .f32)
          (Host.scatterAdd (F := Ideal) scatter_S100000x128_S1600000x1_S1600000x128_1_0_0_1
            (broadcastInDim S100000x128 ![] bcast_S_S100000x128 (constant (F := Ideal) S_ .f32 0x00000000#32))
            (broadcastInDim S1600000x1 ![0] bcast_S1600000_S1600000x1_0 (W (Proc.devRef .tc main_v3)))
            (W (Proc.devRef .tc main_v19)))
          (broadcastInDim S100000x128 ![0, 1] bcast_S100000x1_S100000x128_0_1
            (broadcastInDim S100000x1 ![0] bcast_S100000_S100000x1_0 (W (Proc.devRef .tc main_v10)))) := by
  after_results

end Stretches

/-! ## The stretches chained from the launch contents -/

variable (m : (ℓ : Loc nD τ sig) → Buf (Elt Ideal) ℓ) (outs : Outs (F := Ideal))

theorem V1_v1 (c : Dev nD) : Gen.V1 m c main_v1 = srcK (m ((c : Thread nD τ).loc main_arg1)) := s0_v1 (Gen.V0 m c)
theorem V1_v3 (c : Dev nD) : Gen.V1 m c main_v3 = dstK (m ((c : Thread nD τ).loc main_arg1)) := s0_v3 (Gen.V0 m c)
theorem V1_v7 (c : Dev nD) : Gen.V1 m c main_v7 = cntK (m ((c : Thread nD τ).loc main_arg1)) := s0_v7 (Gen.V0 m c)
theorem V1_cst1 (c : Dev nD) : Gen.V1 m c main_cst_1 = constant (F := Ideal) S_ .f32 0x3F800000#32 := s0_cst1 (Gen.V0 m c)

/-- The clipped degree, where the clip leaves it. -/
theorem V2_v8 (c : Dev nD) : Gen.V2 m c main_v8 = degK (m ((c : Thread nD τ).loc main_arg1)) :=
  (s01_v8 (Gen.V1 m c)).trans (by rw [V1_cst1 m c, V1_v7 m c]; rfl)

/-- Its reciprocal. -/
theorem V3_v10 (c : Dev nD) : Gen.V3 m c main_v10 = invK (m ((c : Thread nD τ).loc main_arg1)) :=
  (s02_v10 (Gen.V2 m c)).trans (by rw [V2_v8 m c]; rfl)

theorem V3_v1 (c : Dev nD) : Gen.V3 m c main_v1 = srcK (m ((c : Thread nD τ).loc main_arg1)) :=
  (V3_of m c main_v1 (by decide)).trans <| (V2_of m c main_v1 (by decide)).trans (V1_v1 m c)
theorem V3_v3 (c : Dev nD) : Gen.V3 m c main_v3 = dstK (m ((c : Thread nD τ).loc main_arg1)) :=
  (V3_of m c main_v3 (by decide)).trans <| (V2_of m c main_v3 (by decide)).trans (V1_v3 m c)
theorem V3_arg0 (c : Dev nD) : Gen.V3 m c main_arg0 = m ((c : Thread nD τ).loc main_arg0) :=
  (V3_of m c main_arg0 (by decide)).trans <| (V2_of m c main_arg0 (by decide)).trans <| (V1_of m c main_arg0 (by decide)).trans rfl

/-- The gathered rows of width 4. -/
theorem V4_v11 (c : Dev nD) : Gen.V4 m c main_v11 = take4K (m ((c : Thread nD τ).loc main_arg0)) (m ((c : Thread nD τ).loc main_arg1)) :=
  (s03_v11 (Gen.V3 m c)).trans (by rw [V3_v1 m c, V3_arg0 m c]; rfl)
theorem V4_v3 (c : Dev nD) : Gen.V4 m c main_v3 = dstK (m ((c : Thread nD τ).loc main_arg1)) :=
  (V4_of m c main_v3 (by decide)).trans (V3_v3 m c)
theorem V4_v10 (c : Dev nD) : Gen.V4 m c main_v10 = invK (m ((c : Thread nD τ).loc main_arg1)) :=
  (V4_of m c main_v10 (by decide)).trans (V3_v10 m c)
theorem V4_v1 (c : Dev nD) : Gen.V4 m c main_v1 = srcK (m ((c : Thread nD τ).loc main_arg1)) :=
  (V4_of m c main_v1 (by decide)).trans (V3_v1 m c)

/-- REGION 0'S FIRST OPERAND: the aggregate of width 4 times the reciprocal of the clipped degree. -/
theorem V5_v17 (c : Dev nD) : Gen.V5 m c main_v17
    = mul4K (agg4K (m ((c : Thread nD τ).loc main_arg0)) (m ((c : Thread nD τ).loc main_arg1))) (invK (m ((c : Thread nD τ).loc main_arg1))) :=
  (s04_v17 (Gen.V4 m c)).trans (by rw [V4_v3 m c, V4_v11 m c, V4_v10 m c]; rfl)

/-- The same operand as the mean taken by the reciprocal: the aggregate times one over the clipped degree. -/
theorem V5_v17_mean (c : Dev nD) : Gen.V5 m c main_v17
    = Cert.Spec.meanMul 4 (agg4K (m ((c : Thread nD τ).loc main_arg0)) (m ((c : Thread nD τ).loc main_arg1))) (degK (m ((c : Thread nD τ).loc main_arg1))) :=
  (V5_v17 m c).trans (mul4K_inv _ _)

/-- Region 0's output is what the region left there. -/
theorem V6_v18 (c : Dev nD) : Gen.V6 m outs c main_v18 = outs 6 main_v18 c := Function.update_self ..
theorem V6_v1 (c : Dev nD) : Gen.V6 m outs c main_v1 = srcK (m ((c : Thread nD τ).loc main_arg1)) :=
  (V6_of m outs c main_v1 (by decide)).trans <| (V5_of m c main_v1 (by decide)).trans (V4_v1 m c)

/-- The gathered rows of width 128. -/
theorem V7_v19 (c : Dev nD) : Gen.V7 m outs c main_v19 = take128K (outs 6 main_v18 c) (m ((c : Thread nD τ).loc main_arg1)) :=
  (s1_v19 (Gen.V6 m outs c)).trans (by rw [V6_v1 m outs c, V6_v18 m outs c]; rfl)
theorem V7_v3 (c : Dev nD) : Gen.V7 m outs c main_v3 = dstK (m ((c : Thread nD τ).loc main_arg1)) :=
  (V7_of m outs c main_v3 (by decide)).trans <| (V6_of m outs c main_v3 (by decide)).trans <| (V5_of m c main_v3 (by decide)).trans (V4_v3 m c)
theorem V7_v10 (c : Dev nD) : Gen.V7 m outs c main_v10 = invK (m ((c : Thread nD τ).loc main_arg1)) :=
  (V7_of m outs c main_v10 (by decide)).trans <| (V6_of m outs c main_v10 (by decide)).trans <| (V5_of m c main_v10 (by decide)).trans (V4_v10 m c)

/-- REGION 1'S FIRST OPERAND: the aggregate of width 128 times the reciprocal of the clipped degree. -/
theorem V8_v25 (c : Dev nD) : Gen.V8 m outs c main_v25
    = mul128K (agg128K (outs 6 main_v18 c) (m ((c : Thread nD τ).loc main_arg1))) (invK (m ((c : Thread nD τ).loc main_arg1))) :=
  (s11_v25 (Gen.V7 m outs c)).trans (by rw [V7_v3 m outs c, V7_v19 m outs c, V7_v10 m outs c]; rfl)

/-- The same operand as the mean taken by the reciprocal (width 128). -/
theorem V8_v25_mean (c : Dev nD) : Gen.V8 m outs c main_v25
    = Cert.Spec.meanMul 128 (agg128K (outs 6 main_v18 c) (m ((c : Thread nD τ).loc main_arg1))) (degK (m ((c : Thread nD τ).loc main_arg1))) :=
  (V8_v25 m outs c).trans (mul128K_inv _ _)

/-- Region 0's output is still there when region 1 is entered. -/
theorem V8_v18 (c : Dev nD) : Gen.V8 m outs c main_v18 = outs 6 main_v18 c :=
  (V8_of m outs c main_v18 (by decide)).trans <| (V7_of m outs c main_v18 (by decide)).trans (V6_v18 m outs c)

/-- Region 1's output is what the region left there. -/
theorem V9_v26 (c : Dev nD) : Gen.V9 m outs c main_v26 = outs 9 main_v26 c := Function.update_self ..

/-! ## The arguments each region reads are as launched -/

theorem V5_arg0 (c : Dev nD) : Gen.V5 m c main_arg0 = m ((c : Thread nD τ).loc main_arg0) :=
  (V5_of m c main_arg0 (by decide)).trans <| (V4_of m c main_arg0 (by decide)).trans <| (V3_of m c main_arg0 (by decide)).trans <| (V2_of m c main_arg0 (by decide)).trans <| (V1_of m c main_arg0 (by decide)).trans rfl
theorem V5_arg2 (c : Dev nD) : Gen.V5 m c main_arg2 = m ((c : Thread nD τ).loc main_arg2) :=
  (V5_of m c main_arg2 (by decide)).trans <| (V4_of m c main_arg2 (by decide)).trans <| (V3_of m c main_arg2 (by decide)).trans <| (V2_of m c main_arg2 (by decide)).trans <| (V1_of m c main_arg2 (by decide)).trans rfl
theorem V5_arg3 (c : Dev nD) : Gen.V5 m c main_arg3 = m ((c : Thread nD τ).loc main_arg3) :=
  (V5_of m c main_arg3 (by decide)).trans <| (V4_of m c main_arg3 (by decide)).trans <| (V3_of m c main_arg3 (by decide)).trans <| (V2_of m c main_arg3 (by decide)).trans <| (V1_of m c main_arg3 (by decide)).trans rfl
theorem V5_arg4 (c : Dev nD) : Gen.V5 m c main_arg4 = m ((c : Thread nD τ).loc main_arg4) :=
  (V5_of m c main_arg4 (by decide)).trans <| (V4_of m c main_arg4 (by decide)).trans <| (V3_of m c main_arg4 (by decide)).trans <| (V2_of m c main_arg4 (by decide)).trans <| (V1_of m c main_arg4 (by decide)).trans rfl
theorem V8_arg5 (c : Dev nD) : Gen.V8 m outs c main_arg5 = m ((c : Thread nD τ).loc main_arg5) :=
  (V8_of m outs c main_arg5 (by decide)).trans <| (V7_of m outs c main_arg5 (by decide)).trans <| (V6_of m outs c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem V8_arg6 (c : Dev nD) : Gen.V8 m outs c main_arg6 = m ((c : Thread nD τ).loc main_arg6) :=
  (V8_of m outs c main_arg6 (by decide)).trans <| (V7_of m outs c main_arg6 (by decide)).trans <| (V6_of m outs c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem V8_arg7 (c : Dev nD) : Gen.V8 m outs c main_arg7 = m ((c : Thread nD τ).loc main_arg7) :=
  (V8_of m outs c main_arg7 (by decide)).trans <| (V7_of m outs c main_arg7 (by decide)).trans <| (V6_of m outs c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem V9_arg8 (c : Dev nD) : Gen.V9 m outs c main_arg8 = m ((c : Thread nD τ).loc main_arg8) :=
  (V9_of m outs c main_arg8 (by decide)).trans <| (V8_of m outs c main_arg8 (by decide)).trans <| (V7_of m outs c main_arg8 (by decide)).trans <| (V6_of m outs c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans rfl
theorem V9_arg9 (c : Dev nD) : Gen.V9 m outs c main_arg9 = m ((c : Thread nD τ).loc main_arg9) :=
  (V9_of m outs c main_arg9 (by decide)).trans <| (V8_of m outs c main_arg9 (by decide)).trans <| (V7_of m outs c main_arg9 (by decide)).trans <| (V6_of m outs c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl
theorem V9_arg10 (c : Dev nD) : Gen.V9 m outs c main_arg10 = m ((c : Thread nD τ).loc main_arg10) :=
  (V9_of m outs c main_arg10 (by decide)).trans <| (V8_of m outs c main_arg10 (by decide)).trans <| (V7_of m outs c main_arg10 (by decide)).trans <| (V6_of m outs c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl
theorem V9_arg11 (c : Dev nD) : Gen.V9 m outs c main_arg11 = m ((c : Thread nD τ).loc main_arg11) :=
  (V9_of m outs c main_arg11 (by decide)).trans <| (V8_of m outs c main_arg11 (by decide)).trans <| (V7_of m outs c main_arg11 (by decide)).trans <| (V6_of m outs c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans rfl
theorem V9_arg12 (c : Dev nD) : Gen.V9 m outs c main_arg12 = m ((c : Thread nD τ).loc main_arg12) :=
  (V9_of m outs c main_arg12 (by decide)).trans <| (V8_of m outs c main_arg12 (by decide)).trans <| (V7_of m outs c main_arg12 (by decide)).trans <| (V6_of m outs c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide)).trans rfl
theorem V9_arg13 (c : Dev nD) : Gen.V9 m outs c main_arg13 = m ((c : Thread nD τ).loc main_arg13) :=
  (V9_of m outs c main_arg13 (by decide)).trans <| (V8_of m outs c main_arg13 (by decide)).trans <| (V7_of m outs c main_arg13 (by decide)).trans <| (V6_of m outs c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide)).trans rfl

end Cert.KernelIdeal.HandValue

end
-- ==== Proof.KI.Val0.lean ====
import proofs.«429549_j41987600285851_1_alg».proof.Proof.KI.R0
import proofs.«429549_j41987600285851_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! # Region 0's output array as one function of its five input arrays

The first layer's combine kernel writes, at grid point `t`, rows `5000 t … 5000 t + 4999` of the output: each entry
the row of the mean against a column of `Wl`, the row of the features against a column of `Wr`, the bias, clipped
below at zero. The twenty blocks tile the 100000 rows, so the output array is `Cert.Spec.layer 4` of the inputs. -/

/-! ## The block product at an index -/

/-- The dimension numbers of the kernel's two products: rows × 4 against 4 × columns. -/
abbrev D4 : DotDims S5000x4 S4x128 S5000x128 := dot_S5000x4_S4x128_S5000x128_1_0_0_1_n_n

theorem lhs_D4_0 (j : S5000x128.Idx) (k : D4.contr.Idx) : (D4.lhsIdx j k 0 : ℕ) = j 0 := by
  simp [DotDims.lhsIdx, D4, dot_S5000x4_S4x128_S5000x128_1_0_0_1_n_n]; rfl
theorem lhs_D4_1 (j : S5000x128.Idx) (k : D4.contr.Idx) : (D4.lhsIdx j k 1 : ℕ) = k ⟨0, by decide⟩ := by
  simp [DotDims.lhsIdx, D4, dot_S5000x4_S4x128_S5000x128_1_0_0_1_n_n]; rfl
theorem rhs_D4_0 (j : S5000x128.Idx) (k : D4.contr.Idx) : (D4.rhsIdx j k 0 : ℕ) = k ⟨0, by decide⟩ := by
  simp [DotDims.rhsIdx, D4, dot_S5000x4_S4x128_S5000x128_1_0_0_1_n_n]; rfl
theorem rhs_D4_1 (j : S5000x128.Idx) (k : D4.contr.Idx) : (D4.rhsIdx j k 1 : ℕ) = j 1 := by
  simp [DotDims.rhsIdx, D4, dot_S5000x4_S4x128_S5000x128_1_0_0_1_n_n]; rfl

/-- The contraction index is its one coordinate, below 4. -/
def contr4 : D4.contr.Idx ≃ Fin 4 := contrEquiv1 D4 4 rfl rfl

/-- A product onto the zero splat, read at row `p`, column `q`: the sum over the four contracted positions. -/
theorem mm_apply (a : FVec Ideal S5000x4 .bf16) (w : FVec Ideal S4x128 .bf16) (p : Fin 5000) (q : Fin 128) :
    matmul D4 none a w (constant (F := Ideal) S5000x128 .f32 0x00000000#32) (ix2 p q)
      = ∑ k : Fin 4, a (ix2 p k) * w (ix2 k q) := by
  simp only [matmul]
  rw [Ideal.matmul_constant_zero_apply, ← Equiv.sum_comp contr4.symm]
  refine Finset.sum_congr rfl fun k _ => ?_
  have hk : ((contr4.symm k) ⟨0, by decide⟩ : ℕ) = k.val := contrEquiv1_symm_val D4 4 rfl rfl k
  have hl : D4.lhsIdx (ix2 p q) (contr4.symm k) = ix2 p k := by
    funext ax; apply Fin.ext
    match ax with
    | ⟨0, _⟩ => exact lhs_D4_0 _ _
    | ⟨1, _⟩ => exact (lhs_D4_1 _ _).trans hk
  have hr : D4.rhsIdx (ix2 p q) (contr4.symm k) = ix2 k q := by
    funext ax; apply Fin.ext
    match ax with
    | ⟨0, _⟩ => exact (rhs_D4_0 _ _).trans hk
    | ⟨1, _⟩ => exact rhs_D4_1 _ _
  rw [hl, hr]

/-! ## The payload at an index -/

/-- The bias as one row, spread over the rows: at row `p`, column `q` it reads the bias at `q`. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply]
  rw [shapeCast_addUnit_apply]
  congr 1
  funext ax
  match ax with
  | ⟨0, _⟩ => rfl

/-- The payload the kernel stores, at row `p`, column `q`. -/
theorem pay0_apply (x0 x1 : Vec Ideal S5000x4 .f32) (x2 x3 : Vec Ideal S4x128 .f32) (x4 : Vec Ideal S128 .f32)
    (p : Fin 5000) (q : Fin 128) :
    k0_pay1 (F := Ideal) x0 x1 x2 x3 x4 (ix2 p q)
      = max ((∑ k : Fin 4, x0 (ix2 p k) * x2 (ix2 k q)) + (∑ k : Fin 4, x1 (ix2 p k) * x3 (ix2 k q)) + x4 (ix1 q)) 0 := by
  unfold k0_pay1
  rw [maximumf_apply, addf_apply, addf_apply, broadcast_apply, bias_apply, mm_apply, mm_apply]
  simp only [truncf_apply, shapeCast_self]
  congr 1
  exact Ideal.ofBits_zero_f32

/-! ## From the blocks to the array -/

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a <;> rfl

/-- The index maps over the twenty points: the two row-blocked inputs move with the output's row block and stay at
    column block 0; the weights and the bias stay at block 0; the output's row block is the point itself. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) ≤ 19 ∧ win0_5.index t (1 : Fin 2) = 0 :=
  (by decide +kernel : ∀ t : Fin grid0.N, _)

/-- Every one of the twenty row blocks is some point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- What point `t` writes back is block `t` of the layer of the five input arrays as the region finds them. -/
theorem flushed0_eq (c : Dev nD) (t : Fin cfg0.N) :
    (dat0 (F := Ideal) V c).flushed 5 t = ((cfg0.win 5).blk t).view.read (Elt Ideal)
      (Cert.Spec.layer 4 (V c main_v17) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x4) hz2, View.ld_unit_zero (S := S4x128) hz2, View.ld_unit_zero (S := S128) hz1]
  obtain ⟨e00, e01, e10, e11, e20, e21, e30, e31, e40, e50, e51⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Spec.layer 4 (V c main_v17) (V c main_arg0) (V c main_arg2) (V c main_arg3) (V c main_arg4) (((cfg0.win 5).blk t).view.emb (ix2 p q))
  rw [pay0_apply]
  have h0 : ∀ k : Fin 4, iblk0 V c 0 t (ix2 p k)
      = (V c main_v17 : S100000x4.Idx → EReal) (ix2 ((((cfg0.win 5).blk t).view.emb (ix2 p q)) 0) k) := fun k => by
    show (V c main_v17 : S100000x4.Idx → EReal) (((cfg0.win 0).blk t).view.emb (ix2 p k)) = _
    congr 1; funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 4 + 1 * k.val = k.val; omega
  have h1 : ∀ k : Fin 4, iblk0 V c 1 t (ix2 p k)
      = (V c main_arg0 : S100000x4.Idx → EReal) (ix2 ((((cfg0.win 5).blk t).view.emb (ix2 p q)) 0) k) := fun k => by
    show (V c main_arg0 : S100000x4.Idx → EReal) (((cfg0.win 1).blk t).view.emb (ix2 p k)) = _
    congr 1; funext a; apply Fin.ext
    match a with
    | ⟨0, _⟩ => show win0_1.index t (0 : Fin 2) * 5000 + 1 * p.val = win0_5.index t (0 : Fin 2) * 5000 + 1 * p.val; omega
    | ⟨1, _⟩ => show win0_1.index t (1 : Fin 2) * 4 + 1 * k.val = k.val; omega
  have h2 : ∀ k : Fin 4, iblk0 V c 2 t (ix2 k q)
      = (V c main_arg2 : S4x128.Idx → EReal) (ix2 k ((((cfg0.win 5).blk t).view.emb (ix2 p q)) 1)) := fun k => by
    show (V c main_arg2 : S4x128.Idx → EReal) (((cfg0.win 2).blk t).view.emb (ix2 k q)) = _
    congr 1; funext a; apply Fin.ext
    match a with
    | ⟨0, _⟩ => show win0_2.index t (0 : Fin 2) * 4 + 1 * k.val = k.val; omega
    | ⟨1, _⟩ => show win0_2.index t (1 : Fin 2) * 128 + 1 * q.val = win0_5.index t (1 : Fin 2) * 128 + 1 * q.val; omega
  have h3 : ∀ k : Fin 4, iblk0 V c 3 t (ix2 k q)
      = (V c main_arg3 : S4x128.Idx → EReal) (ix2 k ((((cfg0.win 5).blk t).view.emb (ix2 p q)) 1)) := fun k => by
    show (V c main_arg3 : S4x128.Idx → EReal) (((cfg0.win 3).blk t).view.emb (ix2 k q)) = _
    congr 1; funext a; apply Fin.ext
    match a with
    | ⟨0, _⟩ => show win0_3.index t (0 : Fin 2) * 4 + 1 * k.val = k.val; omega
    | ⟨1, _⟩ => show win0_3.index t (1 : Fin 2) * 128 + 1 * q.val = win0_5.index t (1 : Fin 2) * 128 + 1 * q.val; omega
  have h4 : iblk0 V c 4 t (ix1 q)
      = (V c main_arg4 : S128.Idx → EReal) (ix1 ((((cfg0.win 5).blk t).view.emb (ix2 p q)) 1)) := by
    show (V c main_arg4 : S128.Idx → EReal) (((cfg0.win 4).blk t).view.emb (ix1 q)) = _
    congr 1; funext a; apply Fin.ext
    match a with
    | ⟨0, _⟩ => show win0_4.index t (0 : Fin 1) * 128 + 1 * q.val = win0_5.index t (1 : Fin 2) * 128 + 1 * q.val; omega
  simp only [h0, h1, h2, h3, h4]
  rfl

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- Every row lies in a block: row `r` in block `r / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the first layer of the five input arrays as the region finds them. -/
theorem final0 (c : Dev nD) : (dat0 (F := Ideal) V c).arrAt 5 cfg0.N
    = Cert.Spec.layer 4 (V c main_v17) (V c main_arg0) (V c main_arg2) (V c main_arg3) (V c main_arg4) :=
  (dat0 V c).arrAt_eq_of_cover 5 _ (fun t _ => flushed0_eq V c t) cover0

end Cert.KernelIdeal.HandValue

end
-- ==== Proof.KI.Val1.lean ====
import proofs.«429549_j41987600285851_1_alg».proof.Proof.KI.R1
import proofs.«429549_j41987600285851_1_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx
open scoped BigOperators

/-! # Region 1's output array as one function of the arrays the region finds (at the ideal values) -/

/-! ### The product of a 5000 × 128 matrix by a 128 × 128 matrix, read at an index -/

theorem v1_lhs_mmP_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem v1_lhs_mmP_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem v1_rhs_mmP_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem v1_rhs_mmP_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Accumulated into the zero splat, the product at entry (a, b) is the sum over the contracted coordinate of the
    row's entries times the column's. -/
theorem v1_mmP_apply {φ₁ φ₂ : FTy} (A : FVec Ideal S5000x128 φ₁) (B : FVec Ideal S128x128 φ₂) (a : Fin 5000) (b : Fin 128) :
    matmul dot_S5000x128_S128x128_S5000x128_1_0_0_1_n_n none A B (constant S5000x128 .f32 0x00000000#32) (ix2 a b)
      = ∑ k : Fin 128, A (ix2 a k) * B (ix2 k b) := by
  show FloatOps.matmul dot_S5000x128_S128x128_S5000x128_1_0_0_1_n_n none A B (constant S5000x128 .f32 0x00000000#32) (ix2 a b) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 a b) ((contrEquiv1 dot_S5000x128_S128x128_S5000x128_1_0_0_1_n_n 128 rfl rfl).symm k) = ix2 a k := funext fun ax => Fin.ext (by
    match ax with
    | ⟨0, _⟩ => exact v1_lhs_mmP_0 _ _
    | ⟨1, _⟩ => exact (v1_lhs_mmP_1 _ _).trans hk)
  have er : dot_S5000x128_S128x128_S5000x128_1_0_0_1_n_n.rhsIdx (ix2 a b) ((contrEquiv1 dot_S5000x128_S128x128_S5000x128_1_0_0_1_n_n 128 rfl rfl).symm k) = ix2 k b := funext fun ax => Fin.ext (by
    match ax with
    | ⟨0, _⟩ => exact (v1_rhs_mmP_0 _ _).trans hk
    | ⟨1, _⟩ => exact v1_rhs_mmP_1 _ _)
  rw [el, er]

/-! ### One grid point's step of the pooling kernel, entry by entry -/

/-- A bias vector laid as a one-row matrix reads the vector at the column. -/
theorem v1_row_apply1 {n : Nat} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

theorem v1_zero_word1 : (Scalar.ofBits .f32 0x00000000#32 : Ideal .f32) = (0 : EReal) := Ideal.ofBits_zero_f32

/-- The block of 5000 rows of the second layer, as the payload writes it before the column sums. -/
def v1_rows1 (x0 : Vec Ideal S5000x128 .f32) (x1 : Vec Ideal S5000x128 .f32) (x2 : Vec Ideal S128x128 .f32) (x3 : Vec Ideal S128x128 .f32) (x4 : Vec Ideal S128 .f32) : FVec Ideal S5000x128 .f32 :=
  maximumf (addf (addf
      (matmul dot_S5000x128_S128x128_S5000x128_1_0_0_1_n_n none
        (truncf .bf16 (shapeCast S5000x128 x0 shapeCasts_S5000x128_S5000x128) bitsLt_bf16_f32) (truncf .bf16 x2 bitsLt_bf16_f32)
        (constant S5000x128 .f32 0x00000000#32))
      (matmul dot_S5000x128_S128x128_S5000x128_1_0_0_1_n_n none
        (truncf .bf16 (shapeCast S5000x128 x1 shapeCasts_S5000x128_S5000x128) bitsLt_bf16_f32) (truncf .bf16 x3 bitsLt_bf16_f32)
        (constant S5000x128 .f32 0x00000000#32)))
      (broadcastTo S5000x128 (shapeCast S1x128 x4 shapeCasts_S128_S1x128) broadcasts_S1x128_S5000x128))
    (broadcast S5000x128 (Scalar.ofBits .f32 0x00000000#32))

/-- The step's payload: the accumulator plus the column sums of the block. -/
theorem v1_pay2_stages (x0 : Vec Ideal S5000x128 .f32) (x1 : Vec Ideal S5000x128 .f32) (x2 : Vec Ideal S128x128 .f32) (x3 : Vec Ideal S128x128 .f32) (x4 : Vec Ideal S128 .f32) (a : Vec Ideal S1x128 .f32) :
    k1_pay2 x0 x1 x2 x3 x4 a = shapeCast S1x128 (addf a (shapeCast S1x128
      (multiReduction .add [0] S128 (v1_rows1 x0 x1 x2 x3 x4) 0x00000000#32 reduces_S5000x128_S128 (.inl rfl) rfl) shapeCasts_S128_S1x128))
      shapeCasts_S1x128_S1x128 := rfl

/-- A bias row laid along all 5000 rows reads the vector at the column. -/
theorem v1_bias_apply (x4 : Vec Ideal S128 .f32) (q : Fin 5000) (j : Fin 128) :
    broadcastTo S5000x128 (shapeCast S1x128 x4 shapeCasts_S128_S1x128) broadcasts_S1x128_S5000x128 (ix2 q j) = x4 (ix1 j) := by
  rw [broadcastTo_apply (shapeCast S1x128 x4 shapeCasts_S128_S1x128) broadcasts_S1x128_S5000x128 (ix2 q j) (ix2 (0 : Fin 1) j) (by
    intro a
    match a with
    | ⟨0, _⟩ => rfl
    | ⟨1, _⟩ => rfl)]
  exact v1_row_apply1 x4 shapeCasts_S128_S1x128 j

/-- An entry of the block: the layer's formula at the block's row. -/
theorem v1_rows1_apply (x0 : Vec Ideal S5000x128 .f32) (x1 : Vec Ideal S5000x128 .f32) (x2 : Vec Ideal S128x128 .f32) (x3 : Vec Ideal S128x128 .f32) (x4 : Vec Ideal S128 .f32) (q : Fin 5000) (j : Fin 128) :
    v1_rows1 x0 x1 x2 x3 x4 (ix2 q j)
      = max ((∑ k : Fin 128, x0 (ix2 q k) * x2 (ix2 k j)) + (∑ k : Fin 128, x1 (ix2 q k) * x3 (ix2 k j)) + x4 (ix1 j)) 0 := by
  unfold v1_rows1
  rw [maximumf_apply, addf_apply, addf_apply, v1_mmP_apply, v1_mmP_apply, broadcast_apply, v1_zero_word1, v1_bias_apply]
  simp only [truncf_apply, shapeCast_self]

/-- The column sums over the block's 5000 rows. -/
theorem v1_laneSum_apply (src : FVec Ideal S5000x128 .f32) (j : Fin 128) :
    multiReduction .add [0] S128 src 0x00000000#32 reduces_S5000x128_S128 (.inl rfl) rfl (ix1 j) = ∑ q : Fin 5000, src (ix2 q j) := by
  refine (Ideal.multiReduction_add_single src 0x00000000#32 reduces_S5000x128_S128 (.inl rfl) rfl (ix1 j)).trans ?_
  show (∑ q : Fin 5000, src (reduces_S5000x128_S128.lift (ix1 j) q)) = _
  refine Finset.sum_congr rfl fun q _ => congrArg src (funext fun a => Fin.ext ?_)
  match a with
  | ⟨0, _⟩ => rfl
  | ⟨1, _⟩ => rfl

/-- THE STEP at an entry: the accumulator's entry plus the sum over the block's rows of the layer's formula. -/
theorem v1_pay2_apply (x0 : Vec Ideal S5000x128 .f32) (x1 : Vec Ideal S5000x128 .f32) (x2 : Vec Ideal S128x128 .f32) (x3 : Vec Ideal S128x128 .f32) (x4 : Vec Ideal S128 .f32) (a : Vec Ideal S1x128 .f32) (j : Fin 128) :
    k1_pay2 x0 x1 x2 x3 x4 a (ix2 (0 : Fin 1) j)
      = a (ix2 (0 : Fin 1) j) + ∑ q : Fin 5000, max ((∑ k : Fin 128, x0 (ix2 q k) * x2 (ix2 k j)) + (∑ k : Fin 128, x1 (ix2 q k) * x3 (ix2 k j)) + x4 (ix1 j)) 0 := by
  rw [v1_pay2_stages, shapeCast_self, addf_apply, v1_row_apply1, v1_laneSum_apply]
  simp only [v1_rows1_apply]

/-- The accumulator starts at zero. -/
theorem v1_pay1_apply (j : Fin 128) : k1_pay1 (F := Ideal) (ix2 (0 : Fin 1) j) = 0 := by
  unfold k1_pay1
  rw [shapeCast_self, broadcast_apply, v1_zero_word1]

/-- The named reciprocal denotes the rational 1/100000 at the ideal values, by the certificate's table. -/
theorem v1_inv_n : Named.named (F := Ideal) Cert.KernelIdeal.κ "inv_100000" (φ := .f32) 0x3727C5AC#32 = ((1 / 100000 : ℝ) : EReal) :=
  IdealRules.named_const.ideal_named_scalar _ _ _ _ rfl

/-- The last step's payload: the accumulator times 1/100000. -/
theorem v1_pay3_apply (a : Vec Ideal S1x128 .f32) (i : S1x128.Idx) : k1_pay3 a i = a i * ((1 / 100000 : ℝ) : EReal) := by
  unfold k1_pay3
  rw [mulf_apply, broadcast_apply, v1_inv_n]

-- the TensorCore's buffer contents when the region is entered
variable (V : (c : Dev nD) → (b : Ref sig .tc) → Buf (Elt Ideal) ((c : Thread nD τ).loc b))

/-! ## The windows' blocks as parts of the arrays -/

/-- The printed index maps, decided over the grid's 20 points: the two row-blocked inputs sit at row block `t`, every other
    window at block 0. -/
theorem v1_idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0 :=
  (by decide +kernel : ∀ t : Fin grid1.N, _)

theorem v1_lt20 (t : Fin cfg1.N) : t.val < 20 := by have h : t.val < grid1.N := t.isLt; rw [N_1] at h; exact h

/-- Row `q` of the block at point `t` is row 5000 · t + q of the array. -/
def v1_rowAt (t : Fin cfg1.N) (q : Fin 5000) : Fin 100000 := ⟨5000 * t.val + q.val, by have := v1_lt20 t; have := q.isLt; omega⟩

theorem v1_iblk1_0_apply (c : Dev nD) (t : Fin cfg1.N) (q : Fin 5000) (k : Fin 128) :
    (iblk1 V c 0 t : S5000x128.Idx → Elt Ideal .f32) (ix2 q k) = V c main_v25 (ix2 (v1_rowAt t q) k) := by
  obtain ⟨e0_0, e0_1, e1_0, e1_1, e2_0, e2_1, e3_0, e3_1, e4_0, e5_0, e5_1⟩ := v1_idx_facts1 t
  show V c main_v25 (((cfg1.win 0).blk t).view.emb (ix2 q k)) = V c main_v25 (ix2 (v1_rowAt t q) k)
  refine congrArg _ (funext fun a => Fin.ext ?_)
  match a with
  | ⟨0, _⟩ => show win1_0.index t (0 : Fin 2) * 5000 + 1 * q.val = 5000 * t.val + q.val; omega
  | ⟨1, _⟩ => show win1_0.index t (1 : Fin 2) * 128 + 1 * k.val = k.val; omega

theorem v1_iblk1_1_apply (c : Dev nD) (t : Fin cfg1.N) (q : Fin 5000) (k : Fin 128) :
    (iblk1 V c 1 t : S5000x128.Idx → Elt Ideal .f32) (ix2 q k) = V c main_v18 (ix2 (v1_rowAt t q) k) := by
  obtain ⟨e0_0, e0_1, e1_0, e1_1, e2_0, e2_1, e3_0, e3_1, e4_0, e5_0, e5_1⟩ := v1_idx_facts1 t
  show V c main_v18 (((cfg1.win 1).blk t).view.emb (ix2 q k)) = V c main_v18 (ix2 (v1_rowAt t q) k)
  refine congrArg _ (funext fun a => Fin.ext ?_)
  match a with
  | ⟨0, _⟩ => show win1_1.index t (0 : Fin 2) * 5000 + 1 * q.val = 5000 * t.val + q.val; omega
  | ⟨1, _⟩ => show win1_1.index t (1 : Fin 2) * 128 + 1 * k.val = k.val; omega

theorem v1_iblk1_2_eq (c : Dev nD) (t : Fin cfg1.N) : (iblk1 V c 2 t : S128x128.Idx → Elt Ideal .f32) = V c main_arg5 := by
  obtain ⟨e0_0, e0_1, e1_0, e1_1, e2_0, e2_1, e3_0, e3_1, e4_0, e5_0, e5_1⟩ := v1_idx_facts1 t
  funext y
  show V c main_arg5 (((cfg1.win 2).blk t).view.emb y) = V c main_arg5 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem v1_iblk1_3_eq (c : Dev nD) (t : Fin cfg1.N) : (iblk1 V c 3 t : S128x128.Idx → Elt Ideal .f32) = V c main_arg6 := by
  obtain ⟨e0_0, e0_1, e1_0, e1_1, e2_0, e2_1, e3_0, e3_1, e4_0, e5_0, e5_1⟩ := v1_idx_facts1 t
  funext y
  show V c main_arg6 (((cfg1.win 3).blk t).view.emb y) = V c main_arg6 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem v1_iblk1_4_eq (c : Dev nD) (t : Fin cfg1.N) : (iblk1 V c 4 t : S128.Idx → Elt Ideal .f32) = V c main_arg7 := by
  obtain ⟨e0_0, e0_1, e1_0, e1_1, e2_0, e2_1, e3_0, e3_1, e4_0, e5_0, e5_1⟩ := v1_idx_facts1 t
  funext y
  show V c main_arg7 (((cfg1.win 4).blk t).view.emb y) = V c main_arg7 y
  refine congrArg _ (funext fun a => Fin.ext ?_)
  match a with
  | ⟨0, _⟩ => show win1_4.index t (0 : Fin 1) * 128 + 1 * (y 0).val = (y 0).val; omega

/-! ## The accumulator after point `n`: the sum of the layer over the first 5000 · (n + 1) rows -/

/-- The second layer at row `r`, column `j` of the arrays the region finds (zero past the last row: never read). -/
def v1_layerRow (c : Dev nD) (j : Fin 128) (r : ℕ) : EReal :=
  if h : r < 100000 then Cert.Spec.layerAt 128 (V c main_v25) (V c main_v18) (V c main_arg5) (V c main_arg6) (V c main_arg7) ⟨r, h⟩ j else 0

/-- One point's step adds the layer over its block's 5000 rows. -/
theorem v1_step_apply (c : Dev nD) (t : Fin cfg1.N) (a : Vec Ideal S1x128 .f32) (j : Fin 128) :
    k1_pay2 (iblk1 V c 0 t) (iblk1 V c 1 t) (iblk1 V c 2 t) (iblk1 V c 3 t) (iblk1 V c 4 t) a (ix2 (0 : Fin 1) j)
      = a (ix2 (0 : Fin 1) j) + ∑ q ∈ Finset.range 5000, v1_layerRow V c j (5000 * t.val + q) := by
  rw [v1_pay2_apply, ← Fin.sum_univ_eq_sum_range (fun q => v1_layerRow V c j (5000 * t.val + q)) 5000]
  refine congrArg _ (Finset.sum_congr rfl fun q _ => ?_)
  have hlt : 5000 * t.val + q.val < 100000 := by have := v1_lt20 t; have := q.isLt; omega
  unfold v1_layerRow
  rw [dif_pos hlt]
  unfold Cert.Spec.layerAt
  simp only [v1_iblk1_0_apply, v1_iblk1_1_apply, v1_iblk1_2_eq, v1_iblk1_3_eq, v1_iblk1_4_eq]
  rfl

/-- THE ACCUMULATOR after point `n`, entry by entry. -/
theorem v1_acc1_apply (c : Dev nD) (j : Fin 128) : ∀ (n : ℕ) (hn : n < cfg1.N),
    acc1 V c n hn (ix2 (0 : Fin 1) j) = ∑ r ∈ Finset.range (5000 * (n + 1)), v1_layerRow V c j r
  | 0, hn => by
    show k1_pay2 (iblk1 V c 0 ⟨0, hn⟩) (iblk1 V c 1 ⟨0, hn⟩) (iblk1 V c 2 ⟨0, hn⟩) (iblk1 V c 3 ⟨0, hn⟩) (iblk1 V c 4 ⟨0, hn⟩) (k1_pay1 (F := Ideal)) (ix2 (0 : Fin 1) j) = _
    rw [v1_step_apply, v1_pay1_apply, zero_add]
    refine Finset.sum_congr rfl fun q _ => ?_
    show v1_layerRow V c j (5000 * 0 + q) = _
    rw [Nat.mul_zero, Nat.zero_add]
  | n + 1, hn => by
    show k1_pay2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 V c n (Nat.lt_of_succ_lt hn)) (ix2 (0 : Fin 1) j) = _
    rw [v1_step_apply, v1_acc1_apply c j n (Nat.lt_of_succ_lt hn), show 5000 * (n + 1 + 1) = 5000 * (n + 1) + 5000 by omega, Finset.sum_range_add]

/-- All 100000 rows: the sum over the array's rows. -/
theorem v1_sum_layerRow (c : Dev nD) (j : Fin 128) :
    ∑ r ∈ Finset.range 100000, v1_layerRow V c j r
      = ∑ r : Fin 100000, Cert.Spec.layerAt 128 (V c main_v25) (V c main_v18) (V c main_arg5) (V c main_arg6) (V c main_arg7) r j := by
  rw [← Fin.sum_univ_eq_sum_range (fun r => v1_layerRow V c j r) 100000]
  refine Finset.sum_congr rfl fun r _ => ?_
  unfold v1_layerRow
  rw [dif_pos r.isLt]

/-! ## From the one write-back to the array -/

/-- What the run leaves in the output array: the pooled second layer of the arrays the region finds. -/
abbrev v1_G1 (c : Dev nD) : S1x128.Idx → Elt Ideal .f32 :=
  Cert.Spec.pool (Cert.Spec.layer 128 (V c main_v25) (V c main_v18) (V c main_arg5) (V c main_arg6) (V c main_arg7))

/-- The output is written back at the last point only. -/
theorem v1_flush_last (t : Fin cfg1.N) (hf : (cfg1.win 5).flush t = true) : t.val = 19 := by
  have h := (flush1_5 t).mp hf
  have := v1_lt20 t
  omega

/-- WHAT THE LAST POINT WRITES BACK is its block — the whole 1 × 128 array — of `v1_G1`. -/
theorem v1_flushed1_5_eq (c : Dev nD) (t : Fin cfg1.N) (hf : (cfg1.win 5).flush t = true) :
    (dat1 (F := Ideal) V c).flushed 5 t = ((cfg1.win 5).blk t).view.read (Elt Ideal) (v1_G1 V c) := by
  have h19 := v1_flush_last t hf
  obtain ⟨e0_0, e0_1, e1_0, e1_1, e2_0, e2_1, e3_0, e3_1, e4_0, e5_0, e5_1⟩ := v1_idx_facts1 t
  show (cfg1.win 5).cut (grid1.coords t) ((dat1 V c).after 5 t) = _
  rw [after1_5]
  funext y
  show k1_pay3 (acc1 V c t.val t.isLt) y = v1_G1 V c (((cfg1.win 5).blk t).view.emb y)
  have hemb : ((cfg1.win 5).blk t).view.emb y = y := by
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [hemb, v1_pay3_apply]
  obtain ⟨p, j, rfl⟩ : ∃ (p : Fin 1) (j : Fin 128), y = ix2 p j := ⟨y 0, y 1, eq_ix2 y⟩
  obtain rfl : p = 0 := Subsingleton.elim _ _
  rw [v1_acc1_apply V c j t.val t.isLt, h19]
  show (∑ r ∈ Finset.range 100000, v1_layerRow V c j r) * _ = _
  rw [v1_sum_layerRow]
  rfl

theorem v1_mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v26).slice (win1_5.rect t)).set ↔ _
  rw [View.set_slice_whole, Rect.mem_set_unit]
  exact Iff.rfl

/-- The last point's block covers the 1 × 128 array. -/
theorem v1_covered1_5 (i : S1x128.Idx) : ∃ t : Fin cfg1.N, (cfg1.win 5).flush t = true ∧ i ∈ ((cfg1.win 5).blk t).view.set := by
  have h19 : 19 < cfg1.N := by show 19 < grid1.N; rw [N_1]; decide
  refine ⟨⟨19, h19⟩, (flush1_5 _).mpr rfl, ?_⟩
  rw [v1_mem_blk1_5]
  obtain ⟨e0_0, e0_1, e1_0, e1_1, e2_0, e2_1, e3_0, e3_1, e4_0, e5_0, e5_1⟩ := v1_idx_facts1 ⟨19, h19⟩
  have h0 : (i 0).val < 1 := idx2_lt0 i
  have h1 : (i 1).val < 128 := idx2_lt1 i
  intro a
  match a with
  | ⟨0, _⟩ => show win1_5.index ⟨19, h19⟩ (0 : Fin 2) * 1 ≤ (i 0).val ∧ (i 0).val < win1_5.index ⟨19, h19⟩ (0 : Fin 2) * 1 + 1; omega
  | ⟨1, _⟩ => show win1_5.index ⟨19, h19⟩ (1 : Fin 2) * 128 ≤ (i 1).val ∧ (i 1).val < win1_5.index ⟨19, h19⟩ (1 : Fin 2) * 128 + 128; omega

/-- THE ARRAY after the region: the pooled second layer of the arrays the region finds. -/
theorem final1 (c : Dev nD) : (dat1 (F := Ideal) V c).arrAt 5 cfg1.N
    = Cert.Spec.pool (Cert.Spec.layer 128 (V c main_v25) (V c main_v18) (V c main_arg5) (V c main_arg6) (V c main_arg7)) :=
  (dat1 V c).arrAt_eq_of_cover 5 (v1_G1 V c) (fun t hf => v1_flushed1_5_eq V c t hf) v1_covered1_5

end Cert.KernelIdeal.HandValue

end
-- ==== Proof.KI.Val2.lean ====
import proofs.«429549_j41987600285851_1_alg».proof.Proof.KI.R2
import proofs.«429549_j41987600285851_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx
open scoped BigOperators

/-! # Region 2's output array as one function of the arrays the region finds (at the ideal values) -/

/-! ### The product of a 1 × 128 row by a 128 × 256 matrix, read at an index -/

theorem lhs_mmA_0 (i : S1x256.Idx) (q : dot_S1x128_S128x256_S1x256_1_0_0_1_n_n.contr.Idx) :
    (dot_S1x128_S128x256_S1x256_1_0_0_1_n_n.lhsIdx i q 0).val = (i 0).val := by
  unfold DotDims.lhsIdx
  rw [dif_neg (show ¬(0 : Fin S1x128.rank) ∈ dot_S1x128_S128x256_S1x256_1_0_0_1_n_n.lhsBatch by decide), dif_pos (show (0 : Fin S1x128.rank) ∈ dot_S1x128_S128x256_S1x256_1_0_0_1_n_n.lhsNonContracting by decide)]
  rfl
theorem lhs_mmA_1 (i : S1x256.Idx) (q : dot_S1x128_S128x256_S1x256_1_0_0_1_n_n.contr.Idx) :
    (dot_S1x128_S128x256_S1x256_1_0_0_1_n_n.lhsIdx i q 1).val = (q ⟨0, by decide⟩).val :=
  dot_S1x128_S128x256_S1x256_1_0_0_1_n_n.lhsIdx_val_of_single rfl i q
theorem rhs_mmA_0 (i : S1x256.Idx) (q : dot_S1x128_S128x256_S1x256_1_0_0_1_n_n.contr.Idx) :
    (dot_S1x128_S128x256_S1x256_1_0_0_1_n_n.rhsIdx i q 0).val = (q ⟨0, by decide⟩).val :=
  dot_S1x128_S128x256_S1x256_1_0_0_1_n_n.rhsIdx_val_of_single rfl i q
theorem rhs_mmA_1 (i : S1x256.Idx) (q : dot_S1x128_S128x256_S1x256_1_0_0_1_n_n.contr.Idx) :
    (dot_S1x128_S128x256_S1x256_1_0_0_1_n_n.rhsIdx i q 1).val = (i 1).val := by
  unfold DotDims.rhsIdx
  rw [dif_neg (show ¬(1 : Fin S128x256.rank) ∈ dot_S1x128_S128x256_S1x256_1_0_0_1_n_n.rhsBatch by decide), dif_pos (show (1 : Fin S128x256.rank) ∈ dot_S1x128_S128x256_S1x256_1_0_0_1_n_n.rhsNonContracting by decide)]
  rfl

/-- Accumulated into the zero splat, the product at entry (a, b) is the sum over the contracted coordinate of the
    row's entries times the column's. -/
theorem mmA_apply {φ₁ φ₂ : FTy} (A : FVec Ideal S1x128 φ₁) (B : FVec Ideal S128x256 φ₂) (a : Fin 1) (b : Fin 256) :
    matmul dot_S1x128_S128x256_S1x256_1_0_0_1_n_n none A B (constant S1x256 .f32 0x00000000#32) (ix2 a b)
      = ∑ k : Fin 128, A (ix2 a k) * B (ix2 k b) := by
  show FloatOps.matmul dot_S1x128_S128x256_S1x256_1_0_0_1_n_n none A B (constant S1x256 .f32 0x00000000#32) (ix2 a b) = _
  rw [Ideal.matmul_constant_zero_apply, ← Equiv.sum_comp (contrEquiv1 dot_S1x128_S128x256_S1x256_1_0_0_1_n_n 128 rfl rfl).symm]
  refine Finset.sum_congr rfl fun k _ => ?_
  have hk := contrEquiv1_symm_val dot_S1x128_S128x256_S1x256_1_0_0_1_n_n 128 rfl rfl k
  have el : dot_S1x128_S128x256_S1x256_1_0_0_1_n_n.lhsIdx (ix2 a b) ((contrEquiv1 dot_S1x128_S128x256_S1x256_1_0_0_1_n_n 128 rfl rfl).symm k) = ix2 a k := funext fun ax => Fin.ext (by
    match ax with
    | ⟨0, _⟩ => exact lhs_mmA_0 _ _
    | ⟨1, _⟩ => exact (lhs_mmA_1 _ _).trans hk)
  have er : dot_S1x128_S128x256_S1x256_1_0_0_1_n_n.rhsIdx (ix2 a b) ((contrEquiv1 dot_S1x128_S128x256_S1x256_1_0_0_1_n_n 128 rfl rfl).symm k) = ix2 k b := funext fun ax => Fin.ext (by
    match ax with
    | ⟨0, _⟩ => exact (rhs_mmA_0 _ _).trans hk
    | ⟨1, _⟩ => exact rhs_mmA_1 _ _)
  rw [el, er]

/-! ### The product of a 1 × 256 row by a 256 × 128 matrix, read at an index -/

theorem lhs_mmB_0 (i : S1x128.Idx) (q : dot_S1x256_S256x128_S1x128_1_0_0_1_n_n.contr.Idx) :
    (dot_S1x256_S256x128_S1x128_1_0_0_1_n_n.lhsIdx i q 0).val = (i 0).val := by
  unfold DotDims.lhsIdx
  rw [dif_neg (show ¬(0 : Fin S1x256.rank) ∈ dot_S1x256_S256x128_S1x128_1_0_0_1_n_n.lhsBatch by decide), dif_pos (show (0 : Fin S1x256.rank) ∈ dot_S1x256_S256x128_S1x128_1_0_0_1_n_n.lhsNonContracting by decide)]
  rfl
theorem lhs_mmB_1 (i : S1x128.Idx) (q : dot_S1x256_S256x128_S1x128_1_0_0_1_n_n.contr.Idx) :
    (dot_S1x256_S256x128_S1x128_1_0_0_1_n_n.lhsIdx i q 1).val = (q ⟨0, by decide⟩).val :=
  dot_S1x256_S256x128_S1x128_1_0_0_1_n_n.lhsIdx_val_of_single rfl i q
theorem rhs_mmB_0 (i : S1x128.Idx) (q : dot_S1x256_S256x128_S1x128_1_0_0_1_n_n.contr.Idx) :
    (dot_S1x256_S256x128_S1x128_1_0_0_1_n_n.rhsIdx i q 0).val = (q ⟨0, by decide⟩).val :=
  dot_S1x256_S256x128_S1x128_1_0_0_1_n_n.rhsIdx_val_of_single rfl i q
theorem rhs_mmB_1 (i : S1x128.Idx) (q : dot_S1x256_S256x128_S1x128_1_0_0_1_n_n.contr.Idx) :
    (dot_S1x256_S256x128_S1x128_1_0_0_1_n_n.rhsIdx i q 1).val = (i 1).val := by
  unfold DotDims.rhsIdx
  rw [dif_neg (show ¬(1 : Fin S256x128.rank) ∈ dot_S1x256_S256x128_S1x128_1_0_0_1_n_n.rhsBatch by decide), dif_pos (show (1 : Fin S256x128.rank) ∈ dot_S1x256_S256x128_S1x128_1_0_0_1_n_n.rhsNonContracting by decide)]
  rfl

/-- Accumulated into the zero splat, the product at entry (a, b) is the sum over the contracted coordinate of the
    row's entries times the column's. -/
theorem mmB_apply {φ₁ φ₂ : FTy} (A : FVec Ideal S1x256 φ₁) (B : FVec Ideal S256x128 φ₂) (a : Fin 1) (b : Fin 128) :
    matmul dot_S1x256_S256x128_S1x128_1_0_0_1_n_n none A B (constant S1x128 .f32 0x00000000#32) (ix2 a b)
      = ∑ k : Fin 256, A (ix2 a k) * B (ix2 k b) := by
  show FloatOps.matmul dot_S1x256_S256x128_S1x128_1_0_0_1_n_n none A B (constant S1x128 .f32 0x00000000#32) (ix2 a b) = _
  rw [Ideal.matmul_constant_zero_apply, ← Equiv.sum_comp (contrEquiv1 dot_S1x256_S256x128_S1x128_1_0_0_1_n_n 256 rfl rfl).symm]
  refine Finset.sum_congr rfl fun k _ => ?_
  have hk := contrEquiv1_symm_val dot_S1x256_S256x128_S1x128_1_0_0_1_n_n 256 rfl rfl k
  have el : dot_S1x256_S256x128_S1x128_1_0_0_1_n_n.lhsIdx (ix2 a b) ((contrEquiv1 dot_S1x256_S256x128_S1x128_1_0_0_1_n_n 256 rfl rfl).symm k) = ix2 a k := funext fun ax => Fin.ext (by
    match ax with
    | ⟨0, _⟩ => exact lhs_mmB_0 _ _
    | ⟨1, _⟩ => exact (lhs_mmB_1 _ _).trans hk)
  have er : dot_S1x256_S256x128_S1x128_1_0_0_1_n_n.rhsIdx (ix2 a b) ((contrEquiv1 dot_S1x256_S256x128_S1x128_1_0_0_1_n_n 256 rfl rfl).symm k) = ix2 k b := funext fun ax => Fin.ext (by
    match ax with
    | ⟨0, _⟩ => exact (rhs_mmB_0 _ _).trans hk
    | ⟨1, _⟩ => exact rhs_mmB_1 _ _)
  rw [el, er]

/-! ### The product of a 1 × 128 row by a 128 × 1 matrix, read at an index -/

theorem lhs_mmC_0 (i : S1x1.Idx) (q : dot_S1x128_S128x1_S1x1_1_0_0_1_n_n.contr.Idx) :
    (dot_S1x128_S128x1_S1x1_1_0_0_1_n_n.lhsIdx i q 0).val = (i 0).val := by
  unfold DotDims.lhsIdx
  rw [dif_neg (show ¬(0 : Fin S1x128.rank) ∈ dot_S1x128_S128x1_S1x1_1_0_0_1_n_n.lhsBatch by decide), dif_pos (show (0 : Fin S1x128.rank) ∈ dot_S1x128_S128x1_S1x1_1_0_0_1_n_n.lhsNonContracting by decide)]
  rfl
theorem lhs_mmC_1 (i : S1x1.Idx) (q : dot_S1x128_S128x1_S1x1_1_0_0_1_n_n.contr.Idx) :
    (dot_S1x128_S128x1_S1x1_1_0_0_1_n_n.lhsIdx i q 1).val = (q ⟨0, by decide⟩).val :=
  dot_S1x128_S128x1_S1x1_1_0_0_1_n_n.lhsIdx_val_of_single rfl i q
theorem rhs_mmC_0 (i : S1x1.Idx) (q : dot_S1x128_S128x1_S1x1_1_0_0_1_n_n.contr.Idx) :
    (dot_S1x128_S128x1_S1x1_1_0_0_1_n_n.rhsIdx i q 0).val = (q ⟨0, by decide⟩).val :=
  dot_S1x128_S128x1_S1x1_1_0_0_1_n_n.rhsIdx_val_of_single rfl i q
theorem rhs_mmC_1 (i : S1x1.Idx) (q : dot_S1x128_S128x1_S1x1_1_0_0_1_n_n.contr.Idx) :
    (dot_S1x128_S128x1_S1x1_1_0_0_1_n_n.rhsIdx i q 1).val = (i 1).val := by
  unfold DotDims.rhsIdx
  rw [dif_neg (show ¬(1 : Fin S128x1.rank) ∈ dot_S1x128_S128x1_S1x1_1_0_0_1_n_n.rhsBatch by decide), dif_pos (show (1 : Fin S128x1.rank) ∈ dot_S1x128_S128x1_S1x1_1_0_0_1_n_n.rhsNonContracting by decide)]
  rfl

/-- Accumulated into the zero splat, the product at entry (a, b) is the sum over the contracted coordinate of the
    row's entries times the column's. -/
theorem mmC_apply {φ₁ φ₂ : FTy} (A : FVec Ideal S1x128 φ₁) (B : FVec Ideal S128x1 φ₂) (a : Fin 1) (b : Fin 1) :
    matmul dot_S1x128_S128x1_S1x1_1_0_0_1_n_n none A B (constant S1x1 .f32 0x00000000#32) (ix2 a b)
      = ∑ k : Fin 128, A (ix2 a k) * B (ix2 k b) := by
  show FloatOps.matmul dot_S1x128_S128x1_S1x1_1_0_0_1_n_n none A B (constant S1x1 .f32 0x00000000#32) (ix2 a b) = _
  rw [Ideal.matmul_constant_zero_apply, ← Equiv.sum_comp (contrEquiv1 dot_S1x128_S128x1_S1x1_1_0_0_1_n_n 128 rfl rfl).symm]
  refine Finset.sum_congr rfl fun k _ => ?_
  have hk := contrEquiv1_symm_val dot_S1x128_S128x1_S1x1_1_0_0_1_n_n 128 rfl rfl k
  have el : dot_S1x128_S128x1_S1x1_1_0_0_1_n_n.lhsIdx (ix2 a b) ((contrEquiv1 dot_S1x128_S128x1_S1x1_1_0_0_1_n_n 128 rfl rfl).symm k) = ix2 a k := funext fun ax => Fin.ext (by
    match ax with
    | ⟨0, _⟩ => exact lhs_mmC_0 _ _
    | ⟨1, _⟩ => exact (lhs_mmC_1 _ _).trans hk)
  have er : dot_S1x128_S128x1_S1x1_1_0_0_1_n_n.rhsIdx (ix2 a b) ((contrEquiv1 dot_S1x128_S128x1_S1x1_1_0_0_1_n_n 128 rfl rfl).symm k) = ix2 k b := funext fun ax => Fin.ext (by
    match ax with
    | ⟨0, _⟩ => exact (rhs_mmC_0 _ _).trans hk
    | ⟨1, _⟩ => exact rhs_mmC_1 _ _)
  rw [el, er]

/-! ### The three dense layers of the head, as the kernel's payload computes them -/

/-- A bias vector laid as a one-row matrix reads the vector at the column. -/
theorem row_apply {n : Nat} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-- The logistic function of a vector, entry by entry. -/
theorem logistic_apply {s : Shape} (v : FVec Ideal s .f32) (i : s.Idx) : logistic v i = Ideal.logistic (v i) := rfl

/-- The first dense layer's row as the payload writes it. -/
def stage1 (x0 : Vec Ideal S1x128 .f32) (x1 : Vec Ideal S128x256 .f32) (x2 : Vec Ideal S256 .f32) : FVec Ideal S1x256 .f32 :=
  maximumf (addf (matmul dot_S1x128_S128x256_S1x256_1_0_0_1_n_n none
      (truncf .bf16 (shapeCast S1x128 x0 shapeCasts_S1x128_S1x128) bitsLt_bf16_f32) (truncf .bf16 x1 bitsLt_bf16_f32)
      (constant S1x256 .f32 0x00000000#32)) (shapeCast S1x256 x2 shapeCasts_S256_S1x256))
    (broadcast S1x256 (Scalar.ofBits .f32 0x00000000#32))

/-- The second dense layer's row. -/
def stage2 (x0 : Vec Ideal S1x128 .f32) (x1 : Vec Ideal S128x256 .f32) (x2 : Vec Ideal S256 .f32) (x3 : Vec Ideal S256x128 .f32) (x4 : Vec Ideal S128 .f32) : FVec Ideal S1x128 .f32 :=
  maximumf (addf (matmul dot_S1x256_S256x128_S1x128_1_0_0_1_n_n none
      (truncf .bf16 (stage1 x0 x1 x2) bitsLt_bf16_f32) (truncf .bf16 x3 bitsLt_bf16_f32)
      (constant S1x128 .f32 0x00000000#32)) (shapeCast S1x128 x4 shapeCasts_S128_S1x128))
    (broadcast S1x128 (Scalar.ofBits .f32 0x00000000#32))

/-- The payload is the logistic function of the third layer over the second over the first. -/
theorem pay_stages (x0 : Vec Ideal S1x128 .f32) (x1 : Vec Ideal S128x256 .f32) (x2 : Vec Ideal S256 .f32) (x3 : Vec Ideal S256x128 .f32) (x4 : Vec Ideal S128 .f32) (x5 : Vec Ideal S128x1 .f32) (x6 : Vec Ideal S1 .f32) :
    k2_pay1 x0 x1 x2 x3 x4 x5 x6 = logistic (addf (matmul dot_S1x128_S128x1_S1x1_1_0_0_1_n_n none
      (truncf .bf16 (stage2 x0 x1 x2 x3 x4) bitsLt_bf16_f32) (truncf .bf16 x5 bitsLt_bf16_f32)
      (constant S1x1 .f32 0x00000000#32)) (shapeCast S1x1 x6 shapeCasts_S1_S1x1)) := rfl

theorem zero_word : (Scalar.ofBits .f32 0x00000000#32 : Ideal .f32) = (0 : EReal) := Ideal.ofBits_zero_f32

/-- The first layer's row is `emb`. -/
theorem stage1_apply (x0 : Vec Ideal S1x128 .f32) (x1 : Vec Ideal S128x256 .f32) (x2 : Vec Ideal S256 .f32) (q : Fin 256) :
    stage1 x0 x1 x2 (ix2 (0 : Fin 1) q) = Cert.Spec.emb x0 x1 x2 q := by
  unfold stage1 Cert.Spec.emb
  rw [maximumf_apply, addf_apply, mmA_apply, broadcast_apply, zero_word, row_apply]
  simp only [truncf_apply, shapeCast_self]

/-- The second layer's row is `hcls`. -/
theorem stage2_apply (x0 : Vec Ideal S1x128 .f32) (x1 : Vec Ideal S128x256 .f32) (x2 : Vec Ideal S256 .f32) (x3 : Vec Ideal S256x128 .f32) (x4 : Vec Ideal S128 .f32) (q : Fin 128) :
    stage2 x0 x1 x2 x3 x4 (ix2 (0 : Fin 1) q) = Cert.Spec.hcls x0 x1 x2 x3 x4 q := by
  unfold stage2 Cert.Spec.hcls
  rw [maximumf_apply, addf_apply, mmB_apply, broadcast_apply, zero_word, row_apply]
  simp only [truncf_apply, stage1_apply]

/-- THE PAYLOAD at its one index is the head of the network. -/
theorem pay_eq (x0 : Vec Ideal S1x128 .f32) (x1 : Vec Ideal S128x256 .f32) (x2 : Vec Ideal S256 .f32) (x3 : Vec Ideal S256x128 .f32) (x4 : Vec Ideal S128 .f32) (x5 : Vec Ideal S128x1 .f32) (x6 : Vec Ideal S1 .f32) (j : S1x1.Idx) :
    k2_pay1 x0 x1 x2 x3 x4 x5 x6 j = Cert.Spec.head x0 x1 x2 x3 x4 x5 x6 j := by
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  rw [pay_stages]
  unfold Cert.Spec.head
  rw [logistic_apply, addf_apply, mmC_apply, row_apply]
  simp only [truncf_apply, stage2_apply]

-- the TensorCore's buffer contents when the region is entered
variable (V : (c : Dev nD) → (b : Ref sig .tc) → Buf (Elt Ideal) ((c : Thread nD τ).loc b))

/-! ## From the one block to the array -/

private theorem hz2 : (![0, 0] : Fin 2 → Nat) = fun _ => 0 := funext fun a => by fin_cases a <;> rfl
private theorem hz1 : (![0] : Fin 1 → Nat) = fun _ => 0 := funext fun a => by fin_cases a <;> rfl

/-- The printed index maps, decided over the grid's one point: every window's block index is 0 on every axis. -/
theorem idx_facts2 : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 2) = 0
    ∧ win2_5.index t (1 : Fin 2) = 0
    ∧ win2_6.index t (0 : Fin 1) = 0
    ∧ win2_7.index t (0 : Fin 2) = 0
    ∧ win2_7.index t (1 : Fin 2) = 0 :=
  (by decide +kernel : ∀ t : Fin grid2.N, _)

/-- Input window 0's block at the point is the whole array. -/
theorem iblk2_0_eq (c : Dev nD) (t : Fin cfg2.N) : (iblk2 V c 0 t : S1x128.Idx → Elt Ideal .f32) = V c main_v26 := by
  obtain ⟨e0_0, e0_1, e1_0, e1_1, e2_0, e3_0, e3_1, e4_0, e5_0, e5_1, e6_0, e7_0, e7_1⟩ := idx_facts2 t
  funext y
  show V c main_v26 (((cfg2.win 0).blk t).view.emb y) = V c main_v26 y
  refine congrArg _ (funext fun a => Fin.ext ?_)
  match a with
  | ⟨0, _⟩ => show win2_0.index t (0 : Fin 2) * 1 + 1 * (y 0).val = (y 0).val; omega
  | ⟨1, _⟩ => show win2_0.index t (1 : Fin 2) * 128 + 1 * (y 1).val = (y 1).val; omega

/-- Input window 1's block at the point is the whole array. -/
theorem iblk2_1_eq (c : Dev nD) (t : Fin cfg2.N) : (iblk2 V c 1 t : S128x256.Idx → Elt Ideal .f32) = V c main_arg8 := by
  obtain ⟨e0_0, e0_1, e1_0, e1_1, e2_0, e3_0, e3_1, e4_0, e5_0, e5_1, e6_0, e7_0, e7_1⟩ := idx_facts2 t
  funext y
  show V c main_arg8 (((cfg2.win 1).blk t).view.emb y) = V c main_arg8 y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 256 + 1 * (y 1).val = (y 1).val; omega

/-- Input window 2's block at the point is the whole array. -/
theorem iblk2_2_eq (c : Dev nD) (t : Fin cfg2.N) : (iblk2 V c 2 t : S256.Idx → Elt Ideal .f32) = V c main_arg9 := by
  obtain ⟨e0_0, e0_1, e1_0, e1_1, e2_0, e3_0, e3_1, e4_0, e5_0, e5_1, e6_0, e7_0, e7_1⟩ := idx_facts2 t
  funext y
  show V c main_arg9 (((cfg2.win 2).blk t).view.emb y) = V c main_arg9 y
  refine congrArg _ (funext fun a => Fin.ext ?_)
  match a with
  | ⟨0, _⟩ => show win2_2.index t (0 : Fin 1) * 256 + 1 * (y 0).val = (y 0).val; omega

/-- Input window 3's block at the point is the whole array. -/
theorem iblk2_3_eq (c : Dev nD) (t : Fin cfg2.N) : (iblk2 V c 3 t : S256x128.Idx → Elt Ideal .f32) = V c main_arg10 := by
  obtain ⟨e0_0, e0_1, e1_0, e1_1, e2_0, e3_0, e3_1, e4_0, e5_0, e5_1, e6_0, e7_0, e7_1⟩ := idx_facts2 t
  funext y
  show V c main_arg10 (((cfg2.win 3).blk t).view.emb y) = V c main_arg10 y
  refine congrArg _ (funext fun a => Fin.ext ?_)
  match a with
  | ⟨0, _⟩ => show win2_3.index t (0 : Fin 2) * 256 + 1 * (y 0).val = (y 0).val; omega
  | ⟨1, _⟩ => show win2_3.index t (1 : Fin 2) * 128 + 1 * (y 1).val = (y 1).val; omega

/-- Input window 4's block at the point is the whole array. -/
theorem iblk2_4_eq (c : Dev nD) (t : Fin cfg2.N) : (iblk2 V c 4 t : S128.Idx → Elt Ideal .f32) = V c main_arg11 := by
  obtain ⟨e0_0, e0_1, e1_0, e1_1, e2_0, e3_0, e3_1, e4_0, e5_0, e5_1, e6_0, e7_0, e7_1⟩ := idx_facts2 t
  funext y
  show V c main_arg11 (((cfg2.win 4).blk t).view.emb y) = V c main_arg11 y
  refine congrArg _ (funext fun a => Fin.ext ?_)
  match a with
  | ⟨0, _⟩ => show win2_4.index t (0 : Fin 1) * 128 + 1 * (y 0).val = (y 0).val; omega

/-- Input window 5's block at the point is the whole array. -/
theorem iblk2_5_eq (c : Dev nD) (t : Fin cfg2.N) : (iblk2 V c 5 t : S128x1.Idx → Elt Ideal .f32) = V c main_arg12 := by
  obtain ⟨e0_0, e0_1, e1_0, e1_1, e2_0, e3_0, e3_1, e4_0, e5_0, e5_1, e6_0, e7_0, e7_1⟩ := idx_facts2 t
  funext y
  show V c main_arg12 (((cfg2.win 5).blk t).view.emb y) = V c main_arg12 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 1 + 1 * (y 1).val = (y 1).val; omega

/-- Input window 6's block at the point is the whole array. -/
theorem iblk2_6_eq (c : Dev nD) (t : Fin cfg2.N) : (iblk2 V c 6 t : S1.Idx → Elt Ideal .f32) = V c main_arg13 := by
  obtain ⟨e0_0, e0_1, e1_0, e1_1, e2_0, e3_0, e3_1, e4_0, e5_0, e5_1, e6_0, e7_0, e7_1⟩ := idx_facts2 t
  funext y
  show V c main_arg13 (((cfg2.win 6).blk t).view.emb y) = V c main_arg13 y
  refine congrArg _ (funext fun a => Fin.ext ?_)
  match a with
  | ⟨0, _⟩ => show win2_6.index t (0 : Fin 1) * 1 + 1 * (y 0).val = (y 0).val; omega

/-- What the run leaves in the output array: the head of the network at the arrays the region finds. -/
abbrev G2 (c : Dev nD) : S1x1.Idx → Elt Ideal .f32 :=
  Cert.Spec.head (V c main_v26) (V c main_arg8) (V c main_arg9) (V c main_arg10) (V c main_arg11) (V c main_arg12) (V c main_arg13)

/-- WHAT THE POINT WRITES BACK is its block of `G2`. -/
theorem flushed2_7_eq (c : Dev nD) (t : Fin cfg2.N) :
    (dat2 (F := Ideal) V c).flushed 7 t = ((cfg2.win 7).blk t).view.read (Elt Ideal) (G2 V c) := by
  show (cfg2.win 7).cut (grid2.coords t) ((dat2 V c).after 7 t) = _
  rw [after2_7]
  unfold out2_7
  rw [View.canon_unit_zero hz2]
  simp only [View.ld_unit_zero (S := S1x128) hz2, View.ld_unit_zero (S := S128x256) hz2, View.ld_unit_zero (S := S256) hz1,
    View.ld_unit_zero (S := S256x128) hz2, View.ld_unit_zero (S := S128) hz1, View.ld_unit_zero (S := S128x1) hz2,
    View.ld_unit_zero (S := S1) hz1]
  rw [iblk2_0_eq, iblk2_1_eq, iblk2_2_eq, iblk2_3_eq, iblk2_4_eq, iblk2_5_eq, iblk2_6_eq]
  funext j
  show k2_pay1 (V c main_v26) (V c main_arg8) (V c main_arg9) (V c main_arg10) (V c main_arg11) (V c main_arg12) (V c main_arg13) j
    = G2 V c (((cfg2.win 7).blk t).view.emb j)
  rw [pay_eq]
  rfl

/-- An index of the array is in the point's block iff each coordinate is in the block's range on its axis. -/
theorem mem_blk2_7 (t : Fin cfg2.N) (i : S1x1.Idx) :
    i ∈ ((cfg2.win 7).blk t).view.set ↔ ∀ a : Fin 2, win2_7.index t a * S1x1.size a ≤ (i a).val ∧ (i a).val < win2_7.index t a * S1x1.size a + S1x1.size a := by
  show i ∈ ((View.whole main_v27).slice (win2_7.rect t)).set ↔ _
  rw [View.set_slice_whole, Rect.mem_set_unit]
  exact Iff.rfl

/-- The one block covers the 1 × 1 array. -/
theorem covered2_7 (i : S1x1.Idx) : ∃ t : Fin cfg2.N, (cfg2.win 7).flush t = true ∧ i ∈ ((cfg2.win 7).blk t).view.set := by
  refine ⟨t2_0, flush2_7 t2_0, ?_⟩
  rw [mem_blk2_7]
  obtain ⟨e0_0, e0_1, e1_0, e1_1, e2_0, e3_0, e3_1, e4_0, e5_0, e5_1, e6_0, e7_0, e7_1⟩ := idx_facts2 t2_0
  have h0 : (i 0).val < 1 := idx2_lt0 i
  have h1 : (i 1).val < 1 := idx2_lt1 i
  intro a
  match a with
  | ⟨0, _⟩ => show win2_7.index t2_0 (0 : Fin 2) * 1 ≤ (i 0).val ∧ (i 0).val < win2_7.index t2_0 (0 : Fin 2) * 1 + 1; omega
  | ⟨1, _⟩ => show win2_7.index t2_0 (1 : Fin 2) * 1 ≤ (i 1).val ∧ (i 1).val < win2_7.index t2_0 (1 : Fin 2) * 1 + 1; omega

/-- THE ARRAY after the region: the head of the network at the arrays the region finds. -/
theorem final2 (c : Dev nD) : (dat2 (F := Ideal) V c).arrAt 7 cfg2.N
    = Cert.Spec.head (V c main_v26) (V c main_arg8) (V c main_arg9) (V c main_arg10) (V c main_arg11) (V c main_arg12) (V c main_arg13) :=
  (dat2 V c).arrAt_eq_of_cover 7 (G2 V c) (fun t _ => flushed2_7_eq V c t) covered2_7

end Cert.KernelIdeal.HandValue

end
-- ==== Proof.KI.Result.lean ====
/-
  The kernel program's result as a function of its arguments.

  The last region's output array is the head of the network at the arrays that region finds; what it
  finds in its first operand is the second region's output, the pool of the second layer at the
  arrays THAT region finds; and the second layer's feature operand is the first region's output,
  the first layer.  Each layer's mean operand is the aggregate along the edges times the reciprocal
  of the clipped degree, and every weight and bias a region reads is the launch's.  Substituting
  one into the next gives the whole network, the mean taken by the reciprocal.
-/
import proofs.«429549_j41987600285851_1_alg».proof.Proof.KI.Run
import proofs.«429549_j41987600285851_1_alg».proof.Proof.KI.Host
import proofs.«429549_j41987600285851_1_alg».proof.Proof.KI.Val0
import proofs.«429549_j41987600285851_1_alg».proof.Proof.KI.Val1
import proofs.«429549_j41987600285851_1_alg».proof.Proof.KI.Val2

set_option maxRecDepth 16384

noncomputable section

namespace Cert.KernelIdeal.HandValue

open Idealize.ShloMosaic Idealize.ShloMosaic.TcCoe
open Cert.KernelIdeal Cert.KernelIdeal.Gen Cert.KernelIdeal.Hand

variable (m : (ℓ : Loc nD τ sig) → Buf (Elt Ideal) ℓ)

/-- THE FIRST REGION'S OUTPUT: the first layer, over the launch's features and weights, the mean the
    aggregate times the reciprocal of the clipped degree. -/
theorem left18_eq (c : Dev nD) :
    outs m 6 main_v18 c
      = Cert.Spec.layer 4
          (Cert.Spec.meanMul 4 (agg4K (m ((c : Thread nD τ).loc main_arg0)) (m ((c : Thread nD τ).loc main_arg1))) (degK (m ((c : Thread nD τ).loc main_arg1))))
          (m ((c : Thread nD τ).loc main_arg0)) (m ((c : Thread nD τ).loc main_arg2)) (m ((c : Thread nD τ).loc main_arg3)) (m ((c : Thread nD τ).loc main_arg4)) := by
  rw [outs_v18 m c, final0 (fun c b => Gen.V5 m c b) c]
  beta_reduce
  rw [V5_v17_mean m c, V5_arg0 m c, V5_arg2 m c, V5_arg3 m c, V5_arg4 m c]

/-- THE SECOND REGION'S OUTPUT: the pool of the second layer over the first region's output. -/
theorem left26_eq (c : Dev nD) :
    outs m 9 main_v26 c
      = Cert.Spec.pool (Cert.Spec.layer 128
          (Cert.Spec.meanMul 128 (agg128K (outs m 6 main_v18 c) (m ((c : Thread nD τ).loc main_arg1))) (degK (m ((c : Thread nD τ).loc main_arg1))))
          (outs m 6 main_v18 c) (m ((c : Thread nD τ).loc main_arg5)) (m ((c : Thread nD τ).loc main_arg6)) (m ((c : Thread nD τ).loc main_arg7))) := by
  rw [outs_v26 m c, final1 (fun c b => Gen.V8 m (outs m) c b) c]
  beta_reduce
  rw [V8_v25_mean m (outs m) c, V8_v18 m (outs m) c, V8_arg5 m (outs m) c, V8_arg6 m (outs m) c, V8_arg7 m (outs m) c]

/-- THE RESULT: the last region's output array is the whole network at the launch's arguments. -/
theorem result (c : Dev nD) :
    (dat2 (F := Ideal) (fun c b => Gen.V9 m (outs m) c b) c).arrAt 7 cfg2.N
      = Cert.Spec.net
          (fun h => Cert.Spec.meanMul 4 (agg4K h (m ((c : Thread nD τ).loc main_arg1))) (degK (m ((c : Thread nD τ).loc main_arg1))))
          (fun h => Cert.Spec.meanMul 128 (agg128K h (m ((c : Thread nD τ).loc main_arg1))) (degK (m ((c : Thread nD τ).loc main_arg1))))
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [final2 (fun c b => Gen.V9 m (outs m) c b) c]
  beta_reduce
  rw [V9_v26 m (outs m) c, V9_arg8 m (outs m) c, V9_arg9 m (outs m) c, V9_arg10 m (outs m) c, V9_arg11 m (outs m) c,
    V9_arg12 m (outs m) c, V9_arg13 m (outs m) c, left26_eq m c, left18_eq m c]
  unfold Cert.Spec.net
  rfl

end Cert.KernelIdeal.HandValue

end
-- ==== Proof.Ref.Ops.lean ====
import proofs.«429549_j41987600285851_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 131 operations, in order (main_part0: operations 1 … 114; main_part1: operations 115 … 131). -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.TRef.nullary main_call0.c (constantI S_ 32 0#32),
    StableHlo.TRef.unary main_call0.c main_call0.v0 (broadcastInDim S1600000 ![] bcast_S_S1600000),
    StableHlo.TRef.binary (.of main_v1) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_v1) main_call0.v2 main_call0.v3 addi,
    StableHlo.TRef.ternary main_call0.v1 main_call0.v3 (.of main_v1) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_arg0) main_call0.v5 main_call0.v13 (fun x i => Host.gather gather_S100000x4_S1600000x1_S1600000x4_1_0_n_n_0_1_14 x i),
    StableHlo.TRef.unary main_call0.v12 main_call0.v14 (broadcastInDim S1600000x4 ![0] bcast_S1600000_S1600000x4_0),
    StableHlo.TRef.nullary main_call0.cst (constant S_ .f32 0x7FC00000#32),
    StableHlo.TRef.unary main_call0.cst main_call0.v15 (broadcastInDim S1600000x4 ![] bcast_S_S1600000x4),
    StableHlo.TRef.ternary main_call0.v14 main_call0.v13 main_call0.v15 main_call0.v16 select,
    StableHlo.nullary main_cst (constant S_ .f32 0x00000000#32),
    StableHlo.unary main_cst main_v5 (broadcastInDim S100000x4 ![] bcast_S_S100000x4 : (⟨S_, .f32⟩ : BufTy).Contents (Elt F) → (⟨S100000x4, .f32⟩ : BufTy).Contents (Elt F)),
    StableHlo.unary main_v3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x4_S1600000x1_S1600000x4_1_0_0_1 x i u) : (⟨S100000x4, .f32⟩ : BufTy).Contents (Elt F) → (⟨S1600000x1, .i32⟩ : BufTy).Contents (Elt F) → (⟨S1600000x4, .f32⟩ : BufTy).Contents (Elt F) → (⟨S100000x4, .f32⟩ : BufTy).Contents (Elt F)),
    StableHlo.nullary main_cst_0 (constant S_ .f32 0x3F800000#32),
    StableHlo.unary main_cst_0 main_v8 (broadcastInDim S1600000 ![] bcast_S_S1600000 : (⟨S_, .f32⟩ : BufTy).Contents (Elt F) → (⟨S1600000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.unary main_v3 main_v10 (broadcastInDim S1600000x1 ![0] bcast_S1600000_S1600000x1_0 : (⟨S1600000, .i32⟩ : BufTy).Contents (Elt F) → (⟨S1600000x1, .i32⟩ : BufTy).Contents (Elt F)),
    StableHlo.ternary main_v9 main_v10 main_v8 main_v11 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_2 (constant S_ .f32 0x3F800000#32),
    StableHlo.TRef.unary (.of main_cst_2) main_call1.v0 id,
    StableHlo.TRef.unary main_call1.v0 main_call1.v1 (broadcastInDim S100000 ![] bcast_S_S100000),
    StableHlo.TRef.binary main_call1.v1 (.of main_v11) main_call1.v2 maximumf,
    StableHlo.unary main_v12 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x4 ![0, 1] bcast_S100000x1_S100000x4_0_1 : (⟨S100000x1, .f32⟩ : BufTy).Contents (Elt F) → (⟨S100000x4, .f32⟩ : BufTy).Contents (Elt F)),
    StableHlo.binary main_v7 main_v14 main_v15 (Host.divf : (⟨S100000x4, .f32⟩ : BufTy).Contents (Elt F) → (⟨S100000x4, .f32⟩ : BufTy).Contents (Elt F) → (⟨S100000x4, .f32⟩ : BufTy).Contents (Elt F)),
    StableHlo.binary main_v15 main_arg2 main_v16 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)),
    StableHlo.unary main_arg4 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S100000x128 ![0, 1] bcast_S1x128_S100000x128_0_1 : (⟨S1x128, .f32⟩ : BufTy).Contents (Elt F) → (⟨S100000x128, .f32⟩ : BufTy).Contents (Elt F)),
    StableHlo.binary main_v16 main_v18 main_v19 (addf : (⟨S100000x128, .f32⟩ : BufTy).Contents (Elt F) → (⟨S100000x128, .f32⟩ : BufTy).Contents (Elt F) → (⟨S100000x128, .f32⟩ : BufTy).Contents (Elt F)),
    StableHlo.binary main_arg0 main_arg3 main_v20 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)),
    StableHlo.binary main_v19 main_v20 main_v21 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v21) main_call2.v0 main_call2.v1 maximumf,
    StableHlo.TRef.nullary main_call3.c (constantI S_ 32 0#32),
    StableHlo.TRef.unary main_call3.c main_call3.v0 (broadcastInDim S1600000 ![] bcast_S_S1600000),
    StableHlo.TRef.binary (.of main_v1) main_call3.v0 main_call3.v1 (cmpi .slt),
    StableHlo.TRef.nullary main_call3.c_0 (constantI S_ 32 100000#32),
    StableHlo.TRef.unary main_call3.c_0 main_call3.v2 (broadcastInDim S1600000 ![] bcast_S_S1600000),
    StableHlo.TRef.binary (.of main_v1) main_call3.v2 main_call3.v3 addi,
    StableHlo.TRef.ternary main_call3.v1 main_call3.v3 (.of main_v1) main_call3.call0.v0 select,
    StableHlo.TRef.unary main_call3.call0.v0 main_call3.v5 (broadcastInDim S1600000x1 ![0] bcast_S1600000_S1600000x1_0),
    StableHlo.TRef.nullary main_call3.c_1 (constantI S1 32 99999#32),
    StableHlo.TRef.nullary main_call3.c_2 (constantI S_ 32 0#32),
    StableHlo.TRef.unary main_call3.c_2 main_call3.v6 (broadcastInDim S1600000x1 ![] bcast_S_S1600000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S1600000x1 ![0, 1] bcast_S1x1_S1600000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1600000x1_S1600000_d1 h_S_),
    StableHlo.TRef.binary (.of main_v22) main_call3.v5 main_call3.v13 (fun x i => Host.gather gather_S100000x128_S1600000x1_S1600000x128_1_0_n_n_0_1_1128 x i),
    StableHlo.TRef.unary main_call3.v12 main_call3.v14 (broadcastInDim S1600000x128 ![0] bcast_S1600000_S1600000x128_0),
    StableHlo.TRef.nullary main_call3.cst (constant S_ .f32 0x7FC00000#32),
    StableHlo.TRef.unary main_call3.cst main_call3.v15 (broadcastInDim S1600000x128 ![] bcast_S_S1600000x128),
    StableHlo.TRef.ternary main_call3.v14 main_call3.v13 main_call3.v15 main_call3.v16 select,
    StableHlo.nullary main_cst_3 (constant S_ .f32 0x00000000#32),
    StableHlo.unary main_cst_3 main_v24 (broadcastInDim S100000x128 ![] bcast_S_S100000x128 : (⟨S_, .f32⟩ : BufTy).Contents (Elt F) → (⟨S100000x128, .f32⟩ : BufTy).Contents (Elt F)),
    StableHlo.unary main_v3 main_v25 (broadcastInDim S1600000x1 ![0] bcast_S1600000_S1600000x1_0 : (⟨S1600000, .i32⟩ : BufTy).Contents (Elt F) → (⟨S1600000x1, .i32⟩ : BufTy).Contents (Elt F)),
    StableHlo.ternary main_v24 main_v25 main_v23 main_v26 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_4 (constant S_ .f32 0x3F800000#32),
    StableHlo.unary main_cst_4 main_v27 (broadcastInDim S1600000 ![] bcast_S_S1600000 : (⟨S_, .f32⟩ : BufTy).Contents (Elt F) → (⟨S1600000, .f32⟩ : BufTy).Contents (Elt F)),
    StableHlo.nullary main_cst_5 (constant S_ .f32 0x00000000#32),
    StableHlo.unary main_cst_5 main_v28 (broadcastInDim S100000 ![] bcast_S_S100000 : (⟨S_, .f32⟩ : BufTy).Contents (Elt F) → (⟨S100000, .f32⟩ : BufTy).Contents (Elt F)),
    StableHlo.unary main_v3 main_v29 (broadcastInDim S1600000x1 ![0] bcast_S1600000_S1600000x1_0 : (⟨S1600000, .i32⟩ : BufTy).Contents (Elt F) → (⟨S1600000x1, .i32⟩ : BufTy).Contents (Elt F)),
    StableHlo.ternary main_v28 main_v29 main_v27 main_v30 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_6 (constant S_ .f32 0x3F800000#32),
    StableHlo.TRef.unary (.of main_cst_6) main_call4.v0 id,
    StableHlo.TRef.unary main_call4.v0 main_call4.v1 (broadcastInDim S100000 ![] bcast_S_S100000),
    StableHlo.TRef.binary main_call4.v1 (.of main_v30) main_call4.v2 maximumf,
    StableHlo.unary main_v31 main_v32 (broadcastInDim S100000x1 ![0] bcast_S100000_S100000x1_0 : (⟨S100000, .f32⟩ : BufTy).Contents (Elt F) → (⟨S100000x1, .f32⟩ : BufTy).Contents (Elt F)),
    StableHlo.unary main_v32 main_v33 (broadcastInDim S100000x128 ![0, 1] bcast_S100000x1_S100000x128_0_1 : (⟨S100000x1, .f32⟩ : BufTy).Contents (Elt F) → (⟨S100000x128, .f32⟩ : BufTy).Contents (Elt F)),
    StableHlo.binary main_v26 main_v33 main_v34 (Host.divf : (⟨S100000x128, .f32⟩ : BufTy).Contents (Elt F) → (⟨S100000x128, .f32⟩ : BufTy).Contents (Elt F) → (⟨S100000x128, .f32⟩ : BufTy).Contents (Elt F)),
    StableHlo.binary main_v34 main_arg5 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_v35 main_v37 main_v38 (addf : (⟨S100000x128, .f32⟩ : BufTy).Contents (Elt F) → (⟨S100000x128, .f32⟩ : BufTy).Contents (Elt F) → (⟨S100000x128, .f32⟩ : BufTy).Contents (Elt F)),
    StableHlo.binary main_v22 main_arg6 main_v39 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v38 main_v39 main_v40 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v40) main_call5.v0 main_call5.v1 maximumf,
    StableHlo.nullary main_cst_7 (constant S_ .f32 0x00000000#32),
    StableHlo.binary main_v41 main_cst_7 main_v42 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.nullary main_cst_8 (constant S_ .f32 0x47C35000#32),
    StableHlo.unary main_cst_8 main_v44 (broadcastInDim S1x128 ![] bcast_S_S1x128 : (⟨S_, .f32⟩ : BufTy).Contents (Elt F) → (⟨S1x128, .f32⟩ : BufTy).Contents (Elt F)),
    StableHlo.binary main_v43 main_v44 main_v45 (Host.divf : (⟨S1x128, .f32⟩ : BufTy).Contents (Elt F) → (⟨S1x128, .f32⟩ : BufTy).Contents (Elt F) → (⟨S1x128, .f32⟩ : BufTy).Contents (Elt F)),
    StableHlo.binary main_v45 main_arg8 main_v46 ((fun l r => Host.dotGeneral dot_S1x128_S128x256_S1x256_1_0_0_1_n_n none l r) : (⟨S1x128, .f32⟩ : BufTy).Contents (Elt F) → (⟨S128x256, .f32⟩ : BufTy).Contents (Elt F) → (⟨S1x256, .f32⟩ : BufTy).Contents (Elt F)),
    StableHlo.unary main_arg9 main_v47 (broadcastInDim S1x256 ![1] bcast_S256_S1x256_1 : (⟨S256, .f32⟩ : BufTy).Contents (Elt F) → (⟨S1x256, .f32⟩ : BufTy).Contents (Elt F)),
    StableHlo.binary main_v46 main_v47 main_v48 (addf : (⟨S1x256, .f32⟩ : BufTy).Contents (Elt F) → (⟨S1x256, .f32⟩ : BufTy).Contents (Elt F) → (⟨S1x256, .f32⟩ : BufTy).Contents (Elt F)),
    StableHlo.TRef.nullary main_call6.cst (constant S_ .f32 0x00000000#32),
    StableHlo.TRef.unary main_call6.cst main_call6.v0 (broadcastInDim S1x256 ![] bcast_S_S1x256),
    StableHlo.TRef.binary (.of main_v48) main_call6.v0 main_call6.v1 maximumf,
    StableHlo.binary main_v49 main_arg10 main_v50 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    StableHlo.unary main_arg11 main_v51 (broadcastInDim S1x128 ![1] bcast_S128_S1x128_1 : (⟨S128, .f32⟩ : BufTy).Contents (Elt F) → (⟨S1x128, .f32⟩ : BufTy).Contents (Elt F)),
    StableHlo.binary main_v50 main_v51 main_v52 (addf : (⟨S1x128, .f32⟩ : BufTy).Contents (Elt F) → (⟨S1x128, .f32⟩ : BufTy).Contents (Elt F) → (⟨S1x128, .f32⟩ : BufTy).Contents (Elt F)),
    StableHlo.TRef.nullary main_call7.cst (constant S_ .f32 0x00000000#32),
    StableHlo.TRef.unary main_call7.cst main_call7.v0 (broadcastInDim S1x128 ![] bcast_S_S1x128),
    StableHlo.TRef.binary (.of main_v52) main_call7.v0 main_call7.v1 maximumf,
    StableHlo.binary main_v53 main_arg12 main_v54 ((fun l r => Host.dotGeneral dot_S1x128_S128x1_S1x1_1_0_0_1_n_n none l r) : (⟨S1x128, .f32⟩ : BufTy).Contents (Elt F) → (⟨S128x1, .f32⟩ : BufTy).Contents (Elt F) → (⟨S1x1, .f32⟩ : BufTy).Contents (Elt F)),
    StableHlo.unary main_arg13 main_v55 (broadcastInDim S1x1 ![1] bcast_S1_S1x1_1 : (⟨S1, .f32⟩ : BufTy).Contents (Elt F) → (⟨S1x1, .f32⟩ : BufTy).Contents (Elt F)),
    StableHlo.binary main_v54 main_v55 main_v56 (addf : (⟨S1x1, .f32⟩ : BufTy).Contents (Elt F) → (⟨S1x1, .f32⟩ : BufTy).Contents (Elt F) → (⟨S1x1, .f32⟩ : BufTy).Contents (Elt F)),
    StableHlo.unary main_v56 main_v57 (Host.negf : (⟨S1x1, .f32⟩ : BufTy).Contents (Elt F) → (⟨S1x1, .f32⟩ : BufTy).Contents (Elt F)),
    StableHlo.unary main_v57 main_v58 (Host.exp : (⟨S1x1, .f32⟩ : BufTy).Contents (Elt F) → (⟨S1x1, .f32⟩ : BufTy).Contents (Elt F)),
    StableHlo.nullary main_cst_9 (constant S_ .f32 0x3F800000#32),
    StableHlo.unary main_cst_9 main_v59 (broadcastInDim S1x1 ![] bcast_S_S1x1 : (⟨S_, .f32⟩ : BufTy).Contents (Elt F) → (⟨S1x1, .f32⟩ : BufTy).Contents (Elt F)),
    StableHlo.binary main_v59 main_v58 main_v60 (addf : (⟨S1x1, .f32⟩ : BufTy).Contents (Elt F) → (⟨S1x1, .f32⟩ : BufTy).Contents (Elt F) → (⟨S1x1, .f32⟩ : BufTy).Contents (Elt F)),
    StableHlo.nullary main_cst_10 (constant S_ .f32 0x3F800000#32),
    StableHlo.unary main_cst_10 main_v61 (broadcastInDim S1x1 ![] bcast_S_S1x1 : (⟨S_, .f32⟩ : BufTy).Contents (Elt F) → (⟨S1x1, .f32⟩ : BufTy).Contents (Elt F)),
    StableHlo.binary main_v61 main_v60 main_v62 (Host.divf : (⟨S1x1, .f32⟩ : BufTy).Contents (Elt F) → (⟨S1x1, .f32⟩ : BufTy).Contents (Elt F) → (⟨S1x1, .f32⟩ : BufTy).Contents (Elt F)) ]

end Cert.ReferenceIdeal.Hand

end
-- ==== Proof.Ref.Stages.lean ====
/-
  The reference's computation as pure functions of arrays: each definition is the composition of the
  printed operations of the reference program, in the printed order, over variables for the arrays
  that enter it.  The stages are: the two rows of the edge list, the gather of the source rows (with
  its index normalisation and its in-range mask), the scatter-add into the target rows, the clipped
  degree, the mean, a layer, the pool, and the head.
-/
import proofs.«429549_j41987600285851_1_alg».proof.ReferenceIdeal
import Idealize.ShloMosaic.PureOps.Ideal

noncomputable section

namespace Cert.ReferenceIdeal.Hand

open Idealize.ShloMosaic
open Cert.ReferenceIdeal

variable [Facts]
open Cert.ReferenceIdeal.Facts₀ Cert.ReferenceIdeal.Facts

/-- The edge list: two rows of 1600000 node numbers. -/
abbrev EI : Type := (⟨S2x1600000, .i32⟩ : BufTy).Contents (Elt Ideal)

/-- Row 0 of the edge list, as a rank-1 array: the sources. -/
def srcR (ei : EI) : IVec S1600000 32 :=
  fun i => shapeCast S1600000 (extractStridedSlice S1x1600000 ![0, 0] ei slices_S2x1600000_S1x1600000_0_0) shapeCasts_S1x1600000_S1600000 i

/-- Row 1 of the edge list, as a rank-1 array: the targets. -/
def dstR (ei : EI) : IVec S1600000 32 :=
  fun i => shapeCast S1600000 (extractStridedSlice S1x1600000 ![1, 0] ei slices_S2x1600000_S1x1600000_1_0) shapeCasts_S1x1600000_S1600000 i

/-- The normalised gather index of a take: a negative index has 100000 added; as a column. -/
def takeIdxR (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The in-range mask of a take: the normalised index lies in 0 … 99999. -/
def takeOkR (s : IVec S1600000 32) : IVec S1600000 1 :=
  Host.reduce IntOp.andi
    (andi (cmpi .sge (takeIdxR s) (broadcastInDim S1600000x1 ![] bcast_S_S1600000x1 (constantI S_ 32 0#32)))
      (cmpi .sle (takeIdxR s)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The rows of `x` at the sources (width 4): the gather where the index is in range, the filler elsewhere. -/
def take4R (x : FVec Ideal S100000x4 .f32) (ei : EI) : FVec Ideal S1600000x4 .f32 :=
  select (broadcastInDim S1600000x4 ![0] bcast_S1600000_S1600000x4_0 (takeOkR (srcR ei)))
    (Host.gather gather_S100000x4_S1600000x1_S1600000x4_1_0_n_n_0_1_14 x (takeIdxR (srcR ei)))
    (broadcastInDim S1600000x4 ![] bcast_S_S1600000x4 (constant (F := Ideal) S_ .f32 0x7FC00000#32))

/-- The sum of the gathered rows into their targets (width 4), from zero. -/
def agg4R (x : FVec Ideal S100000x4 .f32) (ei : EI) : FVec Ideal S100000x4 .f32 :=
  Host.scatterAdd (F := Ideal) scatter_S100000x4_S1600000x1_S1600000x4_1_0_0_1
    (broadcastInDim S100000x4 ![] bcast_S_S100000x4 (constant (F := Ideal) S_ .f32 0x00000000#32))
    (broadcastInDim S1600000x1 ![0] bcast_S1600000_S1600000x1_0 (dstR ei))
    (take4R x ei)

/-- The number of edges into each node, as a sum of ones from zero. -/
def cntR (ei : EI) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dstR ei))
    (broadcastInDim S1600000 ![] bcast_S_S1600000 (constant (F := Ideal) S_ .f32 0x3F800000#32))

/-- The clipped degree: the larger of one and the count. -/
def degR (ei : EI) : FVec Ideal S100000 .f32 :=
  maximumf (F := Ideal)
    (broadcastInDim S100000 ![] bcast_S_S100000 (id (constant (F := Ideal) S_ .f32 0x3F800000#32)))
    (cntR ei)

/-- An aggregate divided, row by row, by the clipped degree (width 4). -/
def div4R (a : FVec Ideal S100000x4 .f32) (d : FVec Ideal S100000 .f32) : FVec Ideal S100000x4 .f32 :=
  Host.divf (F := Ideal) a
    (broadcastInDim S100000x4 ![0, 1] bcast_S100000x1_S100000x4_0_1
      (broadcastInDim S100000x1 ![0] bcast_S100000_S100000x1_0 d))

/-- The mean of the neighbours' rows (width 4). -/
def mean4R (x : FVec Ideal S100000x4 .f32) (ei : EI) : FVec Ideal S100000x4 .f32 :=
  div4R (agg4R x ei) (degR ei)

/-- The first layer: (mean · W1l + b1) + x · W1r, clipped below at zero. -/
def layer4R (mean x : FVec Ideal S100000x4 .f32) (W1l W1r : FVec Ideal S4x128 .f32) (b1 : FVec Ideal S128 .f32) :
    FVec Ideal S100000x128 .f32 :=
  maximumf (F := Ideal)
    (addf (F := Ideal)
      (addf (F := Ideal)
        (Host.dotGeneral (F := Ideal) dot_S100000x4_S4x128_S100000x128_1_0_0_1_n_n none mean W1l)
        (broadcastInDim S100000x128 ![0, 1] bcast_S1x128_S100000x128_0_1
          (broadcastInDim S1x128 ![1] bcast_S128_S1x128_1 b1)))
      (Host.dotGeneral (F := Ideal) dot_S100000x4_S4x128_S100000x128_1_0_0_1_n_n none x W1r))
    (broadcastInDim S100000x128 ![] bcast_S_S100000x128 (constant (F := Ideal) S_ .f32 0x00000000#32))

/-- The rows of `h` at the sources (width 128). -/
def take128R (h : FVec Ideal S100000x128 .f32) (ei : EI) : FVec Ideal S1600000x128 .f32 :=
  select (broadcastInDim S1600000x128 ![0] bcast_S1600000_S1600000x128_0 (takeOkR (srcR ei)))
    (Host.gather gather_S100000x128_S1600000x1_S1600000x128_1_0_n_n_0_1_1128 h (takeIdxR (srcR ei)))
    (broadcastInDim S1600000x128 ![] bcast_S_S1600000x128 (constant (F := Ideal) S_ .f32 0x7FC00000#32))

/-- The sum of the gathered rows into their targets (width 128), from zero. -/
def agg128R (h : FVec Ideal S100000x128 .f32) (ei : EI) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstR ei))
    (take128R h ei)

/-- An aggregate divided, row by row, by the clipped degree (width 128). -/
def div128R (a : FVec Ideal S100000x128 .f32) (d : FVec Ideal S100000 .f32) : FVec Ideal S100000x128 .f32 :=
  Host.divf (F := Ideal) a
    (broadcastInDim S100000x128 ![0, 1] bcast_S100000x1_S100000x128_0_1
      (broadcastInDim S100000x1 ![0] bcast_S100000_S100000x1_0 d))

/-- The mean of the neighbours' rows (width 128). -/
def mean128R (h : FVec Ideal S100000x128 .f32) (ei : EI) : FVec Ideal S100000x128 .f32 :=
  div128R (agg128R h ei) (degR ei)

/-- The second layer: (mean · W2l + b2) + h · W2r, clipped below at zero. -/
def layer128R (mean h : FVec Ideal S100000x128 .f32) (W2l W2r : FVec Ideal S128x128 .f32) (b2 : FVec Ideal S128 .f32) :
    FVec Ideal S100000x128 .f32 :=
  maximumf (F := Ideal)
    (addf (F := Ideal)
      (addf (F := Ideal)
        (Host.dotGeneral (F := Ideal) dot_S100000x128_S128x128_S100000x128_1_0_0_1_n_n none mean W2l)
        (broadcastInDim S100000x128 ![0, 1] bcast_S1x128_S100000x128_0_1
          (broadcastInDim S1x128 ![1] bcast_S128_S1x128_1 b2)))
      (Host.dotGeneral (F := Ideal) dot_S100000x128_S128x128_S100000x128_1_0_0_1_n_n none h W2r))
    (broadcastInDim S100000x128 ![] bcast_S_S100000x128 (constant (F := Ideal) S_ .f32 0x00000000#32))

/-- The mean over all rows, column by column: the column sums from zero, divided by 100000. -/
def poolR (h2 : FVec Ideal S100000x128 .f32) : FVec Ideal S1x128 .f32 :=
  Host.divf (F := Ideal)
    (broadcastInDim S1x128 ![1] bcast_S128_S1x128_1
      (Host.reduceAdd (F := Ideal) h2 (constant (F := Ideal) S_ .f32 0x00000000#32) reducesTo_S100000x128_S128_d0 h_S_))
    (broadcastInDim S1x128 ![] bcast_S_S1x128 (constant (F := Ideal) S_ .f32 0x47C35000#32))

/-- The head's first dense layer, clipped below at zero. -/
def embR (p : FVec Ideal S1x128 .f32) (Wp : FVec Ideal S128x256 .f32) (bp : FVec Ideal S256 .f32) : FVec Ideal S1x256 .f32 :=
  maximumf (F := Ideal)
    (addf (F := Ideal)
      (Host.dotGeneral (F := Ideal) dot_S1x128_S128x256_S1x256_1_0_0_1_n_n none p Wp)
      (broadcastInDim S1x256 ![1] bcast_S256_S1x256_1 bp))
    (broadcastInDim S1x256 ![] bcast_S_S1x256 (constant (F := Ideal) S_ .f32 0x00000000#32))

/-- The head's second dense layer, clipped below at zero. -/
def hclsR (e : FVec Ideal S1x256 .f32) (Wc1 : FVec Ideal S256x128 .f32) (bc1 : FVec Ideal S128 .f32) : FVec Ideal S1x128 .f32 :=
  maximumf (F := Ideal)
    (addf (F := Ideal)
      (Host.dotGeneral (F := Ideal) dot_S1x256_S256x128_S1x128_1_0_0_1_n_n none e Wc1)
      (broadcastInDim S1x128 ![1] bcast_S128_S1x128_1 bc1))
    (broadcastInDim S1x128 ![] bcast_S_S1x128 (constant (F := Ideal) S_ .f32 0x00000000#32))

/-- The head's last dense layer: one entry. -/
def logitR (c : FVec Ideal S1x128 .f32) (Wc2 : FVec Ideal S128x1 .f32) (bc2 : FVec Ideal S1 .f32) : FVec Ideal S1x1 .f32 :=
  addf (F := Ideal)
    (Host.dotGeneral (F := Ideal) dot_S1x128_S128x1_S1x1_1_0_0_1_n_n none c Wc2)
    (broadcastInDim S1x1 ![1] bcast_S1_S1x1_1 bc2)

/-- The logistic function spelt out: one over one plus the exponential of the negation. -/
def sigmR (z : FVec Ideal S1x1 .f32) : FVec Ideal S1x1 .f32 :=
  Host.divf (F := Ideal)
    (broadcastInDim S1x1 ![] bcast_S_S1x1 (constant (F := Ideal) S_ .f32 0x3F800000#32))
    (addf (F := Ideal)
      (broadcastInDim S1x1 ![] bcast_S_S1x1 (constant (F := Ideal) S_ .f32 0x3F800000#32))
      (Host.exp (F := Ideal) (Host.negf (F := Ideal) z)))

/-- The head: three dense layers and the logistic function. -/
def headR (p : FVec Ideal S1x128 .f32) (Wp : FVec Ideal S128x256 .f32) (bp : FVec Ideal S256 .f32)
    (Wc1 : FVec Ideal S256x128 .f32) (bc1 : FVec Ideal S128 .f32) (Wc2 : FVec Ideal S128x1 .f32) (bc2 : FVec Ideal S1 .f32) :
    FVec Ideal S1x1 .f32 :=
  sigmR (logitR (hclsR (embR p Wp bp) Wc1 bc1) Wc2 bc2)

/-- The whole reference. -/
def refTerm (x : FVec Ideal S100000x4 .f32) (ei : EI) (W1l W1r : FVec Ideal S4x128 .f32) (b1 : FVec Ideal S128 .f32)
    (W2l W2r : FVec Ideal S128x128 .f32) (b2 : FVec Ideal S128 .f32)
    (Wp : FVec Ideal S128x256 .f32) (bp : FVec Ideal S256 .f32) (Wc1 : FVec Ideal S256x128 .f32) (bc1 : FVec Ideal S128 .f32)
    (Wc2 : FVec Ideal S128x1 .f32) (bc2 : FVec Ideal S1 .f32) : FVec Ideal S1x1 .f32 :=
  let h1 := layer4R (mean4R x ei) x W1l W1r b1
  headR (poolR (layer128R (mean128R h1 ei) h1 W2l W2r b2)) Wp bp Wc1 bc1 Wc2 bc2

end Cert.ReferenceIdeal.Hand

end
-- ==== Proof.Ref.Out.lean ====
/-
  The reference program's result as a function of its arguments.  The fold of the 131 operations, read at
  the result buffer, unwinds operation by operation: each operation's result at its own buffer is its
  function of the contents of its operands' buffers, and at any other buffer what was there.  What is left
  is the composition of the operations the result depends on, in program order, which is `refTerm` stage
  by stage — up to the moves of contents between a called function's typed references and the buffers
  themselves, each of which is the identity: inside a call they come in pairs that cancel, and where @main's
  own operations meet a call the typed reference's type is the buffer's by computation.
-/
import proofs.«429549_j41987600285851_1_alg».proof.Proof.Ref.Ops
import proofs.«429549_j41987600285851_1_alg».proof.Proof.Ref.Stages

noncomputable section

namespace Cert.ReferenceIdeal.Hand

open Cert.ReferenceIdeal Cert.ReferenceIdeal.Gen Idealize.ShloMosaic Idealize.ShloMosaic.TcCoe Idealize.SL.Sem Idealize.ShloMosaic.StableHlo

/-- Moving contents to a typed reference's buffer type and back is the identity. -/
theorem ofBuf_toBuf {Val : EltTy → Type} {T : BufTy} (x : TRef sig T) (v : T.Contents Val) : x.ofBuf (x.toBuf v) = v := by
  obtain ⟨r, h, _, _⟩ := x
  subst h
  rfl

section Boundary
variable {Val : EltTy → Type}

/-! The typed references at which @main's own operations meet a called function's.  At a literal buffer the
    typed reference's type is the buffer's by computation, so moving contents to or from it is the identity:
    an operand @main hands to a call (`ofBuf`), a result a call hands back (`toBuf`). -/

theorem ofBuf_arg0 (h1 h2 h3) (v) : (TRef.of main_arg0 h1 h2 h3 : TRef sig ⟨S100000x4, .f32⟩).ofBuf (Val := Val) v = v := rfl
theorem ofBuf_v1 (h1 h2 h3) (v) : (TRef.of main_v1 h1 h2 h3 : TRef sig ⟨S1600000, .i32⟩).ofBuf (Val := Val) v = v := rfl
theorem ofBuf_v11 (h1 h2 h3) (v) : (TRef.of main_v11 h1 h2 h3 : TRef sig ⟨S100000, .f32⟩).ofBuf (Val := Val) v = v := rfl
theorem ofBuf_cst_2 (h1 h2 h3) (v) : (TRef.of main_cst_2 h1 h2 h3 : TRef sig ⟨S_, .f32⟩).ofBuf (Val := Val) v = v := rfl
theorem ofBuf_v21 (h1 h2 h3) (v) : (TRef.of main_v21 h1 h2 h3 : TRef sig ⟨S100000x128, .f32⟩).ofBuf (Val := Val) v = v := rfl
theorem ofBuf_v30 (h1 h2 h3) (v) : (TRef.of main_v30 h1 h2 h3 : TRef sig ⟨S100000, .f32⟩).ofBuf (Val := Val) v = v := rfl
theorem ofBuf_cst_6 (h1 h2 h3) (v) : (TRef.of main_cst_6 h1 h2 h3 : TRef sig ⟨S_, .f32⟩).ofBuf (Val := Val) v = v := rfl
theorem ofBuf_v40 (h1 h2 h3) (v) : (TRef.of main_v40 h1 h2 h3 : TRef sig ⟨S100000x128, .f32⟩).ofBuf (Val := Val) v = v := rfl
theorem ofBuf_v48 (h1 h2 h3) (v) : (TRef.of main_v48 h1 h2 h3 : TRef sig ⟨S1x256, .f32⟩).ofBuf (Val := Val) v = v := rfl
theorem ofBuf_v52 (h1 h2 h3) (v) : (TRef.of main_v52 h1 h2 h3 : TRef sig ⟨S1x128, .f32⟩).ofBuf (Val := Val) v = v := rfl

theorem toBuf_v4 (h1 h2 h3) (v) : (TRef.of main_v4 h1 h2 h3 : TRef sig ⟨S1600000x4, .f32⟩).toBuf (Val := Val) v = v := rfl
theorem toBuf_v12 (h1 h2 h3) (v) : (TRef.of main_v12 h1 h2 h3 : TRef sig ⟨S100000, .f32⟩).toBuf (Val := Val) v = v := rfl
theorem toBuf_v22 (h1 h2 h3) (v) : (TRef.of main_v22 h1 h2 h3 : TRef sig ⟨S100000x128, .f32⟩).toBuf (Val := Val) v = v := rfl
theorem toBuf_v23 (h1 h2 h3) (v) : (TRef.of main_v23 h1 h2 h3 : TRef sig ⟨S1600000x128, .f32⟩).toBuf (Val := Val) v = v := rfl
theorem toBuf_v31 (h1 h2 h3) (v) : (TRef.of main_v31 h1 h2 h3 : TRef sig ⟨S100000, .f32⟩).toBuf (Val := Val) v = v := rfl
theorem toBuf_v41 (h1 h2 h3) (v) : (TRef.of main_v41 h1 h2 h3 : TRef sig ⟨S100000x128, .f32⟩).toBuf (Val := Val) v = v := rfl
theorem toBuf_v49 (h1 h2 h3) (v) : (TRef.of main_v49 h1 h2 h3 : TRef sig ⟨S1x256, .f32⟩).toBuf (Val := Val) v = v := rfl
theorem toBuf_v53 (h1 h2 h3) (v) : (TRef.of main_v53 h1 h2 h3 : TRef sig ⟨S1x128, .f32⟩).toBuf (Val := Val) v = v := rfl

end Boundary

set_option maxRecDepth 8192 in
set_option maxHeartbeats 52400000 in
/-- The fold read at the result buffer is `refTerm` of the arguments' contents.  First the fold is unwound
    to the composition of the operations; then the moves inside the calls cancel in pairs; then the moves at
    the eighteen buffers where @main and a call meet are removed one buffer at a time (a move at one buffer is
    also the move at another buffer of the same type, so each is tried, and the list is gone through twice);
    what remains is `refTerm` with its stages unfolded. -/
theorem out_eq (V : Valuation τ sig (Elt Ideal)) :
    after ops V (main_v62 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) := by
  after_results_simp
  simp only [ofBuf_toBuf]
  iterate 2
    try rw [toBuf_v53]
    try rw [ofBuf_v52]
    try rw [toBuf_v49]
    try rw [ofBuf_v48]
    try rw [toBuf_v41]
    try rw [ofBuf_v40]
    try rw [toBuf_v23]
    try rw [toBuf_v22]
    try rw [ofBuf_v21]
    try rw [toBuf_v31]
    try rw [ofBuf_v30]
    try rw [ofBuf_cst_6]
    try rw [toBuf_v12]
    try rw [ofBuf_v11]
    try rw [ofBuf_cst_2]
    try rw [toBuf_v4]
    try rw [ofBuf_v1]
    try rw [ofBuf_arg0]
  rfl

end Cert.ReferenceIdeal.Hand

end
-- ==== Proof.Ref.Run.lean ====
/-
  The reference program's run.  Its @main is a straight line of 131 host operations (the list `ops`: a
  called function's operations stand in its call's place, over that call's buffers), so every weakly fair
  execution terminates and leaves each buffer at the fold of the operations' results over the launch
  contents.  Read at the result buffer the fold is `refTerm` of the fourteen arguments (`out_eq`); read at
  an argument's buffer, which no operation writes, it is the launch contents.
-/
import proofs.«429549_j41987600285851_1_alg».proof.Proof.Ref.Ops
import proofs.«429549_j41987600285851_1_alg».proof.Proof.Ref.Stages
import proofs.«429549_j41987600285851_1_alg».proof.Proof.Ref.Out

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: its two windows in order, each call unfolded to the called function's body
    over the call's buffers; sequencing computes, so both sides are the same chain of steps. -/
theorem main_eq (c : Dev nD) : main (F := F) c = seq ops := rfl

/-- The signature scopes no buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 8192 in
/-- Every operation of the line touches TensorCore buffers only. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub, and_self]

/-! No operation of the line writes an argument's buffer: each operation's result at a buffer other than
    its own is what was there, so an argument's contents pass through the whole fold unchanged. -/

set_option maxRecDepth 8192 in
set_option maxHeartbeats 4000000 in
theorem arg0_eq (V : Valuation τ sig (Elt F)) : after ops V (main_arg0 : DevRef τ sig) = V (main_arg0 : DevRef τ sig) := by
  after_results_simp

set_option maxRecDepth 8192 in
set_option maxHeartbeats 4000000 in
theorem arg1_eq (V : Valuation τ sig (Elt F)) : after ops V (main_arg1 : DevRef τ sig) = V (main_arg1 : DevRef τ sig) := by
  after_results_simp

set_option maxRecDepth 8192 in
set_option maxHeartbeats 4000000 in
theorem arg2_eq (V : Valuation τ sig (Elt F)) : after ops V (main_arg2 : DevRef τ sig) = V (main_arg2 : DevRef τ sig) := by
  after_results_simp

set_option maxRecDepth 8192 in
set_option maxHeartbeats 4000000 in
theorem arg3_eq (V : Valuation τ sig (Elt F)) : after ops V (main_arg3 : DevRef τ sig) = V (main_arg3 : DevRef τ sig) := by
  after_results_simp

set_option maxRecDepth 8192 in
set_option maxHeartbeats 4000000 in
theorem arg4_eq (V : Valuation τ sig (Elt F)) : after ops V (main_arg4 : DevRef τ sig) = V (main_arg4 : DevRef τ sig) := by
  after_results_simp

set_option maxRecDepth 8192 in
set_option maxHeartbeats 4000000 in
theorem arg5_eq (V : Valuation τ sig (Elt F)) : after ops V (main_arg5 : DevRef τ sig) = V (main_arg5 : DevRef τ sig) := by
  after_results_simp

set_option maxRecDepth 8192 in
set_option maxHeartbeats 4000000 in
theorem arg6_eq (V : Valuation τ sig (Elt F)) : after ops V (main_arg6 : DevRef τ sig) = V (main_arg6 : DevRef τ sig) := by
  after_results_simp

set_option maxRecDepth 8192 in
set_option maxHeartbeats 4000000 in
theorem arg7_eq (V : Valuation τ sig (Elt F)) : after ops V (main_arg7 : DevRef τ sig) = V (main_arg7 : DevRef τ sig) := by
  after_results_simp

set_option maxRecDepth 8192 in
set_option maxHeartbeats 4000000 in
theorem arg8_eq (V : Valuation τ sig (Elt F)) : after ops V (main_arg8 : DevRef τ sig) = V (main_arg8 : DevRef τ sig) := by
  after_results_simp

set_option maxRecDepth 8192 in
set_option maxHeartbeats 4000000 in
theorem arg9_eq (V : Valuation τ sig (Elt F)) : after ops V (main_arg9 : DevRef τ sig) = V (main_arg9 : DevRef τ sig) := by
  after_results_simp

set_option maxRecDepth 8192 in
set_option maxHeartbeats 4000000 in
theorem arg10_eq (V : Valuation τ sig (Elt F)) : after ops V (main_arg10 : DevRef τ sig) = V (main_arg10 : DevRef τ sig) := by
  after_results_simp

set_option maxRecDepth 8192 in
set_option maxHeartbeats 4000000 in
theorem arg11_eq (V : Valuation τ sig (Elt F)) : after ops V (main_arg11 : DevRef τ sig) = V (main_arg11 : DevRef τ sig) := by
  after_results_simp

set_option maxRecDepth 8192 in
set_option maxHeartbeats 4000000 in
theorem arg12_eq (V : Valuation τ sig (Elt F)) : after ops V (main_arg12 : DevRef τ sig) = V (main_arg12 : DevRef τ sig) := by
  after_results_simp

set_option maxRecDepth 8192 in
set_option maxHeartbeats 4000000 in
theorem arg13_eq (V : Valuation τ sig (Elt F)) : after ops V (main_arg13 : DevRef τ sig) = V (main_arg13 : DevRef τ sig) := by
  after_results_simp

/-- From any memory with zero counters, every weakly fair execution of the reference program terminates
    with the result buffer at `refTerm` of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v62).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _), (h c main_arg11).trans (arg11_eq _),
      (h c main_arg12).trans (arg12_eq _), (h c main_arg13).trans (arg13_eq _)⟩)
    (run_seq scopedRefs_eq scopedSems_eq defs main (fun _ => ops) main_eq (fun _ => ops_sub) m ρ)

/-- The run keeps the arguments: the frame of the reference program. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun _ h c => (h c).2) (run m ρ)

end Cert.ReferenceIdeal.Hand

end
-- ==== Proof.Ref.Val.lean ====
/-
  The reference's stages read as the mathematics of Spec: each stage, index by index, is the
  corresponding function of extended reals.  A broadcast reads its operand at the coordinates it
  keeps; a contraction over one axis is the sum over that axis's coordinate of the products of the
  entries; the column sums from zero, divided by 100000, are the column sums times 1/100000; and the
  logistic function is one over one plus the exponential of the negation.  The reference adds the
  bias before the second product where Spec adds it last: the two sums are equal because addition
  of extended reals is commutative and associative.
-/
import proofs.«429549_j41987600285851_1_alg».proof.Proof.Ref.Stages
import proofs.«429549_j41987600285851_1_alg».proof.Proof.Spec
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value

noncomputable section

open scoped BigOperators

namespace Cert.ReferenceIdeal.Hand

open Idealize.ShloMosaic Idealize.ShloMosaic.ValueIdx
open Cert.ReferenceIdeal

variable [Facts]
open Cert.ReferenceIdeal.Facts₀ Cert.ReferenceIdeal.Facts

/-! ## Broadcasts read at an index -/

section Bcast
variable {α : Type}

/-- A vector over the rows made a column and copied along 4 columns reads the row's entry. -/
theorem bcCol4_apply (d : S100000.Idx → α) (r : Fin 100000) (k : Fin 4) :
    broadcastInDim S100000x4 ![0, 1] bcast_S100000x1_S100000x4_0_1
      (broadcastInDim S100000x1 ![0] bcast_S100000_S100000x1_0 d) (ix2 r k) = d (ix1 r) :=
  (broadcastInDim_apply _ _ _ (ix2 r k) (ix2 r (0 : Fin 1)) (fun a => match a with | ⟨0, _⟩ => rfl | ⟨1, _⟩ => rfl)).trans
    (broadcastInDim_apply _ _ _ (ix2 r (0 : Fin 1)) (ix1 r) (fun a => match a with | ⟨0, _⟩ => rfl))

/-- The same along 128 columns. -/
theorem bcCol128_apply (d : S100000.Idx → α) (r : Fin 100000) (k : Fin 128) :
    broadcastInDim S100000x128 ![0, 1] bcast_S100000x1_S100000x128_0_1
      (broadcastInDim S100000x1 ![0] bcast_S100000_S100000x1_0 d) (ix2 r k) = d (ix1 r) :=
  (broadcastInDim_apply _ _ _ (ix2 r k) (ix2 r (0 : Fin 1)) (fun a => match a with | ⟨0, _⟩ => rfl | ⟨1, _⟩ => rfl)).trans
    (broadcastInDim_apply _ _ _ (ix2 r (0 : Fin 1)) (ix1 r) (fun a => match a with | ⟨0, _⟩ => rfl))

/-- A vector of 128 made one row reads its entry. -/
theorem bcRow1x128_apply (b : S128.Idx → α) (z : Fin 1) (j : Fin 128) :
    broadcastInDim S1x128 ![1] bcast_S128_S1x128_1 b (ix2 z j) = b (ix1 j) :=
  broadcastInDim_apply _ _ _ (ix2 z j) (ix1 j) (fun a => match a with | ⟨0, _⟩ => rfl)

/-- A vector of 128 made one row and copied down the rows reads its entry. -/
theorem bcRow128_apply (b : S128.Idx → α) (r : Fin 100000) (j : Fin 128) :
    broadcastInDim S100000x128 ![0, 1] bcast_S1x128_S100000x128_0_1
      (broadcastInDim S1x128 ![1] bcast_S128_S1x128_1 b) (ix2 r j) = b (ix1 j) :=
  (broadcastInDim_apply _ _ _ (ix2 r j) (ix2 (0 : Fin 1) j) (fun a => match a with | ⟨0, _⟩ => rfl | ⟨1, _⟩ => rfl)).trans
    (bcRow1x128_apply b 0 j)

/-- A vector of 256 made one row reads its entry. -/
theorem bcRow1x256_apply (b : S256.Idx → α) (z : Fin 1) (j : Fin 256) :
    broadcastInDim S1x256 ![1] bcast_S256_S1x256_1 b (ix2 z j) = b (ix1 j) :=
  broadcastInDim_apply _ _ _ (ix2 z j) (ix1 j) (fun a => match a with | ⟨0, _⟩ => rfl)

/-- A vector of one entry made one row reads its entry. -/
theorem bcRow1x1_apply (b : S1.Idx → α) (z j : Fin 1) :
    broadcastInDim S1x1 ![1] bcast_S1_S1x1_1 b (ix2 z j) = b (ix1 (0 : Fin 1)) :=
  broadcastInDim_apply _ _ _ (ix2 z j) (ix1 (0 : Fin 1)) (fun a => match a with | ⟨0, _⟩ => rfl)

end Bcast

/-! ## Constants -/

/-- The pattern of 100000.0 denotes the real 100000. -/
theorem ofBits_100000 : Ideal.ofBits .f32 0x47C35000#32 = ((100000 : ℝ) : EReal) := by
  simp [Ideal.ofBits, Ideal.ieee, -EReal.coe_mul]; norm_num

/-! ## Contractions read at an index -/

theorem dot4_apply (A : FVec Ideal S100000x4 .f32) (B : FVec Ideal S4x128 .f32) (a : Fin 100000) (b : Fin 128) :
    Host.dotGeneral (F := Ideal) dot_S100000x4_S4x128_S100000x128_1_0_0_1_n_n none A B (ix2 a b)
      = ∑ c : Fin 4, A (ix2 a c) * B (ix2 c b) :=
  StackMember.dotGeneral_plain_apply (m := 100000) (n := 128) (k := 4) none A B a b

theorem dot128_apply (A : FVec Ideal S100000x128 .f32) (B : FVec Ideal S128x128 .f32) (a : Fin 100000) (b : Fin 128) :
    Host.dotGeneral (F := Ideal) dot_S100000x128_S128x128_S100000x128_1_0_0_1_n_n none A B (ix2 a b)
      = ∑ c : Fin 128, A (ix2 a c) * B (ix2 c b) :=
  StackMember.dotGeneral_plain_apply (m := 100000) (n := 128) (k := 128) none A B a b

theorem dotP_apply (A : FVec Ideal S1x128 .f32) (B : FVec Ideal S128x256 .f32) (a : Fin 1) (b : Fin 256) :
    Host.dotGeneral (F := Ideal) dot_S1x128_S128x256_S1x256_1_0_0_1_n_n none A B (ix2 a b)
      = ∑ c : Fin 128, A (ix2 a c) * B (ix2 c b) :=
  StackMember.dotGeneral_plain_apply (m := 1) (n := 256) (k := 128) none A B a b

theorem dotC1_apply (A : FVec Ideal S1x256 .f32) (B : FVec Ideal S256x128 .f32) (a : Fin 1) (b : Fin 128) :
    Host.dotGeneral (F := Ideal) dot_S1x256_S256x128_S1x128_1_0_0_1_n_n none A B (ix2 a b)
      = ∑ c : Fin 256, A (ix2 a c) * B (ix2 c b) :=
  StackMember.dotGeneral_plain_apply (m := 1) (n := 128) (k := 256) none A B a b

theorem dotC2_apply (A : FVec Ideal S1x128 .f32) (B : FVec Ideal S128x1 .f32) (a : Fin 1) (b : Fin 1) :
    Host.dotGeneral (F := Ideal) dot_S1x128_S128x1_S1x1_1_0_0_1_n_n none A B (ix2 a b)
      = ∑ c : Fin 128, A (ix2 a c) * B (ix2 c b) :=
  StackMember.dotGeneral_plain_apply (m := 1) (n := 1) (k := 128) none A B a b

/-! ## The mean -/

theorem div4R_eq (a : FVec Ideal S100000x4 .f32) (d : FVec Ideal S100000 .f32) : div4R a d = Cert.Spec.meanDiv 4 a d := by
  funext i
  obtain ⟨r, k, rfl⟩ : ∃ (r : Fin 100000) (k : Fin 4), i = ix2 r k := ⟨i 0, i 1, eq_ix2 i⟩
  unfold div4R Cert.Spec.meanDiv
  rw [hostDivf_apply, bcCol4_apply]

theorem div128R_eq (a : FVec Ideal S100000x128 .f32) (d : FVec Ideal S100000 .f32) : div128R a d = Cert.Spec.meanDiv 128 a d := by
  funext i
  obtain ⟨r, k, rfl⟩ : ∃ (r : Fin 100000) (k : Fin 128), i = ix2 r k := ⟨i 0, i 1, eq_ix2 i⟩
  unfold div128R Cert.Spec.meanDiv
  rw [hostDivf_apply, bcCol128_apply]

theorem mean4R_eq (x : FVec Ideal S100000x4 .f32) (ei : EI) :
    mean4R x ei = Cert.Spec.meanDiv 4 (agg4R x ei) (degR ei) := div4R_eq _ _

theorem mean128R_eq (h : FVec Ideal S100000x128 .f32) (ei : EI) :
    mean128R h ei = Cert.Spec.meanDiv 128 (agg128R h ei) (degR ei) := div128R_eq _ _

/-! ## The clipped degree is at least one -/

theorem degR_ne_zero (ei : EI) (r : S100000.Idx) : degR ei r ≠ 0 := by
  unfold degR
  rw [maximumf_apply, broadcastInDim_scalar_apply]
  show max (Ideal.ofBits .f32 0x3F800000#32) (cntR ei r) ≠ 0
  rw [Ideal.ofBits_one_f32]
  exact (lt_of_lt_of_le zero_lt_one (le_max_left 1 _)).ne'

/-! ## The layers -/

theorem layer4R_eq (mean x : FVec Ideal S100000x4 .f32) (W1l W1r : FVec Ideal S4x128 .f32) (b1 : FVec Ideal S128 .f32) :
    layer4R mean x W1l W1r b1 = Cert.Spec.layer 4 mean x W1l W1r b1 := by
  funext i
  obtain ⟨r, j, rfl⟩ : ∃ (r : Fin 100000) (j : Fin 128), i = ix2 r j := ⟨i 0, i 1, eq_ix2 i⟩
  unfold layer4R Cert.Spec.layer Cert.Spec.layerAt
  rw [maximumf_apply, addf_apply, addf_apply, dot4_apply, dot4_apply, bcRow128_apply, broadcastInDim_scalar_apply,
    constant_apply, Ideal.ofBits_zero_f32]
  exact congrArg (fun z => max z 0) (add_right_comm _ _ _)

theorem layer128R_eq (mean h : FVec Ideal S100000x128 .f32) (W2l W2r : FVec Ideal S128x128 .f32) (b2 : FVec Ideal S128 .f32) :
    layer128R mean h W2l W2r b2 = Cert.Spec.layer 128 mean h W2l W2r b2 := by
  funext i
  obtain ⟨r, j, rfl⟩ : ∃ (r : Fin 100000) (j : Fin 128), i = ix2 r j := ⟨i 0, i 1, eq_ix2 i⟩
  unfold layer128R Cert.Spec.layer Cert.Spec.layerAt
  rw [maximumf_apply, addf_apply, addf_apply, dot128_apply, dot128_apply, bcRow128_apply, broadcastInDim_scalar_apply,
    constant_apply, Ideal.ofBits_zero_f32]
  exact congrArg (fun z => max z 0) (add_right_comm _ _ _)

/-! ## The pool -/

theorem poolR_eq (h2 : FVec Ideal S100000x128 .f32) : poolR h2 = Cert.Spec.pool h2 := by
  have hR : S100000x128.Reduces [0] S128 :=
    let ⟨h, hs⟩ := reducesTo_S100000x128_S128_d0
    ⟨h, Nat.one_pos, hs⟩
  funext i
  obtain ⟨z, j, rfl⟩ : ∃ (z : Fin 1) (j : Fin 128), i = ix2 z j := ⟨i 0, i 1, eq_ix2 i⟩
  unfold poolR Cert.Spec.pool
  rw [hostDivf_apply, bcRow1x128_apply, broadcastInDim_scalar_apply, constant_apply, ofBits_100000,
    Ideal.div_coe (by norm_num), hostReduceAdd_apply, constant_apply, Ideal.ofBits_zero_f32,
    Ideal.hostReduceAdd_single reducesTo_S100000x128_S128_d0 hR, zero_add]
  have hl : ∀ k : Fin (S100000x128.size 0), hR.lift (ix1 j) k = ix2 (n0 := 100000) (n1 := 128) k j := fun k => by
    funext a
    match a with
    | ⟨0, _⟩ => rfl
    | ⟨1, _⟩ => rfl
  simp only [hl]
  rfl

/-! ## The head -/

theorem embR_apply (p : FVec Ideal S1x128 .f32) (Wp : FVec Ideal S128x256 .f32) (bp : FVec Ideal S256 .f32) (z : Fin 1) (j : Fin 256) :
    embR p Wp bp (ix2 z j) = Cert.Spec.emb p Wp bp j := by
  obtain rfl : z = 0 := Subsingleton.elim _ _
  unfold embR Cert.Spec.emb
  rw [maximumf_apply, addf_apply, dotP_apply, bcRow1x256_apply, broadcastInDim_scalar_apply, constant_apply, Ideal.ofBits_zero_f32]

theorem hclsR_apply (p : FVec Ideal S1x128 .f32) (Wp : FVec Ideal S128x256 .f32) (bp : FVec Ideal S256 .f32)
    (Wc1 : FVec Ideal S256x128 .f32) (bc1 : FVec Ideal S128 .f32) (z : Fin 1) (j : Fin 128) :
    hclsR (embR p Wp bp) Wc1 bc1 (ix2 z j) = Cert.Spec.hcls p Wp bp Wc1 bc1 j := by
  obtain rfl : z = 0 := Subsingleton.elim _ _
  unfold hclsR Cert.Spec.hcls
  rw [maximumf_apply, addf_apply, dotC1_apply, bcRow1x128_apply, broadcastInDim_scalar_apply, constant_apply, Ideal.ofBits_zero_f32]
  simp only [embR_apply]

theorem sigmR_apply (z : FVec Ideal S1x1 .f32) (i : S1x1.Idx) : sigmR z i = Ideal.logistic (z i) := by
  unfold sigmR
  rw [hostDivf_apply, addf_apply, broadcastInDim_scalar_apply, constant_apply, Ideal.ofBits_one_f32]
  rfl

theorem headR_eq (p : FVec Ideal S1x128 .f32) (Wp : FVec Ideal S128x256 .f32) (bp : FVec Ideal S256 .f32)
    (Wc1 : FVec Ideal S256x128 .f32) (bc1 : FVec Ideal S128 .f32) (Wc2 : FVec Ideal S128x1 .f32) (bc2 : FVec Ideal S1 .f32) :
    headR p Wp bp Wc1 bc1 Wc2 bc2 = Cert.Spec.head p Wp bp Wc1 bc1 Wc2 bc2 := by
  funext i
  obtain ⟨a, b, rfl⟩ : ∃ (a : Fin 1) (b : Fin 1), i = ix2 a b := ⟨i 0, i 1, eq_ix2 i⟩
  obtain rfl : a = 0 := Subsingleton.elim _ _
  obtain rfl : b = 0 := Subsingleton.elim _ _
  unfold headR Cert.Spec.head
  rw [sigmR_apply]
  unfold logitR
  rw [addf_apply, dotC2_apply, bcRow1x1_apply]
  simp only [hclsR_apply]

/-! ## The whole reference -/

theorem refTerm_eq (x : FVec Ideal S100000x4 .f32) (ei : EI) (W1l W1r : FVec Ideal S4x128 .f32) (b1 : FVec Ideal S128 .f32)
    (W2l W2r : FVec Ideal S128x128 .f32) (b2 : FVec Ideal S128 .f32)
    (Wp : FVec Ideal S128x256 .f32) (bp : FVec Ideal S256 .f32) (Wc1 : FVec Ideal S256x128 .f32) (bc1 : FVec Ideal S128 .f32)
    (Wc2 : FVec Ideal S128x1 .f32) (bc2 : FVec Ideal S1 .f32) :
    refTerm x ei W1l W1r b1 W2l W2r b2 Wp bp Wc1 bc1 Wc2 bc2
      = Cert.Spec.net (fun h => Cert.Spec.meanDiv 4 (agg4R h ei) (degR ei)) (fun h => Cert.Spec.meanDiv 128 (agg128R h ei) (degR ei))
          x W1l W1r b1 W2l W2r b2 Wp bp Wc1 bc1 Wc2 bc2 := by
  unfold refTerm Cert.Spec.net
  simp only [headR_eq, poolR_eq, layer128R_eq, layer4R_eq, mean4R_eq, mean128R_eq]

end Cert.ReferenceIdeal.Hand

end
-- ==== Proof.Bridge.lean ====
/-
  The two programs' host chains are one function.  The kernel program and the reference program print the
  same host operations for the edge list's two rows, the gather of the source rows, the scatter-add into the
  target rows and the clipped degree; their dimension records and layout facts differ in name only.  So the
  aggregates and the clipped degree agree, and, the clipped degree being nowhere zero, the network with the
  mean taken as a product with the reciprocal is the network with the mean taken as a quotient.
-/
import proofs.«429549_j41987600285851_1_alg».proof.Proof.KI.HostDefs
import proofs.«429549_j41987600285851_1_alg».proof.Proof.Ref.Stages
import proofs.«429549_j41987600285851_1_alg».proof.Proof.Spec

noncomputable section

namespace Cert.Bridge

open Idealize.ShloMosaic
open Cert.KernelIdeal.HandValue Cert.ReferenceIdeal.Hand

variable [Cert.KernelIdeal.Facts] [Cert.ReferenceIdeal.Facts]

/-! ## Stage by stage: the same operation over the same operands -/

theorem src_eq : srcK = srcR := rfl
theorem dst_eq : dstK = dstR := rfl

theorem takeIdx_eq : takeIdxK = takeIdxR := rfl

theorem takeOk_eq : takeOkK = takeOkR := by
  funext s
  unfold takeOkK takeOkR
  rw [takeIdx_eq]

theorem take4_eq : take4K = take4R := by
  funext x ei
  unfold take4K take4R
  rw [takeOk_eq, takeIdx_eq, src_eq]
  rfl

theorem agg4_eq : agg4K = agg4R := by
  funext x ei
  unfold agg4K agg4R
  rw [take4_eq, dst_eq]
  rfl

theorem cnt_eq : cntK = cntR := by
  funext ei
  unfold cntK cntR
  rw [dst_eq]
  rfl

theorem deg_eq : degK = degR := by
  funext ei
  unfold degK degR
  rw [cnt_eq]

theorem take128_eq : take128K = take128R := by
  funext h ei
  unfold take128K take128R
  rw [takeOk_eq, takeIdx_eq, src_eq]
  rfl

theorem agg128_eq : agg128K = agg128R := by
  funext h ei
  unfold agg128K agg128R
  rw [take128_eq, dst_eq]
  rfl

/-! ## The network, either way of taking the mean -/

theorem net_eq (x : Cert.Spec.Arr2 100000 4) (ei : Cert.KernelIdeal.HandValue.EI)
    (W1l W1r : Cert.Spec.Arr2 4 128) (b1 : Cert.Spec.Arr1 128)
    (W2l W2r : Cert.Spec.Arr2 128 128) (b2 : Cert.Spec.Arr1 128)
    (Wp : Cert.Spec.Arr2 128 256) (bp : Cert.Spec.Arr1 256) (Wc1 : Cert.Spec.Arr2 256 128) (bc1 : Cert.Spec.Arr1 128)
    (Wc2 : Cert.Spec.Arr2 128 1) (bc2 : Cert.Spec.Arr1 1) :
    Cert.Spec.net (fun h => Cert.Spec.meanMul 4 (agg4K h ei) (degK ei)) (fun h => Cert.Spec.meanMul 128 (agg128K h ei) (degK ei))
        x W1l W1r b1 W2l W2r b2 Wp bp Wc1 bc1 Wc2 bc2
      = Cert.Spec.net (fun h => Cert.Spec.meanDiv 4 (agg4R h ei) (degR ei)) (fun h => Cert.Spec.meanDiv 128 (agg128R h ei) (degR ei))
        x W1l W1r b1 W2l W2r b2 Wp bp Wc1 bc1 Wc2 bc2 := by
  have e4 : (fun h : Cert.Spec.Arr2 100000 4 => Cert.Spec.meanMul 4 (agg4K h ei) (degK ei))
      = (fun h : Cert.Spec.Arr2 100000 4 => Cert.Spec.meanDiv 4 (agg4R h ei) (degR ei)) := by
    funext h
    rw [Cert.Spec.meanMul_eq_meanDiv 4 _ _ (degK_ne_zero ei), agg4_eq, deg_eq]
  have e128 : (fun h : Cert.Spec.Arr2 100000 128 => Cert.Spec.meanMul 128 (agg128K h ei) (degK ei))
      = (fun h : Cert.Spec.Arr2 100000 128 => Cert.Spec.meanDiv 128 (agg128R h ei) (degR ei)) := by
    funext h
    rw [Cert.Spec.meanMul_eq_meanDiv 128 _ _ (degK_ne_zero ei), agg128_eq, deg_eq]
  rw [e4, e128]

end Cert.Bridge

end
-- ==== Proof.lean ====
/-
  The certificate's five claims, assembled.

  The three frames: each program runs to the end without a fault and leaves its argument arrays as launched.
  For the two kernel programs (the word-level one and the idealized one) this is the run through the program's
  ten segments — host stretches and the three kernel regions — with the result dropped; for the reference it is
  its run with the result dropped.
  The idealization's one rewrite names the reciprocal of the node count: its table gives the name the rational
  1/100000.
  The value claim: the idealized kernel program ends with the network `Spec.net` of its arguments where the mean
  of the neighbours is the aggregate TIMES the reciprocal of the clipped degree, the reference with the same
  network where the mean is the aggregate DIVIDED BY the clipped degree; the aggregation and the clipped degree
  are the same operations of the edge list in both programs, the clipped degree is at least one, and a quotient by
  a nonzero extended real is the product with the reciprocal: one function.
-/
import proofs.«429549_j41987600285851_1_alg».proof.Defs
import proofs.«429549_j41987600285851_1_alg».proof.Proof.Gen.Kernel
import proofs.«429549_j41987600285851_1_alg».proof.Proof.Gen.KernelIdeal
import proofs.«429549_j41987600285851_1_alg».proof.Proof.Gen.ReferenceIdeal
import proofs.«429549_j41987600285851_1_alg».proof.Proof.Gen.Pre_finite_inputs
import proofs.«429549_j41987600285851_1_alg».proof.Proof.K.Run
import proofs.«429549_j41987600285851_1_alg».proof.Proof.KI.Run
import proofs.«429549_j41987600285851_1_alg».proof.Proof.KI.Result
import proofs.«429549_j41987600285851_1_alg».proof.Proof.Ref.Run
import proofs.«429549_j41987600285851_1_alg».proof.Proof.Ref.Val
import proofs.«429549_j41987600285851_1_alg».proof.Proof.Bridge

noncomputable section

namespace Cert.Proof

open Idealize.ShloMosaic Idealize.SL.Sem

/-- The word-level kernel program's frame: its run with the result dropped. -/
theorem frame_k : Cert.frame_Kernel := fun m ρ _ =>
  (θ_run Cert.Kernel.defs _ _).mono (fun _ h c => (h c).2) (Cert.Kernel.Hand.run_main m ρ)

/-- The idealized kernel program's frame: its run with the result dropped. -/
theorem frame_ki : Cert.frame_KernelIdeal := fun m ρ _ =>
  (θ_run Cert.KernelIdeal.defs _ _).mono (fun _ h c => (h c).2) (Cert.KernelIdeal.Hand.run_main m ρ)

/-- The reference's frame: its run with the result dropped. -/
theorem frame_ri : Cert.frame_ReferenceIdeal := fun m ρ _ => Cert.ReferenceIdeal.Hand.frame m ρ

/-- The one rewrite of the idealization: the table gives the name the rational 1/100000. -/
theorem preserves : Cert.preserves_Kernel_KernelIdeal :=
  IdealRules.named_const.statement Cert.KernelIdeal.κ "inv_100000" .f32 0x3727C5AC#32 ((1 / 100000 : ℝ) : EReal) rfl

/-- Both idealized programs end with one network of the arguments. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.HandValue.result m c), (h c).2⟩)
    (Cert.KernelIdeal.Hand.run_main (F := Ideal) m ρ), ?_⟩
  refine (θ_run Cert.ReferenceIdeal.defs _ _).mono (fun _ h c => ⟨(h c).1.trans ?_, (h c).2⟩)
    (Cert.ReferenceIdeal.Hand.run m' ρ')
  rw [Cert.ReferenceIdeal.Hand.refTerm_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2.1, (hagree c).2.2.2.2.2.2.2.2.2.2.2.2.2]
  exact (Cert.Bridge.net_eq _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
